-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v170)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_v86)) (v3 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_v86) = v2 c
          ∧ r.2.mem ((c.tc : Thread Cert.KernelIdeal.nD Cert.KernelIdeal.τ).loc Cert.KernelIdeal.main_v165) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v152) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x7 : Shape := ⟨3, ![64, 4096, 7]⟩
abbrev S64x4096x80 : Shape := ⟨3, ![64, 4096, 80]⟩
abbrev S64x64x7 : Shape := ⟨3, ![64, 64, 7]⟩
abbrev S64x64 : Shape := ⟨2, ![64, 64]⟩
abbrev S_ : Shape := ⟨0, ![]⟩

class Facts : Prop where
  bcast_S_S64x4096x7 : S_.BroadcastsInDim S64x4096x7 (![] : Fin 0 → Fin S64x4096x7.rank)
  reducesTo_S64x4096x7_S_d0_1_2 : S64x4096x7.ReducesTo [0, 1, 2] S_
  h_S_ : 0 < S_.numel
  bcast_S_S64x4096x80 : S_.BroadcastsInDim S64x4096x80 (![] : Fin 0 → Fin S64x4096x80.rank)
  reducesTo_S64x4096x80_S_d0_1_2 : S64x4096x80.ReducesTo [0, 1, 2] S_
  bcast_S_S64x64x7 : S_.BroadcastsInDim S64x64x7 (![] : Fin 0 → Fin S64x64x7.rank)
  reducesTo_S64x64x7_S_d0_1_2 : S64x64x7.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg5 : IVec S64x64 32) (main_v29 : IVec S_ 1) (main_v31 : IVec S64x64 1) (main_c_13 : IVec S_ 1) : IVec S_ 1 :=
  let main_v32 : IVec S_ 1 := (fun x v => Host.reduce IntOp.andi x v reducesTo_S64x64_S_d0_1 h_S_) main_v31 main_c_13
  let main_v33 : IVec S_ 1 := andi main_v29 main_v32
  let main_c_14 : IVec S_ 32 := constantI S_ 32 64#32
  let main_v34 : IVec S64x64 32 := broadcastInDim S64x64 ![] bcast_S_S64x64 main_c_14
  let main_v35 : IVec S64x64 1 := cmpi .slt main_arg5 main_v34
  let main_c_15 : IVec S_ 1 := constantI S_ 1 1#1
  let main_v36 : IVec S_ 1 := (fun x v => Host.reduce IntOp.andi x v reducesTo_S64x64_S_d0_1 h_S_) main_v35 main_c_15
  let main_v37 : IVec S_ 1 := andi main_v33 main_v36
  main_v37

def fn_part1 {F : FTy → Type} [FloatOps F] (main_arg3 : IVec S64x64 32) (main_arg4 : IVec S64x64 32) (main_arg5 : IVec S64x64 32) (main_v13 : IVec S_ 1) (main_v15 : IVec S64x64 1) (main_c_5 : IVec S_ 1) : IVec S_ 1 :=
  let main_v16 : IVec S_ 1 := (fun x v => Host.reduce IntOp.andi x v reducesTo_S64x64_S_d0_1 h_S_) main_v15 main_c_5
  let main_v17 : IVec S_ 1 := andi main_v13 main_v16
  let main_c_6 : IVec S_ 32 := constantI S_ 32 80#32
  let main_v18 : IVec S64x64 32 := broadcastInDim S64x64 ![] bcast_S_S64x64 main_c_6
  let main_v19 : IVec S64x64 1 := cmpi .slt main_arg3 main_v18
  let main_c_7 : IVec S_ 1 := constantI S_ 1 1#1
  let main_v20 : IVec S_ 1 := (fun x v => Host.reduce IntOp.andi x v reducesTo_S64x64_S_d0_1 h_S_) main_v19 main_c_7
  let main_v21 : IVec S_ 1 := andi main_v17 main_v20
  let main_c_8 : IVec S_ 32 := constantI S_ 32 0#32
  let main_v22 : IVec S64x64 32 := broadcastInDim S64x64 ![] bcast_S_S64x64 main_c_8
  let main_v23 : IVec S64x64 1 := cmpi .sge main_arg4 main_v22
  let main_c_9 : IVec S_ 1 := constantI S_ 1 1#1
  let main_v24 : IVec S_ 1 := (fun x v => Host.reduce IntOp.andi x v reducesTo_S64x64_S_d0_1 h_S_) main_v23 main_c_9
  let main_v25 : IVec S_ 1 := andi main_v21 main_v24
  let main_c_10 : IVec S_ 32 := constantI S_ 32 4096#32
  let main_v26 : IVec S64x64 32 := broadcastInDim S64x64 ![] bcast_S_S64x64 main_c_10
  let main_v27 : IVec S64x64 1 := cmpi .slt main_arg4 main_v26
  let main_c_11 : IVec S_ 1 := constantI S_ 1 1#1
  let main_v28 : IVec S_ 1 := (fun x v => Host.reduce IntOp.andi x v reducesTo_S64x64_S_d0_1 h_S_) main_v27 main_c_11
  let main_v29 : IVec S_ 1 := andi main_v25 main_v28
  let main_c_12 : IVec S_ 32 := constantI S_ 32 0#32
  let main_v30 : IVec S64x64 32 := broadcastInDim S64x64 ![] bcast_S_S64x64 main_c_12
  let main_v31 : IVec S64x64 1 := cmpi .sge main_arg5 main_v30
  let main_c_13 : IVec S_ 1 := constantI S_ 1 1#1
  fn_part2 (F := F) main_arg5 main_v29 main_v31 main_c_13

def fn {F : FTy → Type} [FloatOps F] (main_arg0 : FVec F S64x4096x7 .f32) (main_arg1 : FVec F S64x4096x80 .f32) (main_arg2 : FVec F S64x64x7 .f32) (main_arg3 : IVec S64x64 32) (main_arg4 : IVec S64x64 32) (main_arg5 : IVec S64x64 32) : IVec S_ 1 :=
  let main_v0 : FVec F S64x4096x7 .f32 := Host.absf main_arg0
  let main_cst : FVec F S_ .f32 := constant S_ .f32 0x7F800000#32
  let main_v1 : FVec F S64x4096x7 .f32 := broadcastInDim S64x4096x7 ![] bcast_S_S64x4096x7 main_cst
  let main_v2 : IVec S64x4096x7 1 := cmpf .olt main_v0 main_v1
  let main_c : IVec S_ 1 := constantI S_ 1 1#1
  let main_v3 : IVec S_ 1 := (fun x v => Host.reduce IntOp.andi x v reducesTo_S64x4096x7_S_d0_1_2 h_S_) main_v2 main_c
  let main_v4 : FVec F S64x4096x80 .f32 := Host.absf main_arg1
  let main_cst_0 : FVec F S_ .f32 := constant S_ .f32 0x7F800000#32
  let main_v5 : FVec F S64x4096x80 .f32 := broadcastInDim S64x4096x80 ![] bcast_S_S64x4096x80 main_cst_0
  let main_v6 : IVec S64x4096x80 1 := cmpf .olt main_v4 main_v5
  let main_c_1 : IVec S_ 1 := constantI S_ 1 1#1
  let main_v7 : IVec S_ 1 := (fun x v => Host.reduce IntOp.andi x v reducesTo_S64x4096x80_S_d0_1_2 h_S_) main_v6 main_c_1
  let main_v8 : IVec S_ 1 := andi main_v3 main_v7
  let main_v9 : FVec F S64x64x7 .f32 := Host.absf main_arg2
  let main_cst_2 : FVec F S_ .f32 := constant S_ .f32 0x7F800000#32
  let main_v10 : FVec F S64x64x7 .f32 := broadcastInDim S64x64x7 ![] bcast_S_S64x64x7 main_cst_2
  let main_v11 : IVec S64x64x7 1 := cmpf .olt main_v9 main_v10
  let main_c_3 : IVec S_ 1 := constantI S_ 1 1#1
  let main_v12 : IVec S_ 1 := (fun x v => Host.reduce IntOp.andi x v reducesTo_S64x64x7_S_d0_1_2 h_S_) main_v11 main_c_3
  let main_v13 : IVec S_ 1 := andi main_v8 main_v12
  let main_c_4 : IVec S_ 32 := constantI S_ 32 0#32
  let main_v14 : IVec S64x64 32 := broadcastInDim S64x64 ![] bcast_S_S64x64 main_c_4
  let main_v15 : IVec S64x64 1 := cmpi .sge main_arg3 main_v14
  let main_c_5 : IVec S_ 1 := constantI S_ 1 1#1
  fn_part1 (F := F) main_arg3 main_arg4 main_arg5 main_v13 main_v15 main_c_5
-- ==== Kernel.lean ====
abbrev S64x4096x7 : Shape := ⟨3, ![64, 4096, 7]⟩
abbrev S64x4096x80 : Shape := ⟨3, ![64, 4096, 80]⟩
abbrev S64x64x7 : Shape := ⟨3, ![64, 64, 7]⟩
abbrev S64x64 : Shape := ⟨2, ![64, 64]⟩
abbrev S64x327680 : Shape := ⟨2, ![64, 327680]⟩
abbrev S64x1 : Shape := ⟨2, ![64, 1]⟩
abbrev S16x81920 : Shape := ⟨2, ![16, 81920]⟩
abbrev S16x1 : Shape := ⟨2, ![16, 1]⟩
abbrev S16 : Shape := ⟨1, ![16]⟩
abbrev S_ : Shape := ⟨0, ![]⟩
abbrev S64 : Shape := ⟨1, ![64]⟩
abbrev S64x64x1 : Shape := ⟨3, ![64, 64, 1]⟩
abbrev S1 : Shape := ⟨1, ![1]⟩
abbrev S1x1x1 : Shape := ⟨3, ![1, 1, 1]⟩
abbrev S64x64x3 : Shape := ⟨3, ![64, 64, 3]⟩
abbrev S64x63 : Shape := ⟨2, ![64, 63]⟩
abbrev S64x64x6 : Shape := ⟨3, ![64, 64, 6]⟩

abbrev nBuf : Space → Nat
  | .hbm => 331
  | .vmem => 4
  | .smem => 0
  | _ => 0

abbrev hbmTy0_0 (i : Nat) : BufTy := match i % 128 with
  | 0 => ⟨S64x4096x7, .f32⟩
  | 1 => ⟨S64x4096x80, .f32⟩
  | 2 => ⟨S64x64x7, .f32⟩
  | 3 => ⟨S64x64, .i32⟩
  | 4 => ⟨S64x64, .i32⟩
  | 5 => ⟨S64x64, .i32⟩
  | 6 => ⟨S64x327680, .f32⟩
  | 7 => ⟨S64x1, .f32⟩
  | 8 => ⟨S_, .f32⟩
  | 9 => ⟨S_, .f32⟩
  | 10 => ⟨S64, .i32⟩
  | 11 => ⟨S64x1, .i32⟩
  | 12 => ⟨S_, .i32⟩
  | 13 => ⟨S64x64, .i32⟩
  | 14 => ⟨S64x64, .i1⟩
  | 15 => ⟨S_, .i32⟩
  | 16 => ⟨S64x64, .i32⟩
  | 17 => ⟨S64x64, .i32⟩
  | 18 => ⟨S64x64, .i32⟩
  | 19 => ⟨S64x64x1, .i32⟩
  | 20 => ⟨S1, .i32⟩
  | 21 => ⟨S_, .i32⟩
  | 22 => ⟨S64x64x1, .i32⟩
  | 23 => ⟨S64x64x1, .i1⟩
  | 24 => ⟨S1x1x1, .i32⟩
  | 25 => ⟨S64x64x1, .i32⟩
  | 26 => ⟨S64x64x1, .i1⟩
  | 27 => ⟨S64x64x1, .i1⟩
  | 28 => ⟨S_, .i1⟩
  | 29 => ⟨S64x64, .i1⟩
  | 30 => ⟨S64x64, .i32⟩
  | 31 => ⟨S_, .i32⟩
  | 32 => ⟨S64x64, .i32⟩
  | 33 => ⟨S64x64, .i32⟩
  | 34 => ⟨S_, .i32⟩
  | 35 => ⟨S64x1, .i32⟩
  | 36 => ⟨S64x1, .i1⟩
  | 37 => ⟨S_, .i32⟩
  | 38 => ⟨S64x1, .i32⟩
  | 39 => ⟨S64x1, .i32⟩
  | 40 => ⟨S64x1, .i32⟩
  | 41 => ⟨S_, .i32⟩
  | 42 => ⟨S64x64, .i32⟩
  | 43 => ⟨S64x64, .i1⟩
  | 44 => ⟨S_, .i32⟩
  | 45 => ⟨S64x64, .i32⟩
  | 46 => ⟨S64x64, .i32⟩
  | 47 => ⟨S64x64, .i32⟩
  | 48 => ⟨S_, .i32⟩
  | 49 => ⟨S64x64, .i32⟩
  | 50 => ⟨S64x64, .i1⟩
  | 51 => ⟨S_, .i32⟩
  | 52 => ⟨S64x64, .i32⟩
  | 53 => ⟨S64x64, .i32⟩
  | 54 => ⟨S64x64, .i32⟩
  | 55 => ⟨S64x64, .i32⟩
  | 56 => ⟨S64x64x1, .i32⟩
  | 57 => ⟨S64x64x1, .i32⟩
  | 58 => ⟨S64x64x1, .i32⟩
  | 59 => ⟨S64x64x3, .i32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S_, .f32⟩
  | 67 => ⟨S64x64, .f32⟩
  | 68 => ⟨S64x64, .f32⟩
  | 69 => ⟨S_, .f32⟩
  | 70 => ⟨S64x64, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S_, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S_, .f32⟩
  | 87 => ⟨S64x64, .f32⟩
  | 88 => ⟨S64x64, .f32⟩
  | 89 => ⟨S_, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S64x64, .f32⟩
  | 103 => ⟨S64x64, .f32⟩
  | 104 => ⟨S_, .i32⟩
  | 105 => ⟨S64x64, .i32⟩
  | 106 => ⟨S64x64, .i32⟩
  | 107 => ⟨S64x64, .i32⟩
  | 108 => ⟨S64x64, .i32⟩
  | 109 => ⟨S64x64, .i32⟩
  | 110 => ⟨S64x64, .i32⟩
  | 111 => ⟨S_, .i32⟩
  | 112 => ⟨S64x64, .i32⟩
  | 113 => ⟨S64x64, .i1⟩
  | 114 => ⟨S_, .i32⟩
  | 115 => ⟨S64x64, .i32⟩
  | 116 => ⟨S64x64, .i32⟩
  | 117 => ⟨S64x64, .i32⟩
  | 118 => ⟨S64x64x1, .i32⟩
  | 119 => ⟨S1, .i32⟩
  | 120 => ⟨S_, .i32⟩
  | 121 => ⟨S64x64x1, .i32⟩
  | 122 => ⟨S64x64x1, .i1⟩
  | 123 => ⟨S1x1x1, .i32⟩
  | 124 => ⟨S64x64x1, .i32⟩
  | 125 => ⟨S64x64x1, .i1⟩
  | 126 => ⟨S64x64x1, .i1⟩
  | 127 => ⟨S_, .i1⟩
  | _ => ⟨S64x4096x7, .f32⟩

abbrev hbmTy0_1 (i : Nat) : BufTy := match i % 128 with
  | 0 => ⟨S64x64, .i1⟩
  | 1 => ⟨S64x64, .i32⟩
  | 2 => ⟨S_, .i32⟩
  | 3 => ⟨S64x64, .i32⟩
  | 4 => ⟨S64x64, .i32⟩
  | 5 => ⟨S_, .i32⟩
  | 6 => ⟨S64x64, .i32⟩
  | 7 => ⟨S64x64, .i1⟩
  | 8 => ⟨S_, .i32⟩
  | 9 => ⟨S64x64, .i32⟩
  | 10 => ⟨S64x64, .i32⟩
  | 11 => ⟨S64x64, .i32⟩
  | 12 => ⟨S64x64x1, .i32⟩
  | 13 => ⟨S1, .i32⟩
  | 14 => ⟨S_, .i32⟩
  | 15 => ⟨S64x64x1, .i32⟩
  | 16 => ⟨S64x64x1, .i1⟩
  | 17 => ⟨S1x1x1, .i32⟩
  | 18 => ⟨S64x64x1, .i32⟩
  | 19 => ⟨S64x64x1, .i1⟩
  | 20 => ⟨S64x64x1, .i1⟩
  | 21 => ⟨S_, .i1⟩
  | 22 => ⟨S64x64, .i1⟩
  | 23 => ⟨S64x64, .f32⟩
  | 24 => ⟨S_, .f32⟩
  | 25 => ⟨S64x64, .f32⟩
  | 26 => ⟨S64x64, .f32⟩
  | 27 => ⟨S_, .i1⟩
  | 28 => ⟨S64x1, .i1⟩
  | 29 => ⟨S64x63, .i32⟩
  | 30 => ⟨S64x63, .i32⟩
  | 31 => ⟨S64x63, .i1⟩
  | 32 => ⟨S64x64, .i1⟩
  | 33 => ⟨S_, .f32⟩
  | 34 => ⟨S_, .f32⟩
  | 35 => ⟨S64x64, .f32⟩
  | 36 => ⟨S64x64, .f32⟩
  | 37 => ⟨S_, .f32⟩
  | 38 => ⟨S_, .f32⟩
  | 39 => ⟨S_, .f32⟩
  | 40 => ⟨S_, .f32⟩
  | 41 => ⟨S_, .f32⟩
  | 42 => ⟨S64x64x1, .i32⟩
  | 43 => ⟨S_, .i32⟩
  | 44 => ⟨S64x64x1, .i32⟩
  | 45 => ⟨S64x64x1, .i1⟩
  | 46 => ⟨S_, .i32⟩
  | 47 => ⟨S64x64x1, .i32⟩
  | 48 => ⟨S64x64x1, .i32⟩
  | 49 => ⟨S64x64x1, .i32⟩
  | 50 => ⟨S1, .i32⟩
  | 51 => ⟨S_, .i32⟩
  | 52 => ⟨S64x64x1, .i32⟩
  | 53 => ⟨S64x64x1, .i1⟩
  | 54 => ⟨S1x1x1, .i32⟩
  | 55 => ⟨S64x64x1, .i32⟩
  | 56 => ⟨S64x64x1, .i1⟩
  | 57 => ⟨S64x64x1, .i1⟩
  | 58 => ⟨S_, .i1⟩
  | 59 => ⟨S64x64, .i1⟩
  | 60 => ⟨S64x64x7, .f32⟩
  | 61 => ⟨S64x64x7, .i1⟩
  | 62 => ⟨S_, .f32⟩
  | 63 => ⟨S64x64x7, .f32⟩
  | 64 => ⟨S64x64x7, .f32⟩
  | 65 => ⟨S64x64x1, .i32⟩
  | 66 => ⟨S_, .i32⟩
  | 67 => ⟨S64x64x1, .i32⟩
  | 68 => ⟨S64x64x1, .i1⟩
  | 69 => ⟨S_, .i32⟩
  | 70 => ⟨S64x64x1, .i32⟩
  | 71 => ⟨S64x64x1, .i32⟩
  | 72 => ⟨S64x64x1, .i32⟩
  | 73 => ⟨S1, .i32⟩
  | 74 => ⟨S_, .i32⟩
  | 75 => ⟨S64x64x1, .i32⟩
  | 76 => ⟨S64x64x1, .i1⟩
  | 77 => ⟨S1x1x1, .i32⟩
  | 78 => ⟨S64x64x1, .i32⟩
  | 79 => ⟨S64x64x1, .i1⟩
  | 80 => ⟨S64x64x1, .i1⟩
  | 81 => ⟨S_, .i1⟩
  | 82 => ⟨S64x64, .i1⟩
  | 83 => ⟨S64x64x7, .f32⟩
  | 84 => ⟨S64x64x7, .i1⟩
  | 85 => ⟨S_, .f32⟩
  | 86 => ⟨S64x64x7, .f32⟩
  | 87 => ⟨S64x64x7, .f32⟩
  | 88 => ⟨S64x64x7, .f32⟩
  | 89 => ⟨S64x64x7, .f32⟩
  | 90 => ⟨S_, .f32⟩
  | 91 => ⟨S64, .f32⟩
  | 92 => ⟨S_, .f32⟩
  | 93 => ⟨S64, .f32⟩
  | 94 => ⟨S64, .f32⟩
  | 95 => ⟨S_, .f32⟩
  | 96 => ⟨S_, .f32⟩
  | 97 => ⟨S_, .f32⟩
  | 98 => ⟨S_, .f32⟩
  | 99 => ⟨S64x64x6, .f32⟩
  | 100 => ⟨S64x64x6, .f32⟩
  | 101 => ⟨S64x64x3, .f32⟩
  | 102 => ⟨S64x64x3, .f32⟩
  | 103 => ⟨S_, .f32⟩
  | 104 => ⟨S64x64x3, .f32⟩
  | 105 => ⟨S64x64x3, .f32⟩
  | 106 => ⟨S64x64x3, .f32⟩
  | 107 => ⟨S64x64x3, .f32⟩
  | 108 => ⟨S64x64x3, .f32⟩
  | 109 => ⟨S_, .f32⟩
  | 110 => ⟨S64x64x3, .f32⟩
  | 111 => ⟨S64x64x3, .f32⟩
  | 112 => ⟨S64x64x3, .f32⟩
  | 113 => ⟨S64x64x3, .f32⟩
  | 114 => ⟨S64x64x3, .f32⟩
  | 115 => ⟨S_, .f32⟩
  | 116 => ⟨S64x64x3, .f32⟩
  | 117 => ⟨S64x64x3, .f32⟩
  | 118 => ⟨S64x64x3, .f32⟩
  | 119 => ⟨S64x64x3, .f32⟩
  | 120 => ⟨S64x64x3, .f32⟩
  | 121 => ⟨S_, .f32⟩
  | 122 => ⟨S64x64x3, .f32⟩
  | 123 => ⟨S64x64x3, .f32⟩
  | 124 => ⟨S64x64x3, .f32⟩
  | 125 => ⟨S64x64x3, .f32⟩
  | 126 => ⟨S64x64x3, .f32⟩
  | 127 => ⟨S64x64x3, .f32⟩
  | _ => ⟨S64x4096x7, .f32⟩

abbrev hbmTy0_2 (i : Nat) : BufTy := match i % 128 with
  | 0 => ⟨S_, .f32⟩
  | 1 => ⟨S_, .f32⟩
  | 2 => ⟨S64x64x3, .f32⟩
  | 3 => ⟨S64x64x3, .f32⟩
  | 4 => ⟨S64x64x1, .f32⟩
  | 5 => ⟨S64x64, .f32⟩
  | 6 => ⟨S64x64x1, .f32⟩
  | 7 => ⟨S64x64, .f32⟩
  | 8 => ⟨S64x64, .f32⟩
  | 9 => ⟨S64x64x1, .f32⟩
  | 10 => ⟨S64x64, .f32⟩
  | 11 => ⟨S64x64, .f32⟩
  | 12 => ⟨S64x64x1, .f32⟩
  | 13 => ⟨S64x64, .f32⟩
  | 14 => ⟨S64x64x1, .f32⟩
  | 15 => ⟨S64x64, .f32⟩
  | 16 => ⟨S64x64, .f32⟩
  | 17 => ⟨S64x64x1, .f32⟩
  | 18 => ⟨S64x64, .f32⟩
  | 19 => ⟨S64x64, .f32⟩
  | 20 => ⟨S64x64x1, .f32⟩
  | 21 => ⟨S64x64, .f32⟩
  | 22 => ⟨S64x64x1, .f32⟩
  | 23 => ⟨S64x64, .f32⟩
  | 24 => ⟨S64x64, .f32⟩
  | 25 => ⟨S64x64x1, .f32⟩
  | 26 => ⟨S64x64, .f32⟩
  | 27 => ⟨S64x64, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x64, .f32⟩
  | 34 => ⟨S64x64x3, .f32⟩
  | 35 => ⟨S64x64x3, .f32⟩
  | 36 => ⟨S64x64x3, .f32⟩
  | 37 => ⟨S_, .f32⟩
  | 38 => ⟨S_, .f32⟩
  | 39 => ⟨S64x64x3, .f32⟩
  | 40 => ⟨S64x64x3, .f32⟩
  | 41 => ⟨S64x64x1, .f32⟩
  | 42 => ⟨S64x64, .f32⟩
  | 43 => ⟨S64x64x1, .f32⟩
  | 44 => ⟨S64x64, .f32⟩
  | 45 => ⟨S64x64, .f32⟩
  | 46 => ⟨S64x64x1, .f32⟩
  | 47 => ⟨S64x64, .f32⟩
  | 48 => ⟨S64x64, .f32⟩
  | 49 => ⟨S_, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S_, .f32⟩
  | 56 => ⟨S64x64, .f32⟩
  | 57 => ⟨S64x64, .f32⟩
  | 58 => ⟨S_, .f32⟩
  | 59 => ⟨S64, .f32⟩
  | 60 => ⟨S_, .f32⟩
  | 61 => ⟨S64, .f32⟩
  | 62 => ⟨S64, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | _ => ⟨S64x4096x7, .f32⟩

abbrev hbmTy (i : Nat) : BufTy := match i / 128 with
  | 0 => hbmTy0_0 i
  | 1 => hbmTy0_1 i
  | 2 => hbmTy0_2 i
  | _ => ⟨S64x4096x7, .f32⟩

abbrev bufTy : (tb : Table) → Fin (tcTables nBuf tb) → BufTy
  | .hbm, ⟨i, _⟩ => hbmTy i
  | .local _ .vmem, ⟨0, _⟩ => ⟨S16x81920, .f32⟩
  | .local _ .vmem, ⟨1, _⟩ => ⟨S16x81920, .f32⟩
  | .local _ .vmem, ⟨2, _⟩ => ⟨S16x1, .f32⟩
  | .local _ .vmem, ⟨3, _⟩ => ⟨S16x1, .f32⟩
  | _, _ => ⟨S64x4096x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_c_4 : Ref sig .tc := ⟨.hbm, 31, rfl⟩
abbrev main_call0_v14 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_3 : Ref sig .tc := ⟨.hbm, 48, rfl⟩
abbrev main_v16 : Ref sig .tc := ⟨.hbm, 49, rfl⟩
abbrev main_v17 : Ref sig .tc := ⟨.hbm, 50, rfl⟩
abbrev main_c_4 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_8 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_9 : Ref sig .tc := ⟨.hbm, 86, rfl⟩
abbrev main_v48 : Ref sig .tc := ⟨.hbm, 87, rfl⟩
abbrev main_v49 : Ref sig .tc := ⟨.hbm, 88, rfl⟩
abbrev main_cst_10 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_11 : Ref sig .tc := ⟨.hbm, 93, rfl⟩
abbrev main_v53 : Ref sig .tc := ⟨.hbm, 94, rfl⟩
abbrev main_v54 : Ref sig .tc := ⟨.hbm, 95, rfl⟩
abbrev main_cst_12 : Ref sig .tc := ⟨.hbm, 96, rfl⟩
abbrev main_v55 : Ref sig .tc := ⟨.hbm, 97, rfl⟩
abbrev main_v56 : Ref sig .tc := ⟨.hbm, 98, rfl⟩
abbrev main_cst_13 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_c_14 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_call1_v0 : Ref sig .tc := ⟨.hbm, 108, rfl⟩
abbrev main_call1_v1_0 : Ref sig .tc := ⟨.hbm, 109, rfl⟩
abbrev main_v64 : Ref sig .tc := ⟨.hbm, 110, rfl⟩
abbrev main_call2_c : Ref sig .tc := ⟨.hbm, 111, rfl⟩
abbrev main_call2_v0 : Ref sig .tc := ⟨.hbm, 112, rfl⟩
abbrev main_call2_v1 : Ref sig .tc := ⟨.hbm, 113, rfl⟩
abbrev main_call2_c_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_c_1 : Ref sig .tc := ⟨.hbm, 119, rfl⟩
abbrev main_call2_c_2 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_3 : Ref sig .tc := ⟨.hbm, 127, rfl⟩
abbrev main_call2_v12 : Ref sig .tc := ⟨.hbm, 128, rfl⟩
abbrev main_call2_v13 : Ref sig .tc := ⟨.hbm, 129, rfl⟩
abbrev main_call2_c_4 : Ref sig .tc := ⟨.hbm, 130, rfl⟩
abbrev main_call2_v14 : Ref sig .tc := ⟨.hbm, 131, rfl⟩
abbrev main_v65 : Ref sig .tc := ⟨.hbm, 132, rfl⟩
abbrev main_call3_c : Ref sig .tc := ⟨.hbm, 133, rfl⟩
abbrev main_call3_v0 : Ref sig .tc := ⟨.hbm, 134, rfl⟩
abbrev main_call3_v1 : Ref sig .tc := ⟨.hbm, 135, rfl⟩
abbrev main_call3_c_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_c_1 : Ref sig .tc := ⟨.hbm, 141, rfl⟩
abbrev main_call3_c_2 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_3 : Ref sig .tc := ⟨.hbm, 149, rfl⟩
abbrev main_call3_v12 : Ref sig .tc := ⟨.hbm, 150, rfl⟩
abbrev main_call3_v13 : Ref sig .tc := ⟨.hbm, 151, rfl⟩
abbrev main_call3_cst : Ref sig .tc := ⟨.hbm, 152, rfl⟩
abbrev main_call3_v14 : Ref sig .tc := ⟨.hbm, 153, rfl⟩
abbrev main_v66 : Ref sig .tc := ⟨.hbm, 154, rfl⟩
abbrev main_c_15 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_cst_16 : Ref sig .tc := ⟨.hbm, 161, rfl⟩
abbrev main_call4_v0 : Ref sig .tc := ⟨.hbm, 162, rfl⟩
abbrev main_call4_v1 : Ref sig .tc := ⟨.hbm, 163, rfl⟩
abbrev main_v72 : Ref sig .tc := ⟨.hbm, 164, rfl⟩
abbrev main_cst_17 : Ref sig .tc := ⟨.hbm, 165, rfl⟩
abbrev main_v73 : Ref sig .tc := ⟨.hbm, 166, rfl⟩
abbrev main_v74 : Ref sig .tc := ⟨.hbm, 167, rfl⟩
abbrev main_cst_18 : Ref sig .tc := ⟨.hbm, 168, rfl⟩
abbrev main_v75 : Ref sig .tc := ⟨.hbm, 169, rfl⟩
abbrev main_v76 : Ref sig .tc := ⟨.hbm, 170, rfl⟩
abbrev main_call5_c : Ref sig .tc := ⟨.hbm, 171, rfl⟩
abbrev main_call5_v0 : Ref sig .tc := ⟨.hbm, 172, rfl⟩
abbrev main_call5_v1 : Ref sig .tc := ⟨.hbm, 173, rfl⟩
abbrev main_call5_c_0 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_call5_c_1 : Ref sig .tc := ⟨.hbm, 178, rfl⟩
abbrev main_call5_c_2 : Ref sig .tc := ⟨.hbm, 179, rfl⟩
abbrev main_call5_v5 : Ref sig .tc := ⟨.hbm, 180, rfl⟩
abbrev main_call5_v6 : Ref sig .tc := ⟨.hbm, 181, rfl⟩
abbrev main_call5_v7 : Ref sig .tc := ⟨.hbm, 182, rfl⟩
abbrev main_call5_v8 : Ref sig .tc := ⟨.hbm, 183, rfl⟩
abbrev main_call5_v9 : Ref sig .tc := ⟨.hbm, 184, rfl⟩
abbrev main_call5_v10 : Ref sig .tc := ⟨.hbm, 185, rfl⟩
abbrev main_call5_c_3 : Ref sig .tc := ⟨.hbm, 186, rfl⟩
abbrev main_call5_v11 : Ref sig .tc := ⟨.hbm, 187, rfl⟩
abbrev main_call5_v12 : Ref sig .tc := ⟨.hbm, 188, rfl⟩
abbrev main_call5_v13 : Ref sig .tc := ⟨.hbm, 189, rfl⟩
abbrev main_call5_cst : Ref sig .tc := ⟨.hbm, 190, rfl⟩
abbrev main_call5_v14 : Ref sig .tc := ⟨.hbm, 191, rfl⟩
abbrev main_v77 : Ref sig .tc := ⟨.hbm, 192, rfl⟩
abbrev main_v78 : Ref sig .tc := ⟨.hbm, 193, rfl⟩
abbrev main_call6_c : Ref sig .tc := ⟨.hbm, 194, rfl⟩
abbrev main_call6_v0 : Ref sig .tc := ⟨.hbm, 195, rfl⟩
abbrev main_call6_v1 : Ref sig .tc := ⟨.hbm, 196, rfl⟩
abbrev main_call6_c_0 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_call6_c_1 : Ref sig .tc := ⟨.hbm, 201, rfl⟩
abbrev main_call6_c_2 : Ref sig .tc := ⟨.hbm, 202, rfl⟩
abbrev main_call6_v5 : Ref sig .tc := ⟨.hbm, 203, rfl⟩
abbrev main_call6_v6 : Ref sig .tc := ⟨.hbm, 204, rfl⟩
abbrev main_call6_v7 : Ref sig .tc := ⟨.hbm, 205, rfl⟩
abbrev main_call6_v8 : Ref sig .tc := ⟨.hbm, 206, rfl⟩
abbrev main_call6_v9 : Ref sig .tc := ⟨.hbm, 207, rfl⟩
abbrev main_call6_v10 : Ref sig .tc := ⟨.hbm, 208, rfl⟩
abbrev main_call6_c_3 : Ref sig .tc := ⟨.hbm, 209, rfl⟩
abbrev main_call6_v11 : Ref sig .tc := ⟨.hbm, 210, rfl⟩
abbrev main_call6_v12 : Ref sig .tc := ⟨.hbm, 211, rfl⟩
abbrev main_call6_v13 : Ref sig .tc := ⟨.hbm, 212, rfl⟩
abbrev main_call6_cst : Ref sig .tc := ⟨.hbm, 213, rfl⟩
abbrev main_call6_v14 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_cst_19 : Ref sig .tc := ⟨.hbm, 218, rfl⟩
abbrev main_v82 : Ref sig .tc := ⟨.hbm, 219, rfl⟩
abbrev main_cst_20 : Ref sig .tc := ⟨.hbm, 220, rfl⟩
abbrev main_v83 : Ref sig .tc := ⟨.hbm, 221, rfl⟩
abbrev main_v84 : Ref sig .tc := ⟨.hbm, 222, rfl⟩
abbrev main_cst_21 : Ref sig .tc := ⟨.hbm, 223, rfl⟩
abbrev main_v85 : Ref sig .tc := ⟨.hbm, 224, rfl⟩
abbrev main_cst_22 : Ref sig .tc := ⟨.hbm, 225, rfl⟩
abbrev main_v86 : Ref sig .tc := ⟨.hbm, 226, rfl⟩
abbrev main_v87 : Ref sig .tc := ⟨.hbm, 227, rfl⟩
abbrev main_v88 : Ref sig .tc := ⟨.hbm, 228, rfl⟩
abbrev main_v89 : Ref sig .tc := ⟨.hbm, 229, rfl⟩
abbrev main_v90 : Ref sig .tc := ⟨.hbm, 230, rfl⟩
abbrev main_cst_23 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_v95 : Ref sig .tc := ⟨.hbm, 236, rfl⟩
abbrev main_cst_24 : Ref sig .tc := ⟨.hbm, 237, rfl⟩
abbrev main_v96 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_cst_25 : Ref sig .tc := ⟨.hbm, 243, rfl⟩
abbrev main_v101 : Ref sig .tc := ⟨.hbm, 244, rfl⟩
abbrev main_v102 : Ref sig .tc := ⟨.hbm, 245, rfl⟩
abbrev main_v103 : Ref sig .tc := ⟨.hbm, 246, rfl⟩
abbrev main_v104 : Ref sig .tc := ⟨.hbm, 247, rfl⟩
abbrev main_v105 : Ref sig .tc := ⟨.hbm, 248, rfl⟩
abbrev main_cst_26 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_v111 : Ref sig .tc := ⟨.hbm, 255, rfl⟩
abbrev main_cst_27 : Ref sig .tc := ⟨.hbm, 256, rfl⟩
abbrev main_call7_v0 : Ref sig .tc := ⟨.hbm, 257, rfl⟩
abbrev main_call7_v1 : Ref sig .tc := ⟨.hbm, 258, rfl⟩
abbrev main_v112 : Ref sig .tc := ⟨.hbm, 259, rfl⟩
abbrev main_v113 : Ref sig .tc := ⟨.hbm, 260, rfl⟩
abbrev main_v114 : Ref sig .tc := ⟨.hbm, 261, rfl⟩
abbrev main_v115 : Ref sig .tc := ⟨.hbm, 262, rfl⟩
abbrev main_v116 : Ref sig .tc := ⟨.hbm, 263, rfl⟩
abbrev main_v117 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_v125 : Ref sig .tc := ⟨.hbm, 272, rfl⟩
abbrev main_v126 : Ref sig .tc := ⟨.hbm, 273, rfl⟩
abbrev main_v127 : Ref sig .tc := ⟨.hbm, 274, rfl⟩
abbrev main_v128 : Ref sig .tc := ⟨.hbm, 275, rfl⟩
abbrev main_v129 : Ref sig .tc := ⟨.hbm, 276, rfl⟩
abbrev main_v130 : Ref sig .tc := ⟨.hbm, 277, rfl⟩
abbrev main_v131 : Ref sig .tc := ⟨.hbm, 278, rfl⟩
abbrev main_v132 : Ref sig .tc := ⟨.hbm, 279, rfl⟩
abbrev main_v133 : Ref sig .tc := ⟨.hbm, 280, rfl⟩
abbrev main_v134 : Ref sig .tc := ⟨.hbm, 281, rfl⟩
abbrev main_v135 : Ref sig .tc := ⟨.hbm, 282, rfl⟩
abbrev main_v136 : Ref sig .tc := ⟨.hbm, 283, rfl⟩
abbrev main_v137 : Ref sig .tc := ⟨.hbm, 284, rfl⟩
abbrev main_v138 : Ref sig .tc := ⟨.hbm, 285, rfl⟩
abbrev main_cst_28 : Ref sig .tc := ⟨.hbm, 286, rfl⟩
abbrev main_v139 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩
abbrev main_cst_29 : Ref sig .tc := ⟨.hbm, 293, rfl⟩
abbrev main_call8_v0 : Ref sig .tc := ⟨.hbm, 294, rfl⟩
abbrev main_call8_v1 : Ref sig .tc := ⟨.hbm, 295, rfl⟩
abbrev main_v145 : Ref sig .tc := ⟨.hbm, 296, rfl⟩
abbrev main_v146 : Ref sig .tc := ⟨.hbm, 297, rfl⟩
abbrev main_v147 : Ref sig .tc := ⟨.hbm, 298, rfl⟩
abbrev main_v148 : Ref sig .tc := ⟨.hbm, 299, rfl⟩
abbrev main_v149 : Ref sig .tc := ⟨.hbm, 300, rfl⟩
abbrev main_v150 : Ref sig .tc := ⟨.hbm, 301, rfl⟩
abbrev main_v151 : Ref sig .tc := ⟨.hbm, 302, rfl⟩
abbrev main_v152 : Ref sig .tc := ⟨.hbm, 303, rfl⟩
abbrev main_v153 : Ref sig .tc := ⟨.hbm, 304, rfl⟩
abbrev main_cst_30 : Ref sig .tc := ⟨.hbm, 305, rfl⟩
abbrev main_v154 : Ref sig .tc := ⟨.hbm, 306, rfl⟩
abbrev main_v155 : Ref sig .tc := ⟨.hbm, 307, rfl⟩
abbrev main_v156 : Ref sig .tc := ⟨.hbm, 308, rfl⟩
abbrev main_v157 : Ref sig .tc := ⟨.hbm, 309, rfl⟩
abbrev main_v158 : Ref sig .tc := ⟨.hbm, 310, rfl⟩
abbrev main_cst_31 : Ref sig .tc := ⟨.hbm, 311, rfl⟩
abbrev main_v159 : Ref sig .tc := ⟨.hbm, 312, rfl⟩
abbrev main_v160 : Ref sig .tc := ⟨.hbm, 313, rfl⟩
abbrev main_cst_32 : Ref sig .tc := ⟨.hbm, 314, rfl⟩
abbrev main_v161 : Ref sig .tc := ⟨.hbm, 315, rfl⟩
abbrev main_cst_33 : Ref sig .tc := ⟨.hbm, 316, rfl⟩
abbrev main_v162 : Ref sig .tc := ⟨.hbm, 317, rfl⟩
abbrev main_v163 : Ref sig .tc := ⟨.hbm, 318, rfl⟩
abbrev main_cst_34 : Ref sig .tc := ⟨.hbm, 319, rfl⟩
abbrev main_v164 : Ref sig .tc := ⟨.hbm, 320, rfl⟩
abbrev main_cst_35 : Ref sig .tc := ⟨.hbm, 321, rfl⟩
abbrev main_v165 : Ref sig .tc := ⟨.hbm, 322, rfl⟩
abbrev main_cst_36 : Ref sig .tc := ⟨.hbm, 323, rfl⟩
abbrev main_v166 : Ref sig .tc := ⟨.hbm, 324, rfl⟩
abbrev main_cst_37 : Ref sig .tc := ⟨.hbm, 325, rfl⟩
abbrev main_v167 : Ref sig .tc := ⟨.hbm, 326, rfl⟩
abbrev main_v168 : Ref sig .tc := ⟨.hbm, 327, rfl⟩
abbrev main_cst_38 : Ref sig .tc := ⟨.hbm, 328, rfl⟩
abbrev main_v169 : Ref sig .tc := ⟨.hbm, 329, rfl⟩
abbrev main_v170 : Ref sig .tc := ⟨.hbm, 330, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x81920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x4096x80_S64x327680 : S64x4096x80.ShapeCasts S64x327680
  inb_S16x1_S16x1_0_0 : ∀ a, (![0, 0] : Fin 2 → Nat) a + S16x1.size a ≤ S16x1.size a
  h_S16x1 : 0 < S16x1.numel
  inb_S16x81920_S16x81920_0_0 : ∀ a, (![0, 0] : Fin 2 → Nat) a + S16x81920.size a ≤ S16x81920.size a
  h_S16x81920 : 0 < S16x81920.numel
  shapeCasts_S16x81920_S16x81920 : S16x81920.ShapeCasts S16x81920
  reduces_S16x81920_S16 : S16x81920.Reduces [1] S16
  shapeCasts_S16_S16x1 : S16.ShapeCasts S16x1
  shapeCasts_S16x1_S16x1 : S16x1.ShapeCasts S16x1
  reducesTo_S64x1_S_d0_1 : S64x1.ReducesTo [0, 1] S_
  h_S_ : 0 < S_.numel
  bcast_S64_S64x1_0 : S64.BroadcastsInDim S64x1 (![0] : Fin 1 → Fin S64x1.rank)
  bcast_S_S64x64 : S_.BroadcastsInDim S64x64 (![] : Fin 0 → Fin S64x64.rank)
  shapeCasts_S64x64_S64x64x1 : S64x64.ShapeCasts S64x64x1
  bcast_S_S64x64x1 : S_.BroadcastsInDim S64x64x1 (![] : Fin 0 → Fin S64x64x1.rank)
  bcast_S1_S1x1x1_2 : S1.BroadcastsInDim S1x1x1 (![2] : Fin 1 → Fin S1x1x1.rank)
  bcast_S1x1x1_S64x64x1_0_1_2 : S1x1x1.BroadcastsInDim S64x64x1 (![0, 1, 2] : Fin 3 → Fin S64x64x1.rank)
  reducesTo_S64x64x1_S64x64_d2 : S64x64x1.ReducesTo [2] S64x64
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S64x64_S64x64x1_0_1 : S64x64.BroadcastsInDim S64x64x1 (![0, 1] : Fin 2 → Fin S64x64x1.rank)
  concatenates_S64x64x1_S64x64x1_S64x64x1_S64x64x3_d2 : Shape.Concatenates [S64x64x1, S64x64x1, S64x64x1] S64x64x3 2
  slices_S64x64_S64x63_0_1 : S64x64.Slices ![0, 1] S64x63
  slices_S64x64_S64x63_0_0 : S64x64.Slices ![0, 0] S64x63
  concatenates_S64x1_S64x63_S64x64_d1 : Shape.Concatenates [S64x1, S64x63] S64x64 1
  reducesTo_S64x64_S_d0_1 : S64x64.ReducesTo [0, 1] S_
  bcast_S64x64_S64x64x7_0_1 : S64x64.BroadcastsInDim S64x64x7 (![0, 1] : Fin 2 → Fin S64x64x7.rank)
  bcast_S_S64x64x7 : S_.BroadcastsInDim S64x64x7 (![] : Fin 0 → Fin S64x64x7.rank)
  reducesTo_S64x64x7_S64_d1_2 : S64x64x7.ReducesTo [1, 2] S64
  bcast_S_S64 : S_.BroadcastsInDim S64 (![] : Fin 0 → Fin S64.rank)
  reducesTo_S64_S_d0 : S64.ReducesTo [0] S_
  slices_S64x64x7_S64x64x6_0_0_0 : S64x64x7.Slices ![0, 0, 0] S64x64x6
  slices_S64x64x6_S64x64x3_0_0_0 : S64x64x6.Slices ![0, 0, 0] S64x64x3
  slices_S64x64x6_S64x64x3_0_0_3 : S64x64x6.Slices ![0, 0, 3] S64x64x3
  bcast_S_S64x64x3 : S_.BroadcastsInDim S64x64x3 (![] : Fin 0 → Fin S64x64x3.rank)
  slices_S64x64x3_S64x64x1_0_0_0 : S64x64x3.Slices ![0, 0, 0] S64x64x1
  shapeCasts_S64x64x1_S64x64 : S64x64x1.ShapeCasts S64x64
  slices_S64x64x3_S64x64x1_0_0_1 : S64x64x3.Slices ![0, 0, 1] S64x64x1
  slices_S64x64x3_S64x64x1_0_0_2 : S64x64x3.Slices ![0, 0, 2] S64x64x1
  slices_S64x64x6_S64x64x1_0_0_3 : S64x64x6.Slices ![0, 0, 3] S64x64x1
  slices_S64x64x6_S64x64x1_0_0_4 : S64x64x6.Slices ![0, 0, 4] S64x64x1
  slices_S64x64x6_S64x64x1_0_0_5 : S64x64x6.Slices ![0, 0, 5] S64x64x1
  reducesTo_S64x64_S64_d1 : S64x64.ReducesTo [1] S64
  gather_S64x64_S64x64x1_S64x64_n_1_0_0_1_2_11_wf : GatherDims.WF S64x64 S64x64x1 S64x64 [] [1] [0] [1] [0] 2 ![1, 1]
  gather_S64x4096x80_S64x64x3_S64x64_n_012_n_n_012_2_111_wf : GatherDims.WF S64x4096x80 S64x64x3 S64x64 [] [0, 1, 2] [] [0, 1, 2] [] 2 ![1, 1, 1]
  gather_S64x4096x7_S64x64x1_S64x64x7_2_1_0_0_1_2_117_wf : GatherDims.WF S64x4096x7 S64x64x1 S64x64x7 [2] [1] [0] [1] [0] 2 ![1, 1, 7]
  gather_S64x64x7_S64x64x1_S64x64x7_2_1_0_0_1_2_117_wf : GatherDims.WF S64x64x7 S64x64x1 S64x64x7 [2] [1] [0] [1] [0] 2 ![1, 1, 7]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x81920.size a ≤ S64x327680.size a
  hwx0_0 : ∀ i : grid0.Coords, EltTy.bits .f32 = 32 ∨ (Rect.block (s := S64x327680) S16x81920.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S64x1.size a
  hwx0_1 : ∀ i : grid0.Coords, EltTy.bits .f32 = 32 ∨ (Rect.block (s := S64x1) S16x1.size (cc0_transform_1 i) (hinb0_1 i)).WholeWords (EltTy.packing .f32)

variable [Facts₀]

def gather_S64x64_S64x64x1_S64x64_n_1_0_0_1_2_11 : GatherDims S64x64 S64x64x1 S64x64 where
  offsetDims := []
  collapsedSliceDims := [1]
  operandBatchingDims := [0]
  startIndicesBatchingDims := [0]
  startIndexMap := [1]
  indexVectorDim := 2
  sliceSizes := ![1, 1]
  wf := gather_S64x64_S64x64x1_S64x64_n_1_0_0_1_2_11_wf
def gather_S64x4096x80_S64x64x3_S64x64_n_012_n_n_012_2_111 : GatherDims S64x4096x80 S64x64x3 S64x64 where
  offsetDims := []
  collapsedSliceDims := [0, 1, 2]
  operandBatchingDims := []
  startIndicesBatchingDims := []
  startIndexMap := [0, 1, 2]
  indexVectorDim := 2
  sliceSizes := ![1, 1, 1]
  wf := gather_S64x4096x80_S64x64x3_S64x64_n_012_n_n_012_2_111_wf
def comparator_i32_i32_d1 : BitVec 32 × BitVec 32 → BitVec 32 × BitVec 32 → BitVec 1 :=
  fun l r =>
    let v2 := IntOp.cmpi .slt l.1 r.1
    v2
def gather_S64x4096x7_S64x64x1_S64x64x7_2_1_0_0_1_2_117 : GatherDims S64x4096x7 S64x64x1 S64x64x7 where
  offsetDims := [2]
  collapsedSliceDims := [1]
  operandBatchingDims := [0]
  startIndicesBatchingDims := [0]
  startIndexMap := [1]
  indexVectorDim := 2
  sliceSizes := ![1, 1, 7]
  wf := gather_S64x4096x7_S64x64x1_S64x64x7_2_1_0_0_1_2_117_wf
def gather_S64x64x7_S64x64x1_S64x64x7_2_1_0_0_1_2_117 : GatherDims S64x64x7 S64x64x1 S64x64x7 where
  offsetDims := [2]
  collapsedSliceDims := [1]
  operandBatchingDims := [0]
  startIndicesBatchingDims := [0]
  startIndexMap := [1]
  indexVectorDim := 2
  sliceSizes := ![1, 1, 7]
  wf := gather_S64x64x7_S64x64x1_S64x64x7_2_1_0_0_1_2_117_wf

abbrev win0_0 : Pipeline.Window sig grid0 :=
  Pipeline.Window.ofSpec (Memref.whole main_v0) S16x81920.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4096x7 : Shape := ⟨3, ![64, 4096, 7]⟩
abbrev S64x4096x80 : Shape := ⟨3, ![64, 4096, 80]⟩
abbrev S64x64x7 : Shape := ⟨3, ![64, 64, 7]⟩
abbrev S64x64 : Shape := ⟨2, ![64, 64]⟩
abbrev S64 : Shape := ⟨1, ![64]⟩
abbrev S64x1 : Shape := ⟨2, ![64, 1]⟩
abbrev S_ : Shape := ⟨0, ![]⟩
abbrev S64x64x1 : Shape := ⟨3, ![64, 64, 1]⟩
abbrev S1 : Shape := ⟨1, ![1]⟩
abbrev S1x1x1 : Shape := ⟨3, ![1, 1, 1]⟩
abbrev S64x64x3 : Shape := ⟨3, ![64, 64, 3]⟩
abbrev S64x64x6 : Shape := ⟨3, ![64, 64, 6]⟩

abbrev nBuf : Space → Nat
  | .hbm => 271
  | .vmem => 0
  | .smem => 0
  | _ => 0

abbrev hbmTy0_0 (i : Nat) : BufTy := match i % 128 with
  | 0 => ⟨S64x4096x7, .f32⟩
  | 1 => ⟨S64x4096x80, .f32⟩
  | 2 => ⟨S64x64x7, .f32⟩
  | 3 => ⟨S64x64, .i32⟩
  | 4 => ⟨S64x64, .i32⟩
  | 5 => ⟨S64x64, .i32⟩
  | 6 => ⟨S64, .i32⟩
  | 7 => ⟨S64x1, .i32⟩
  | 8 => ⟨S_, .i32⟩
  | 9 => ⟨S64x64, .i32⟩
  | 10 => ⟨S64x64, .i1⟩
  | 11 => ⟨S_, .i32⟩
  | 12 => ⟨S64x64, .i32⟩
  | 13 => ⟨S64x64, .i32⟩
  | 14 => ⟨S64x64, .i32⟩
  | 15 => ⟨S64x64x1, .i32⟩
  | 16 => ⟨S1, .i32⟩
  | 17 => ⟨S_, .i32⟩
  | 18 => ⟨S64x64x1, .i32⟩
  | 19 => ⟨S64x64x1, .i1⟩
  | 20 => ⟨S1x1x1, .i32⟩
  | 21 => ⟨S64x64x1, .i32⟩
  | 22 => ⟨S64x64x1, .i1⟩
  | 23 => ⟨S64x64x1, .i1⟩
  | 24 => ⟨S_, .i1⟩
  | 25 => ⟨S64x64, .i1⟩
  | 26 => ⟨S64x64, .i32⟩
  | 27 => ⟨S_, .i32⟩
  | 28 => ⟨S64x64, .i32⟩
  | 29 => ⟨S64x64, .i32⟩
  | 30 => ⟨S_, .f32⟩
  | 31 => ⟨S64x4096x80, .f32⟩
  | 32 => ⟨S_, .i32⟩
  | 33 => ⟨S64x1, .i32⟩
  | 34 => ⟨S64x1, .i1⟩
  | 35 => ⟨S_, .i32⟩
  | 36 => ⟨S64x1, .i32⟩
  | 37 => ⟨S64x1, .i32⟩
  | 38 => ⟨S64x1, .i32⟩
  | 39 => ⟨S_, .i32⟩
  | 40 => ⟨S64x64, .i32⟩
  | 41 => ⟨S64x64, .i1⟩
  | 42 => ⟨S_, .i32⟩
  | 43 => ⟨S64x64, .i32⟩
  | 44 => ⟨S64x64, .i32⟩
  | 45 => ⟨S64x64, .i32⟩
  | 46 => ⟨S_, .i32⟩
  | 47 => ⟨S64x64, .i32⟩
  | 48 => ⟨S64x64, .i1⟩
  | 49 => ⟨S_, .i32⟩
  | 50 => ⟨S64x64, .i32⟩
  | 51 => ⟨S64x64, .i32⟩
  | 52 => ⟨S64x64, .i32⟩
  | 53 => ⟨S64x64, .i32⟩
  | 54 => ⟨S64x64x1, .i32⟩
  | 55 => ⟨S64x64x1, .i32⟩
  | 56 => ⟨S64x64x1, .i32⟩
  | 57 => ⟨S64x64x3, .i32⟩
  | 58 => ⟨S_, .f32⟩
  | 59 => ⟨S64x64, .f32⟩
  | 60 => ⟨S64x4096x80, .f32⟩
  | 61 => ⟨S_, .f32⟩
  | 62 => ⟨S64x4096x80, .f32⟩
  | 63 => ⟨S64x4096x80, .f32⟩
  | 64 => ⟨S64x4096x80, .f32⟩
  | 65 => ⟨S64x4096x80, .f32⟩
  | 66 => ⟨S64x4096x80, .f32⟩
  | 67 => ⟨S64x4096x80, .f32⟩
  | 68 => ⟨S64x4096x80, .f32⟩
  | 69 => ⟨S64x4096x80, .f32⟩
  | 70 => ⟨S64x4096x80, .f32⟩
  | 71 => ⟨S64x4096x80, .f32⟩
  | 72 => ⟨S64x4096x80, .f32⟩
  | 73 => ⟨S_, .f32⟩
  | 74 => ⟨S64x4096x80, .f32⟩
  | 75 => ⟨S64x4096x80, .f32⟩
  | 76 => ⟨S_, .f32⟩
  | 77 => ⟨S64x4096x80, .f32⟩
  | 78 => ⟨S64x4096x80, .f32⟩
  | 79 => ⟨S64x4096x80, .f32⟩
  | 80 => ⟨S_, .f32⟩
  | 81 => ⟨S64x4096x80, .f32⟩
  | 82 => ⟨S64x4096x80, .f32⟩
  | 83 => ⟨S_, .f32⟩
  | 84 => ⟨S64x4096x80, .f32⟩
  | 85 => ⟨S64x4096x80, .f32⟩
  | 86 => ⟨S64x4096x80, .f32⟩
  | 87 => ⟨S64x4096x80, .f32⟩
  | 88 => ⟨S_, .f32⟩
  | 89 => ⟨S64x4096x80, .f32⟩
  | 90 => ⟨S64x4096x80, .f32⟩
  | 91 => ⟨S_, .f32⟩
  | 92 => ⟨S64x4096x80, .f32⟩
  | 93 => ⟨S64x4096x80, .f32⟩
  | 94 => ⟨S_, .f32⟩
  | 95 => ⟨S64x4096x80, .f32⟩
  | 96 => ⟨S64x4096x80, .f32⟩
  | 97 => ⟨S64x4096x80, .f32⟩
  | 98 => ⟨S_, .f32⟩
  | 99 => ⟨S64x4096x80, .f32⟩
  | 100 => ⟨S64x4096x80, .f32⟩
  | 101 => ⟨S_, .f32⟩
  | 102 => ⟨S64x4096x80, .f32⟩
  | 103 => ⟨S64x4096x80, .f32⟩
  | 104 => ⟨S64x4096x80, .f32⟩
  | 105 => ⟨S64x4096x80, .f32⟩
  | 106 => ⟨S_, .f32⟩
  | 107 => ⟨S_, .f32⟩
  | 108 => ⟨S_, .f32⟩
  | 109 => ⟨S_, .f32⟩
  | 110 => ⟨S64x64x1, .i32⟩
  | 111 => ⟨S_, .i32⟩
  | 112 => ⟨S64x64x1, .i32⟩
  | 113 => ⟨S64x64x1, .i1⟩
  | 114 => ⟨S_, .i32⟩
  | 115 => ⟨S64x64x1, .i32⟩
  | 116 => ⟨S64x64x1, .i32⟩
  | 117 => ⟨S64x64x1, .i32⟩
  | 118 => ⟨S1, .i32⟩
  | 119 => ⟨S_, .i32⟩
  | 120 => ⟨S64x64x1, .i32⟩
  | 121 => ⟨S64x64x1, .i1⟩
  | 122 => ⟨S1x1x1, .i32⟩
  | 123 => ⟨S64x64x1, .i32⟩
  | 124 => ⟨S64x64x1, .i1⟩
  | 125 => ⟨S64x64x1, .i1⟩
  | 126 => ⟨S_, .i1⟩
  | 127 => ⟨S64x64, .i1⟩
  | _ => ⟨S64x4096x7, .f32⟩

abbrev hbmTy0_1 (i : Nat) : BufTy := match i % 128 with
  | 0 => ⟨S64x64x7, .f32⟩
  | 1 => ⟨S64x64x7, .i1⟩
  | 2 => ⟨S_, .f32⟩
  | 3 => ⟨S64x64x7, .f32⟩
  | 4 => ⟨S64x64x7, .f32⟩
  | 5 => ⟨S64x64x1, .i32⟩
  | 6 => ⟨S_, .i32⟩
  | 7 => ⟨S64x64x1, .i32⟩
  | 8 => ⟨S64x64x1, .i1⟩
  | 9 => ⟨S_, .i32⟩
  | 10 => ⟨S64x64x1, .i32⟩
  | 11 => ⟨S64x64x1, .i32⟩
  | 12 => ⟨S64x64x1, .i32⟩
  | 13 => ⟨S1, .i32⟩
  | 14 => ⟨S_, .i32⟩
  | 15 => ⟨S64x64x1, .i32⟩
  | 16 => ⟨S64x64x1, .i1⟩
  | 17 => ⟨S1x1x1, .i32⟩
  | 18 => ⟨S64x64x1, .i32⟩
  | 19 => ⟨S64x64x1, .i1⟩
  | 20 => ⟨S64x64x1, .i1⟩
  | 21 => ⟨S_, .i1⟩
  | 22 => ⟨S64x64, .i1⟩
  | 23 => ⟨S64x64x7, .f32⟩
  | 24 => ⟨S64x64x7, .i1⟩
  | 25 => ⟨S_, .f32⟩
  | 26 => ⟨S64x64x7, .f32⟩
  | 27 => ⟨S64x64x7, .f32⟩
  | 28 => ⟨S64x64x7, .f32⟩
  | 29 => ⟨S64x64x7, .f32⟩
  | 30 => ⟨S_, .f32⟩
  | 31 => ⟨S64, .f32⟩
  | 32 => ⟨S_, .f32⟩
  | 33 => ⟨S64, .f32⟩
  | 34 => ⟨S64, .f32⟩
  | 35 => ⟨S_, .f32⟩
  | 36 => ⟨S_, .f32⟩
  | 37 => ⟨S_, .f32⟩
  | 38 => ⟨S_, .f32⟩
  | 39 => ⟨S64x64x6, .f32⟩
  | 40 => ⟨S64x64x6, .f32⟩
  | 41 => ⟨S64x64x3, .f32⟩
  | 42 => ⟨S64x64x3, .f32⟩
  | 43 => ⟨S_, .f32⟩
  | 44 => ⟨S64x64x3, .f32⟩
  | 45 => ⟨S64x64x3, .f32⟩
  | 46 => ⟨S64x64x3, .f32⟩
  | 47 => ⟨S64x64x3, .f32⟩
  | 48 => ⟨S64x64x3, .f32⟩
  | 49 => ⟨S_, .f32⟩
  | 50 => ⟨S64x64x3, .f32⟩
  | 51 => ⟨S64x64x3, .f32⟩
  | 52 => ⟨S64x64x3, .f32⟩
  | 53 => ⟨S64x64x3, .f32⟩
  | 54 => ⟨S64x64x3, .f32⟩
  | 55 => ⟨S_, .f32⟩
  | 56 => ⟨S64x64x3, .f32⟩
  | 57 => ⟨S64x64x3, .f32⟩
  | 58 => ⟨S64x64x3, .f32⟩
  | 59 => ⟨S64x64x3, .f32⟩
  | 60 => ⟨S64x64x3, .f32⟩
  | 61 => ⟨S_, .f32⟩
  | 62 => ⟨S64x64x3, .f32⟩
  | 63 => ⟨S64x64x3, .f32⟩
  | 64 => ⟨S64x64x3, .f32⟩
  | 65 => ⟨S64x64x3, .f32⟩
  | 66 => ⟨S64x64x3, .f32⟩
  | 67 => ⟨S64x64x3, .f32⟩
  | 68 => ⟨S_, .f32⟩
  | 69 => ⟨S_, .f32⟩
  | 70 => ⟨S64x64x3, .f32⟩
  | 71 => ⟨S64x64x3, .f32⟩
  | 72 => ⟨S64x64x1, .f32⟩
  | 73 => ⟨S64x64, .f32⟩
  | 74 => ⟨S64x64x1, .f32⟩
  | 75 => ⟨S64x64, .f32⟩
  | 76 => ⟨S64x64, .f32⟩
  | 77 => ⟨S64x64x1, .f32⟩
  | 78 => ⟨S64x64, .f32⟩
  | 79 => ⟨S64x64, .f32⟩
  | 80 => ⟨S64x64x1, .f32⟩
  | 81 => ⟨S64x64, .f32⟩
  | 82 => ⟨S64x64x1, .f32⟩
  | 83 => ⟨S64x64, .f32⟩
  | 84 => ⟨S64x64, .f32⟩
  | 85 => ⟨S64x64x1, .f32⟩
  | 86 => ⟨S64x64, .f32⟩
  | 87 => ⟨S64x64, .f32⟩
  | 88 => ⟨S64x64x1, .f32⟩
  | 89 => ⟨S64x64, .f32⟩
  | 90 => ⟨S64x64x1, .f32⟩
  | 91 => ⟨S64x64, .f32⟩
  | 92 => ⟨S64x64, .f32⟩
  | 93 => ⟨S64x64x1, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64x3, .f32⟩
  | 103 => ⟨S64x64x3, .f32⟩
  | 104 => ⟨S64x64x3, .f32⟩
  | 105 => ⟨S_, .f32⟩
  | 106 => ⟨S_, .f32⟩
  | 107 => ⟨S64x64x3, .f32⟩
  | 108 => ⟨S64x64x3, .f32⟩
  | 109 => ⟨S64x64x1, .f32⟩
  | 110 => ⟨S64x64, .f32⟩
  | 111 => ⟨S64x64x1, .f32⟩
  | 112 => ⟨S64x64, .f32⟩
  | 113 => ⟨S64x64, .f32⟩
  | 114 => ⟨S64x64x1, .f32⟩
  | 115 => ⟨S64x64, .f32⟩
  | 116 => ⟨S64x64, .f32⟩
  | 117 => ⟨S_, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S_, .f32⟩
  | 127 => ⟨S64, .f32⟩
  | _ => ⟨S64x4096x7, .f32⟩

abbrev hbmTy0_2 (i : Nat) : BufTy := match i % 128 with
  | 0 => ⟨S_, .f32⟩
  | 1 => ⟨S64, .f32⟩
  | 2 => ⟨S64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S64x4096x7, .f32⟩

abbrev hbmTy (i : Nat) : BufTy := match i / 128 with
  | 0 => hbmTy0_0 i
  | 1 => hbmTy0_1 i
  | 2 => hbmTy0_2 i
  | _ => ⟨S64x4096x7, .f32⟩

abbrev bufTy : (tb : Table) → Fin (tcTables nBuf tb) → BufTy
  | .hbm, ⟨i, _⟩ => hbmTy i
  | _, _ => ⟨S64x4096x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_c_4 : Ref sig .tc := ⟨.hbm, 27, rfl⟩
abbrev main_call0_v14 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_c_1 : Ref sig .tc := ⟨.hbm, 39, rfl⟩
abbrev main_v9 : Ref sig .tc := ⟨.hbm, 40, rfl⟩
abbrev main_v10 : Ref sig .tc := ⟨.hbm, 41, rfl⟩
abbrev main_c_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_3 : Ref sig .tc := ⟨.hbm, 46, rfl⟩
abbrev main_v14 : Ref sig .tc := ⟨.hbm, 47, rfl⟩
abbrev main_v15 : Ref sig .tc := ⟨.hbm, 48, rfl⟩
abbrev main_c_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_9 : Ref sig .tc := ⟨.hbm, 80, rfl⟩
abbrev main_v42 : Ref sig .tc := ⟨.hbm, 81, rfl⟩
abbrev main_v43 : Ref sig .tc := ⟨.hbm, 82, rfl⟩
abbrev main_cst_10 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_11 : Ref sig .tc := ⟨.hbm, 88, rfl⟩
abbrev main_v48 : Ref sig .tc := ⟨.hbm, 89, rfl⟩
abbrev main_v49 : Ref sig .tc := ⟨.hbm, 90, rfl⟩
abbrev main_cst_12 : Ref sig .tc := ⟨.hbm, 91, rfl⟩
abbrev main_v50 : Ref sig .tc := ⟨.hbm, 92, rfl⟩
abbrev main_v51 : Ref sig .tc := ⟨.hbm, 93, rfl⟩
abbrev main_cst_13 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_14 : Ref sig .tc := ⟨.hbm, 98, rfl⟩
abbrev main_v55 : Ref sig .tc := ⟨.hbm, 99, rfl⟩
abbrev main_v56 : Ref sig .tc := ⟨.hbm, 100, rfl⟩
abbrev main_cst_15 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_16 : Ref sig .tc := ⟨.hbm, 106, rfl⟩
abbrev main_v61 : Ref sig .tc := ⟨.hbm, 107, rfl⟩
abbrev main_cst_17 : Ref sig .tc := ⟨.hbm, 108, rfl⟩
abbrev main_v62 : Ref sig .tc := ⟨.hbm, 109, rfl⟩
abbrev main_v63 : Ref sig .tc := ⟨.hbm, 110, rfl⟩
abbrev main_call1_c : Ref sig .tc := ⟨.hbm, 111, rfl⟩
abbrev main_call1_v0 : Ref sig .tc := ⟨.hbm, 112, rfl⟩
abbrev main_call1_v1 : Ref sig .tc := ⟨.hbm, 113, rfl⟩
abbrev main_call1_c_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_c_1 : Ref sig .tc := ⟨.hbm, 118, rfl⟩
abbrev main_call1_c_2 : Ref sig .tc := ⟨.hbm, 119, rfl⟩
abbrev main_call1_v5 : Ref sig .tc := ⟨.hbm, 120, rfl⟩
abbrev main_call1_v6 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_call1_c_3 : Ref sig .tc := ⟨.hbm, 126, rfl⟩
abbrev main_call1_v11 : Ref sig .tc := ⟨.hbm, 127, rfl⟩
abbrev main_call1_v12 : Ref sig .tc := ⟨.hbm, 128, rfl⟩
abbrev main_call1_v13 : Ref sig .tc := ⟨.hbm, 129, rfl⟩
abbrev main_call1_cst : Ref sig .tc := ⟨.hbm, 130, rfl⟩
abbrev main_call1_v14 : Ref sig .tc := ⟨.hbm, 131, rfl⟩
abbrev main_v64 : Ref sig .tc := ⟨.hbm, 132, rfl⟩
abbrev main_v65 : Ref sig .tc := ⟨.hbm, 133, rfl⟩
abbrev main_call2_c : Ref sig .tc := ⟨.hbm, 134, rfl⟩
abbrev main_call2_v0 : Ref sig .tc := ⟨.hbm, 135, rfl⟩
abbrev main_call2_v1 : Ref sig .tc := ⟨.hbm, 136, rfl⟩
abbrev main_call2_c_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_c_1 : Ref sig .tc := ⟨.hbm, 141, rfl⟩
abbrev main_call2_c_2 : Ref sig .tc := ⟨.hbm, 142, rfl⟩
abbrev main_call2_v5 : Ref sig .tc := ⟨.hbm, 143, rfl⟩
abbrev main_call2_v6 : Ref sig .tc := ⟨.hbm, 144, rfl⟩
abbrev main_call2_v7 : Ref sig .tc := ⟨.hbm, 145, rfl⟩
abbrev main_call2_v8 : Ref sig .tc := ⟨.hbm, 146, rfl⟩
abbrev main_call2_v9 : Ref sig .tc := ⟨.hbm, 147, rfl⟩
abbrev main_call2_v10 : Ref sig .tc := ⟨.hbm, 148, rfl⟩
abbrev main_call2_c_3 : Ref sig .tc := ⟨.hbm, 149, rfl⟩
abbrev main_call2_v11 : Ref sig .tc := ⟨.hbm, 150, rfl⟩
abbrev main_call2_v12 : Ref sig .tc := ⟨.hbm, 151, rfl⟩
abbrev main_call2_v13 : Ref sig .tc := ⟨.hbm, 152, rfl⟩
abbrev main_call2_cst : Ref sig .tc := ⟨.hbm, 153, rfl⟩
abbrev main_call2_v14 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_cst_18 : Ref sig .tc := ⟨.hbm, 158, rfl⟩
abbrev main_v69 : Ref sig .tc := ⟨.hbm, 159, rfl⟩
abbrev main_cst_19 : Ref sig .tc := ⟨.hbm, 160, rfl⟩
abbrev main_v70 : Ref sig .tc := ⟨.hbm, 161, rfl⟩
abbrev main_v71 : Ref sig .tc := ⟨.hbm, 162, rfl⟩
abbrev main_cst_20 : Ref sig .tc := ⟨.hbm, 163, rfl⟩
abbrev main_v72 : Ref sig .tc := ⟨.hbm, 164, rfl⟩
abbrev main_cst_21 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_cst_22 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_cst_23 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_cst_24 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_cst_25 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_cst_26 : Ref sig .tc := ⟨.hbm, 196, rfl⟩
abbrev main_call3_v0 : Ref sig .tc := ⟨.hbm, 197, rfl⟩
abbrev main_call3_v1 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_cst_27 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_cst_28 : Ref sig .tc := ⟨.hbm, 233, rfl⟩
abbrev main_call4_v0 : Ref sig .tc := ⟨.hbm, 234, rfl⟩
abbrev main_call4_v1 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_cst_29 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_cst_30 : Ref sig .tc := ⟨.hbm, 251, rfl⟩
abbrev main_v146 : Ref sig .tc := ⟨.hbm, 252, rfl⟩
abbrev main_v147 : Ref sig .tc := ⟨.hbm, 253, rfl⟩
abbrev main_cst_31 : Ref sig .tc := ⟨.hbm, 254, rfl⟩
abbrev main_v148 : Ref sig .tc := ⟨.hbm, 255, rfl⟩
abbrev main_cst_32 : Ref sig .tc := ⟨.hbm, 256, rfl⟩
abbrev main_v149 : Ref sig .tc := ⟨.hbm, 257, rfl⟩
abbrev main_v150 : Ref sig .tc := ⟨.hbm, 258, rfl⟩
abbrev main_cst_33 : Ref sig .tc := ⟨.hbm, 259, rfl⟩
abbrev main_v151 : Ref sig .tc := ⟨.hbm, 260, rfl⟩
abbrev main_cst_34 : Ref sig .tc := ⟨.hbm, 261, rfl⟩
abbrev main_v152 : Ref sig .tc := ⟨.hbm, 262, rfl⟩
abbrev main_cst_35 : Ref sig .tc := ⟨.hbm, 263, rfl⟩
abbrev main_v153 : Ref sig .tc := ⟨.hbm, 264, rfl⟩
abbrev main_cst_36 : Ref sig .tc := ⟨.hbm, 265, rfl⟩
abbrev main_v154 : Ref sig .tc := ⟨.hbm, 266, rfl⟩
abbrev main_v155 : Ref sig .tc := ⟨.hbm, 267, rfl⟩
abbrev main_cst_37 : Ref sig .tc := ⟨.hbm, 268, rfl⟩
abbrev main_v156 : Ref sig .tc := ⟨.hbm, 269, rfl⟩
abbrev main_v157 : Ref sig .tc := ⟨.hbm, 270, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S_S64x64 : S_.BroadcastsInDim S64x64 (![] : Fin 0 → Fin S64x64.rank)
  shapeCasts_S64x64_S64x64x1 : S64x64.ShapeCasts S64x64x1
  bcast_S_S64x64x1 : S_.BroadcastsInDim S64x64x1 (![] : Fin 0 → Fin S64x64x1.rank)
  bcast_S1_S1x1x1_2 : S1.BroadcastsInDim S1x1x1 (![2] : Fin 1 → Fin S1x1x1.rank)
  bcast_S1x1x1_S64x64x1_0_1_2 : S1x1x1.BroadcastsInDim S64x64x1 (![0, 1, 2] : Fin 3 → Fin S64x64x1.rank)
  reducesTo_S64x64x1_S64x64_d2 : S64x64x1.ReducesTo [2] S64x64
  h_S_ : 0 < S_.numel
  bcast_S_S64x4096x80 : S_.BroadcastsInDim S64x4096x80 (![] : Fin 0 → Fin S64x4096x80.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S64x64_S64x64x1_0_1 : S64x64.BroadcastsInDim S64x64x1 (![0, 1] : Fin 2 → Fin S64x64x1.rank)
  concatenates_S64x64x1_S64x64x1_S64x64x1_S64x64x3_d2 : Shape.Concatenates [S64x64x1, S64x64x1, S64x64x1] S64x64x3 2
  reducesTo_S64x4096x80_S_d0_1_2 : S64x4096x80.ReducesTo [0, 1, 2] S_
  bcast_S64x64_S64x64x7_0_1 : S64x64.BroadcastsInDim S64x64x7 (![0, 1] : Fin 2 → Fin S64x64x7.rank)
  bcast_S_S64x64x7 : S_.BroadcastsInDim S64x64x7 (![] : Fin 0 → Fin S64x64x7.rank)
  reducesTo_S64x64x7_S64_d1_2 : S64x64x7.ReducesTo [1, 2] S64
  bcast_S_S64 : S_.BroadcastsInDim S64 (![] : Fin 0 → Fin S64.rank)
  reducesTo_S64_S_d0 : S64.ReducesTo [0] S_
  slices_S64x64x7_S64x64x6_0_0_0 : S64x64x7.Slices ![0, 0, 0] S64x64x6
  slices_S64x64x6_S64x64x3_0_0_0 : S64x64x6.Slices ![0, 0, 0] S64x64x3
  slices_S64x64x6_S64x64x3_0_0_3 : S64x64x6.Slices ![0, 0, 3] S64x64x3
  bcast_S_S64x64x3 : S_.BroadcastsInDim S64x64x3 (![] : Fin 0 → Fin S64x64x3.rank)
  slices_S64x64x3_S64x64x1_0_0_0 : S64x64x3.Slices ![0, 0, 0] S64x64x1
  shapeCasts_S64x64x1_S64x64 : S64x64x1.ShapeCasts S64x64
  slices_S64x64x3_S64x64x1_0_0_1 : S64x64x3.Slices ![0, 0, 1] S64x64x1
  slices_S64x64x3_S64x64x1_0_0_2 : S64x64x3.Slices ![0, 0, 2] S64x64x1
  slices_S64x64x6_S64x64x1_0_0_3 : S64x64x6.Slices ![0, 0, 3] S64x64x1
  slices_S64x64x6_S64x64x1_0_0_4 : S64x64x6.Slices ![0, 0, 4] S64x64x1
  slices_S64x64x6_S64x64x1_0_0_5 : S64x64x6.Slices ![0, 0, 5] S64x64x1
  reducesTo_S64x64_S64_d1 : S64x64.ReducesTo [1] S64
  gather_S64x64_S64x64x1_S64x64_n_1_0_0_1_2_11_wf : GatherDims.WF S64x64 S64x64x1 S64x64 [] [1] [0] [1] [0] 2 ![1, 1]
  scatter_S64x4096x80_S64x64x3_S64x64_n_012_012_2_wf : ScatterDims.WF S64x4096x80 S64x64x3 S64x64 [] [0, 1, 2] [0, 1, 2] 2
  gather_S64x4096x7_S64x64x1_S64x64x7_2_1_0_0_1_2_117_wf : GatherDims.WF S64x4096x7 S64x64x1 S64x64x7 [2] [1] [0] [1] [0] 2 ![1, 1, 7]
  gather_S64x64x7_S64x64x1_S64x64x7_2_1_0_0_1_2_117_wf : GatherDims.WF S64x64x7 S64x64x1 S64x64x7 [2] [1] [0] [1] [0] 2 ![1, 1, 7]

variable [Facts₀]

def gather_S64x64_S64x64x1_S64x64_n_1_0_0_1_2_11 : GatherDims S64x64 S64x64x1 S64x64 where
  offsetDims := []
  collapsedSliceDims := [1]
  operandBatchingDims := [0]
  startIndicesBatchingDims := [0]
  startIndexMap := [1]
  indexVectorDim := 2
  sliceSizes := ![1, 1]
  wf := gather_S64x64_S64x64x1_S64x64_n_1_0_0_1_2_11_wf
def scatter_S64x4096x80_S64x64x3_S64x64_n_012_012_2 : ScatterDims S64x4096x80 S64x64x3 S64x64 where
  updateWindowDims := []
  insertedWindowDims := [0, 1, 2]
  scatterDimsToOperandDims := [0, 1, 2]
  indexVectorDim := 2
  wf := scatter_S64x4096x80_S64x64x3_S64x64_n_012_012_2_wf
def gather_S64x4096x7_S64x64x1_S64x64x7_2_1_0_0_1_2_117 : GatherDims S64x4096x7 S64x64x1 S64x64x7 where
  offsetDims := [2]
  collapsedSliceDims := [1]
  operandBatchingDims := [0]
  startIndicesBatchingDims := [0]
  startIndexMap := [1]
  indexVectorDim := 2
  sliceSizes := ![1, 1, 7]
  wf := gather_S64x4096x7_S64x64x1_S64x64x7_2_1_0_0_1_2_117_wf
def gather_S64x64x7_S64x64x1_S64x64x7_2_1_0_0_1_2_117 : GatherDims S64x64x7 S64x64x1 S64x64x7 where
  offsetDims := [2]
  collapsedSliceDims := [1]
  operandBatchingDims := [0]
  startIndicesBatchingDims := [0]
  startIndexMap := [1]
  indexVectorDim := 2
  sliceSizes := ![1, 1, 7]
  wf := gather_S64x64x7_S64x64x1_S64x64x7_2_1_0_0_1_2_117_wf

class Facts : Prop extends Facts₀ where

variable [Facts]
-- ==== Proof.KernelFrame.Base.lean ====
/-
  The program around its one grid region, as data: the contents of the core's buffers when the region is
  entered (the logits reshaped to 64 × 327680 by the one host operation before it), the host operations that
  follow the region (seventeen stretches, in program order), each window's block at a grid point, the
  condition "second grid coordinate is 0" under which the body first clears its output block, and the
  staging memrefs the body is called with.
-/
import proofs.«428731_j81046032875796_3_alg».proof.Proof.Gen.Kernel.Launch
import proofs.«428731_j81046032875796_3_alg».proof.Proof.Gen.Kernel.Skeleton
import proofs.«428731_j81046032875796_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers at the region's entry, and the host operations after the region -/

/-- Core `c`'s buffer contents when the region is entered: after the reshape of the logits. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch, in program order. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15, hostOps1_16]

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch condition -/

/-- The condition of the body's one conditional, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds exactly at the points 0, 4, 8, 12 of the 4 × 4 grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs the body is called with -/

/-- One staging buffer of the output window, through which its contents are stated. -/
abbrev VO0_1 : View sig .tc .vmem S16x1 .f32 := (Memref.whole cc0_stg1_0 : Memref sig .tc .vmem S16x1 .f32).view
abbrev ms0_0 (t : Fin cfg0.N) : Memref sig .tc .vmem S16x81920 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)

end Cert.Kernel.KF

end
-- ==== Proof.KernelFrame.Around.lean ====
/-
  The host side of the program around its one grid region: the one reshape before the region and the seventeen
  stretches of host operations after it allocate nothing, touch only unscoped TensorCore buffers, and write neither
  an array of the region's windows nor an argument of the program.  Hence the program reduces to its region continued
  by the later stretches, every argument is found by the region as launched and is left so by everything after it, and
  a run of the whole program to the pipeline's post is a run to the frame claim's post.
-/
import proofs.«428731_j81046032875796_3_alg».proof.Proof.KernelFrame.Base

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-! ## The program around the region -/

/-- The program at any variants: the reshape before the region, the region, the seventeen stretches after it; so it
    reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss : List (List (HloOp τ sig (Elt F)))).map StableHlo.seq)) :=
  Pipeline.hmain_around cfgs 0 defs₀ 𝒱₀ m main [hostOps0] tailOpss (by simp only [List.Forall]; exact hostOps0_sub)
    (by simp only [List.Forall]; exact hostOps0_fresh) main_chain

/-- A property every operation of each of the seventeen stretches has, every operation after the region has. -/
theorem tail_forall {p : HloOp τ sig (Elt F) → Prop}
    (h1 : (hostOps1 : List (HloOp τ sig (Elt F))).Forall p)
    (h1_1 : (hostOps1_1 : List (HloOp τ sig (Elt F))).Forall p)
    (h1_2 : (hostOps1_2 : List (HloOp τ sig (Elt F))).Forall p)
    (h1_3 : (hostOps1_3 : List (HloOp τ sig (Elt F))).Forall p)
    (h1_4 : (hostOps1_4 : List (HloOp τ sig (Elt F))).Forall p)
    (h1_5 : (hostOps1_5 : List (HloOp τ sig (Elt F))).Forall p)
    (h1_6 : (hostOps1_6 : List (HloOp τ sig (Elt F))).Forall p)
    (h1_7 : (hostOps1_7 : List (HloOp τ sig (Elt F))).Forall p)
    (h1_8 : (hostOps1_8 : List (HloOp τ sig (Elt F))).Forall p)
    (h1_9 : (hostOps1_9 : List (HloOp τ sig (Elt F))).Forall p)
    (h1_10 : (hostOps1_10 : List (HloOp τ sig (Elt F))).Forall p)
    (h1_11 : (hostOps1_11 : List (HloOp τ sig (Elt F))).Forall p)
    (h1_12 : (hostOps1_12 : List (HloOp τ sig (Elt F))).Forall p)
    (h1_13 : (hostOps1_13 : List (HloOp τ sig (Elt F))).Forall p)
    (h1_14 : (hostOps1_14 : List (HloOp τ sig (Elt F))).Forall p)
    (h1_15 : (hostOps1_15 : List (HloOp τ sig (Elt F))).Forall p)
    (h1_16 : (hostOps1_16 : List (HloOp τ sig (Elt F))).Forall p) :
    ∀ ops ∈ (tailOpss : (List (List (HloOp τ sig (Elt F))))), ∀ op ∈ ops, p op := by
  intro ops hops op hop
  simp only [tailOpss, List.mem_cons, List.mem_nil_iff, or_false] at hops
  rcases hops with rfl | rfl | rfl | rfl | rfl | rfl | rfl | rfl | rfl | rfl | rfl | rfl | rfl | rfl | rfl | rfl | rfl
  · exact (List.forall_iff_forall_mem.mp h1) op hop
  · exact (List.forall_iff_forall_mem.mp h1_1) op hop
  · exact (List.forall_iff_forall_mem.mp h1_2) op hop
  · exact (List.forall_iff_forall_mem.mp h1_3) op hop
  · exact (List.forall_iff_forall_mem.mp h1_4) op hop
  · exact (List.forall_iff_forall_mem.mp h1_5) op hop
  · exact (List.forall_iff_forall_mem.mp h1_6) op hop
  · exact (List.forall_iff_forall_mem.mp h1_7) op hop
  · exact (List.forall_iff_forall_mem.mp h1_8) op hop
  · exact (List.forall_iff_forall_mem.mp h1_9) op hop
  · exact (List.forall_iff_forall_mem.mp h1_10) op hop
  · exact (List.forall_iff_forall_mem.mp h1_11) op hop
  · exact (List.forall_iff_forall_mem.mp h1_12) op hop
  · exact (List.forall_iff_forall_mem.mp h1_13) op hop
  · exact (List.forall_iff_forall_mem.mp h1_14) op hop
  · exact (List.forall_iff_forall_mem.mp h1_15) op hop
  · exact (List.forall_iff_forall_mem.mp h1_16) op hop

/-- The operations after the region touch the windows' arrays and the bypassing buffers only: each touches unscoped
    TensorCore buffers, and with nothing prefetched every such buffer is one or the other. -/
theorem sfx_sub : ∀ ops ∈ (tailOpss : (List (List (HloOp τ sig (Elt F))))), ∀ op ∈ ops,
    op.bufs ⊆ Pipeline.tailRefs sig Pipeline.Prefetch.none spec0 := by
  rw [Pipeline.tailRefs_none spec0 launch0.win.arr_unscoped]
  exact tail_forall (p := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
    (List.forall_iff_forall_mem.mpr fun op hop => Pipeline.sub_ucRefs op ((List.forall_iff_forall_mem.mp hostOps1_3_sub) op hop))
    (List.forall_iff_forall_mem.mpr fun op hop => Pipeline.sub_ucRefs op ((List.forall_iff_forall_mem.mp hostOps1_4_sub) op hop))
    (List.forall_iff_forall_mem.mpr fun op hop => Pipeline.sub_ucRefs op ((List.forall_iff_forall_mem.mp hostOps1_5_sub) op hop))
    (List.forall_iff_forall_mem.mpr fun op hop => Pipeline.sub_ucRefs op ((List.forall_iff_forall_mem.mp hostOps1_6_sub) op hop))
    (List.forall_iff_forall_mem.mpr fun op hop => Pipeline.sub_ucRefs op ((List.forall_iff_forall_mem.mp hostOps1_7_sub) op hop))
    (List.forall_iff_forall_mem.mpr fun op hop => Pipeline.sub_ucRefs op ((List.forall_iff_forall_mem.mp hostOps1_8_sub) op hop))
    (List.forall_iff_forall_mem.mpr fun op hop => Pipeline.sub_ucRefs op ((List.forall_iff_forall_mem.mp hostOps1_9_sub) op hop))
    (List.forall_iff_forall_mem.mpr fun op hop => Pipeline.sub_ucRefs op ((List.forall_iff_forall_mem.mp hostOps1_10_sub) op hop))
    (List.forall_iff_forall_mem.mpr fun op hop => Pipeline.sub_ucRefs op ((List.forall_iff_forall_mem.mp hostOps1_11_sub) op hop))
    (List.forall_iff_forall_mem.mpr fun op hop => Pipeline.sub_ucRefs op ((List.forall_iff_forall_mem.mp hostOps1_12_sub) op hop))
    (List.forall_iff_forall_mem.mpr fun op hop => Pipeline.sub_ucRefs op ((List.forall_iff_forall_mem.mp hostOps1_13_sub) op hop))
    (List.forall_iff_forall_mem.mpr fun op hop => Pipeline.sub_ucRefs op ((List.forall_iff_forall_mem.mp hostOps1_14_sub) op hop))
    (List.forall_iff_forall_mem.mpr fun op hop => Pipeline.sub_ucRefs op ((List.forall_iff_forall_mem.mp hostOps1_15_sub) op hop))
    (List.forall_iff_forall_mem.mpr fun op hop => Pipeline.sub_ucRefs op ((List.forall_iff_forall_mem.mp hostOps1_16_sub) op hop))

/-- They allocate nothing. -/
theorem sfx_fresh : ∀ ops ∈ (tailOpss : (List (List (HloOp τ sig (Elt F))))), ∀ op ∈ ops, op.fresh = ∅ :=
  tail_forall hostOps1_fresh hostOps1_1_fresh hostOps1_2_fresh hostOps1_3_fresh hostOps1_4_fresh hostOps1_5_fresh hostOps1_6_fresh hostOps1_7_fresh hostOps1_8_fresh hostOps1_9_fresh hostOps1_10_fresh hostOps1_11_fresh hostOps1_12_fresh hostOps1_13_fresh hostOps1_14_fresh hostOps1_15_fresh hostOps1_16_fresh

/-! ## What the operations after the region leave alone -/

/-- The buffers no host operation after the region writes: the program's six arguments and the two windows' arrays. -/
abbrev kept : List (Ref sig .tc) :=
  [main_arg0, main_arg1, main_arg2, main_arg3, main_arg4, main_arg5, main_v0, main_v1]

/-- An operation whose one result buffer is none of them writes none of them. -/
theorem keeps_of {y : Ref sig .tc} (h : y ∉ kept) :
    ∀ b ∈ kept, Proc.devRef (τ := τ) .tc b ∉ ({Proc.devRef .tc y} : Finset (DevRef τ sig)) := fun b hb hm =>
  h (Proc.devRef_injective _ (Finset.mem_singleton.mp hm) ▸ hb)

/-! Stretch by stretch: every operation writes its own result buffer only, and that is a value of the program
    after the region's result, so none of the eight. -/
theorem hostOps1_keeps : (hostOps1 : List (HloOp τ sig (Elt F))).Forall fun op => ∀ b ∈ kept, Proc.devRef .tc b ∉ op.writes := by
  simp only [List.Forall]; repeat' apply And.intro
  all_goals exact keeps_of (by decide)
theorem hostOps1_1_keeps : (hostOps1_1 : List (HloOp τ sig (Elt F))).Forall fun op => ∀ b ∈ kept, Proc.devRef .tc b ∉ op.writes := by
  simp only [List.Forall]; repeat' apply And.intro
  all_goals exact keeps_of (by decide)
theorem hostOps1_2_keeps : (hostOps1_2 : List (HloOp τ sig (Elt F))).Forall fun op => ∀ b ∈ kept, Proc.devRef .tc b ∉ op.writes := by
  simp only [List.Forall]; repeat' apply And.intro
  all_goals exact keeps_of (by decide)
theorem hostOps1_3_keeps : (hostOps1_3 : List (HloOp τ sig (Elt F))).Forall fun op => ∀ b ∈ kept, Proc.devRef .tc b ∉ op.writes := by
  simp only [List.Forall]; repeat' apply And.intro
  all_goals exact keeps_of (by decide)
theorem hostOps1_4_keeps : (hostOps1_4 : List (HloOp τ sig (Elt F))).Forall fun op => ∀ b ∈ kept, Proc.devRef .tc b ∉ op.writes := by
  simp only [List.Forall]; repeat' apply And.intro
  all_goals exact keeps_of (by decide)
theorem hostOps1_5_keeps : (hostOps1_5 : List (HloOp τ sig (Elt F))).Forall fun op => ∀ b ∈ kept, Proc.devRef .tc b ∉ op.writes := by
  simp only [List.Forall]; repeat' apply And.intro
  all_goals exact keeps_of (by decide)
theorem hostOps1_6_keeps : (hostOps1_6 : List (HloOp τ sig (Elt F))).Forall fun op => ∀ b ∈ kept, Proc.devRef .tc b ∉ op.writes := by
  simp only [List.Forall]; repeat' apply And.intro
  all_goals exact keeps_of (by decide)
theorem hostOps1_7_keeps : (hostOps1_7 : List (HloOp τ sig (Elt F))).Forall fun op => ∀ b ∈ kept, Proc.devRef .tc b ∉ op.writes := by
  simp only [List.Forall]; repeat' apply And.intro
  all_goals exact keeps_of (by decide)
theorem hostOps1_8_keeps : (hostOps1_8 : List (HloOp τ sig (Elt F))).Forall fun op => ∀ b ∈ kept, Proc.devRef .tc b ∉ op.writes := by
  simp only [List.Forall]; repeat' apply And.intro
  all_goals exact keeps_of (by decide)
theorem hostOps1_9_keeps : (hostOps1_9 : List (HloOp τ sig (Elt F))).Forall fun op => ∀ b ∈ kept, Proc.devRef .tc b ∉ op.writes := by
  simp only [List.Forall]; repeat' apply And.intro
  all_goals exact keeps_of (by decide)
theorem hostOps1_10_keeps : (hostOps1_10 : List (HloOp τ sig (Elt F))).Forall fun op => ∀ b ∈ kept, Proc.devRef .tc b ∉ op.writes := by
  simp only [List.Forall]; repeat' apply And.intro
  all_goals exact keeps_of (by decide)
theorem hostOps1_11_keeps : (hostOps1_11 : List (HloOp τ sig (Elt F))).Forall fun op => ∀ b ∈ kept, Proc.devRef .tc b ∉ op.writes := by
  simp only [List.Forall]; repeat' apply And.intro
  all_goals exact keeps_of (by decide)
theorem hostOps1_12_keeps : (hostOps1_12 : List (HloOp τ sig (Elt F))).Forall fun op => ∀ b ∈ kept, Proc.devRef .tc b ∉ op.writes := by
  simp only [List.Forall]; repeat' apply And.intro
  all_goals exact keeps_of (by decide)
theorem hostOps1_13_keeps : (hostOps1_13 : List (HloOp τ sig (Elt F))).Forall fun op => ∀ b ∈ kept, Proc.devRef .tc b ∉ op.writes := by
  simp only [List.Forall]; repeat' apply And.intro
  all_goals exact keeps_of (by decide)
theorem hostOps1_14_keeps : (hostOps1_14 : List (HloOp τ sig (Elt F))).Forall fun op => ∀ b ∈ kept, Proc.devRef .tc b ∉ op.writes := by
  simp only [List.Forall]; repeat' apply And.intro
  all_goals exact keeps_of (by decide)
theorem hostOps1_15_keeps : (hostOps1_15 : List (HloOp τ sig (Elt F))).Forall fun op => ∀ b ∈ kept, Proc.devRef .tc b ∉ op.writes := by
  simp only [List.Forall]; repeat' apply And.intro
  all_goals exact keeps_of (by decide)
theorem hostOps1_16_keeps : (hostOps1_16 : List (HloOp τ sig (Elt F))).Forall fun op => ∀ b ∈ kept, Proc.devRef .tc b ∉ op.writes := by
  simp only [List.Forall]; repeat' apply And.intro
  all_goals exact keeps_of (by decide)

/-- No operation after the region writes an argument or a window's array. -/
theorem tail_keeps : ∀ ops ∈ (tailOpss : (List (List (HloOp τ sig (Elt F))))), ∀ op ∈ ops, ∀ b ∈ kept, Proc.devRef .tc b ∉ op.writes :=
  tail_forall hostOps1_keeps hostOps1_1_keeps hostOps1_2_keeps hostOps1_3_keeps hostOps1_4_keeps hostOps1_5_keeps hostOps1_6_keeps hostOps1_7_keeps hostOps1_8_keeps hostOps1_9_keeps hostOps1_10_keeps hostOps1_11_keeps hostOps1_12_keeps hostOps1_13_keeps hostOps1_14_keeps hostOps1_15_keeps hostOps1_16_keeps

/-- In particular they write no array of the pipeline. -/
theorem sfx_keeps : ∀ ops ∈ (tailOpss : (List (List (HloOp τ sig (Elt F))))), ∀ op ∈ ops,
    ∀ w, Proc.devRef .tc (Pipeline.arrRef spec0 w) ∉ op.writes := fun ops hops op hop w =>
  tail_keeps ops hops op hop (Pipeline.arrRef spec0 w) ((by decide : ∀ w, Pipeline.arrRef spec0 w ∈ kept) w)

/-! ## The arguments, at the region's entry and at the program's end -/

/-- The one operation before the region writes the reshaped logits only: the region finds every other buffer as launched. -/
theorem V_of_ne (c : Dev nD) {b : Ref sig .tc} (h : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne h))

/-- A buffer among the eight that is no window's array ends as the region found it: the region's result replaces
    the arrays only, and no operation after the region writes it. -/
theorem W_of_kept (dats : (p : Fin _) → (c : Dev nD) → Dat τ (Elt F) Unit ℕ (UR sig nD τ) ℕ (cfgs p) c) (c : Dev nD)
    {b : Ref sig .tc} (hb : b ∈ kept) (hne : ∀ w, Pipeline.arrRef spec0 w ≠ b) :
    Pipeline.afterTail₀ cfgs dats 0 (V0 m) tailOpss c b = V m c b := by
  have hw : ∀ op ∈ (tailOpss : (List (List (HloOp τ sig (Elt F))))).flatten, Proc.devRef .tc b ∉ op.writes := fun op hop => by
    obtain ⟨ops, hops, hop'⟩ := List.mem_flatten.mp hop
    exact tail_keeps ops hops op hop' b hb
  unfold Pipeline.afterTail₀
  exact (StableHlo.after_of_forall_not_mem (b := Proc.devRef .tc b) _ _ hw).trans
    (Pipeline.withArrays_of_ne _ c (V0 m c) _ b hne)

/-- No host operation before the region writes argument 0: the region finds it as launched. -/
theorem V_main_arg0 (c : Dev nD) : V m c main_arg0 = m ((c : Thread nD τ).loc main_arg0) :=
  V_of_ne m c (by decide)

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOpss c main_arg0 = m ((c : Thread nD τ).loc main_arg0) :=
  (W_of_kept m dats c (by decide) (by decide)).trans (V_main_arg0 m c)

/-- No host operation before the region writes argument 1: the region finds it as launched. -/
theorem V_main_arg1 (c : Dev nD) : V m c main_arg1 = m ((c : Thread nD τ).loc main_arg1) :=
  V_of_ne m c (by decide)

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) :=
  (W_of_kept m dats c (by decide) (by decide)).trans (V_main_arg1 m c)

/-- No host operation before the region writes argument 2: the region finds it as launched. -/
theorem V_main_arg2 (c : Dev nD) : V m c main_arg2 = m ((c : Thread nD τ).loc main_arg2) :=
  V_of_ne m c (by decide)

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOpss c main_arg2 = m ((c : Thread nD τ).loc main_arg2) :=
  (W_of_kept m dats c (by decide) (by decide)).trans (V_main_arg2 m c)

/-- No host operation before the region writes argument 3: the region finds it as launched. -/
theorem V_main_arg3 (c : Dev nD) : V m c main_arg3 = m ((c : Thread nD τ).loc main_arg3) :=
  V_of_ne m c (by decide)

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOpss c main_arg3 = m ((c : Thread nD τ).loc main_arg3) :=
  (W_of_kept m dats c (by decide) (by decide)).trans (V_main_arg3 m c)

/-- No host operation before the region writes argument 4: the region finds it as launched. -/
theorem V_main_arg4 (c : Dev nD) : V m c main_arg4 = m ((c : Thread nD τ).loc main_arg4) :=
  V_of_ne m c (by decide)

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOpss c main_arg4 = m ((c : Thread nD τ).loc main_arg4) :=
  (W_of_kept m dats c (by decide) (by decide)).trans (V_main_arg4 m c)

/-- No host operation before the region writes argument 5: the region finds it as launched. -/
theorem V_main_arg5 (c : Dev nD) : V m c main_arg5 = m ((c : Thread nD τ).loc main_arg5) :=
  V_of_ne m c (by decide)

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOpss c main_arg5 = m ((c : Thread nD τ).loc main_arg5) :=
  (W_of_kept m dats c (by decide) (by decide)).trans (V_main_arg5 m c)

/-! ## The frame claim's post from the frame run's -/

/-- For any proof data, a run of the program to the pipeline's post is a run to the frame claim's post: no argument
    is a window's array (the windows stage the reshaped logits and the region's result), so each is among the buffers that
    bypass the region, which end as the operations after the region leave them: as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

end Cert.Kernel.KF

end
-- ==== Proof.KernelFrame.Data.lean ====
/-
  What the output window's staging buffer holds after the body at each grid point, and the pipeline's proof data.

  The grid is 4 × 4 in row-major order, point `t` at block row `t / 4` and block column `t % 4`.  At a point of
  block column 0 the body clears its 16 × 1 output block and adds the block's row sums of the per-element term;
  at the other points it adds the row sums to what the point before left there (the buffer is written back only
  at block column 3).  So after point `t` the buffer holds the row sums over block columns `0 … t % 4`.
-/
import proofs.«428731_j81046032875796_3_alg».proof.Proof.KernelFrame.Base

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE ACCUMULATION: the output block's staging buffer after the body at position `n`. -/
def outsAt0 (c : Dev nD) : (n : ℕ) → n < cfg0.N → Vec F S16x1 .f32
  | 0, hn => k0_pay2 (iblk m c 0 ⟨0, hn⟩) (k0_pay1 (F := F))
  | n + 1, hn =>
    if (n + 1) % 4 = 0 then k0_pay2 (iblk m c 0 ⟨n + 1, hn⟩) (k0_pay1 (F := F))
    else k0_pay2 (iblk m c 0 ⟨n + 1, hn⟩) (outsAt0 c n (Nat.lt_of_succ_lt hn))

/-- At a point of block column 0: the row sums of the point's block over a cleared block. -/
theorem outsAt0_A (c : Dev nD) (t : Fin cfg0.N) (h0 : t.val % 4 = 0) :
    outsAt0 m c t.val t.isLt = k0_pay2 (iblk m c 0 t) (k0_pay1 (F := F)) := by
  obtain ⟨n, hn⟩ := t
  cases n with
  | zero => exact rfl
  | succ n => exact (if_pos h0).trans rfl

/-- At any other point: the row sums of the point's block over what the point before left. -/
theorem outsAt0_B (c : Dev nD) (t : Fin cfg0.N) (h0 : ¬t.val % 4 = 0) :
    outsAt0 m c t.val t.isLt
      = k0_pay2 (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of the one pipeline on core `c`: the arrays as the region finds them; after the body at point
    `t` the input's buffer at its block and the output's at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

end Cert.Kernel.KF

end
-- ==== Proof.KernelFrame.RunA.lean ====
/-
  The kernel body, run whole, at a grid point whose second coordinate is 0: on whole staging memrefs, the
  input's at its block and the output's at anything, the body reads the output block, clears it, reads the
  input block, reads the output block twice more and stores the block's row sums added to the cleared
  block.  The pieces the output's buffer ends with (last first) are the witness the run finds.
-/
import proofs.«428731_j81046032875796_3_alg».proof.Proof.KernelFrame.Base

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), at a point where the
    body's conditional is taken, with the proof that the body runs to a continuation holding the input's buffer
    as it was and the output's with those pieces written. -/
noncomputable def kernelRun0_A (c : Dev nD) (i : grid0.Coords) (arg2 : Memref sig .tc .vmem S16x81920 .f32) (harg2 : arg2.IsWhole) (arg3 : Memref sig .tc .vmem S16x1 .f32) (harg3 : arg3.IsWhole) (hc0 : cond0_0 i)
    (x0 : Vec F S16x81920 .f32) :
    { L1 : List (View.Piece (Elt F) S16x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__focal_t0_kernel i arg2 harg2 arg3 harg3) K } := by
  refine ⟨?_, fun E K => ?run⟩
  case run =>
    simp only [cc0__focal_t0_kernel_eq_skeleton]; unfold cc0__focal_t0_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.Kernel.KF

end
-- ==== Proof.KernelFrame.RunB.lean ====
/-
  The kernel body, run whole, at a grid point whose second coordinate is not 0: on whole staging memrefs, the
  input's at its block and the output's at its running contents, the body reads the input block, reads the
  output block twice and stores the block's row sums added to the running contents.  The pieces the output's
  buffer ends with (last first) are the witness the run finds.
-/
import proofs.«428731_j81046032875796_3_alg».proof.Proof.KernelFrame.RunA

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref, as pieces (last first), at a point where the
    body's conditional is not taken, with the proof that the body runs to a continuation holding the input's
    buffer as it was and the output's with those pieces written. -/
noncomputable def kernelRun0_B (c : Dev nD) (i : grid0.Coords) (arg2 : Memref sig .tc .vmem S16x81920 .f32) (harg2 : arg2.IsWhole) (arg3 : Memref sig .tc .vmem S16x1 .f32) (harg3 : arg3.IsWhole) (hc0 : ¬cond0_0 i)
    (x0 : Vec F S16x81920 .f32) (xo1 : Vec F S16x1 .f32) :
    { L1 : List (View.Piece (Elt F) S16x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__focal_t0_kernel i arg2 harg2 arg3 harg3) K } := by
  refine ⟨?_, fun E K => ?run⟩
  case run =>
    simp only [cc0__focal_t0_kernel_eq_skeleton]; unfold cc0__focal_t0_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.KF

end
-- ==== Proof.KernelFrame.Body.lean ====
/-
  The kernel body's side of the frame: what each case's run leaves in the output's staging buffer, what the
  staging buffers hold when the body is entered at a grid point, and the pipeline's body obligation.

  The grid is 4 × 4 in row-major order.  At a point of block column 0 the body clears the 16 × 1 output block
  and stores the input block's row sums added to the cleared block; at the other points it stores the row sums
  added to what the point before left in the buffer, which is written back only after block column 3.
-/
import proofs.«428731_j81046032875796_3_alg».proof.Proof.KernelFrame.Data
import proofs.«428731_j81046032875796_3_alg».proof.Proof.KernelFrame.RunA
import proofs.«428731_j81046032875796_3_alg».proof.Proof.KernelFrame.RunB
import Idealize.ShloMosaic.Lib.Pipeline.Value

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's pieces read back to -/

/-- The offsets of a whole-block access: zero on both axes. -/
private theorem hz : (![0, 0] : Fin 2 → Nat) = fun _ => 0 := funext fun a => by fin_cases a <;> rfl

/-- At a point of block column 0 the output's pieces (the clearing store, then the accumulating store) tile its
    16 × 1 block, so they cover it. -/
theorem cover0_A_1 (c : Dev nD) (i : grid0.Coords) (arg2 : Memref sig .tc .vmem S16x81920 .f32) (harg2 : arg2.IsWhole) (arg3 : Memref sig .tc .vmem S16x1 .f32) (harg3 : arg3.IsWhole) (hc0 : cond0_0 i)
    (x0 : Vec F S16x81920 .f32) (y : S16x1.Idx) :
    ∃ pc ∈ (kernelRun0_A c i arg2 harg2 arg3 harg3 hc0 x0).1, y ∈ pc.1.set :=
  View.cover_of_tiledL (kernelRun0_A c i arg2 harg2 arg3 harg3 hc0 x0).1 S16x1.size (by sl_kernel_rfl) y

/-- At any other point the output's one piece (the accumulating store) is its whole 16 × 1 block. -/
theorem cover0_B_1 (c : Dev nD) (i : grid0.Coords) (arg2 : Memref sig .tc .vmem S16x81920 .f32) (harg2 : arg2.IsWhole) (arg3 : Memref sig .tc .vmem S16x1 .f32) (harg3 : arg3.IsWhole) (hc0 : ¬cond0_0 i)
    (x0 : Vec F S16x81920 .f32) (xo1 : Vec F S16x1 .f32) (y : S16x1.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S16x1.size (by sl_kernel_rfl) y

/-- At a point of block column 0 the output's buffer ends at the row sums of the input block added to the
    cleared block: the last store covers the block, and the value it adds to was loaded after the clearing
    store, so it is the constant 0 block. -/
theorem out0_A_1_eq (c : Dev nD) (i : grid0.Coords) (arg2 : Memref sig .tc .vmem S16x81920 .f32) (harg2 : arg2.IsWhole) (arg3 : Memref sig .tc .vmem S16x1 .f32) (harg3 : arg3.IsWhole) (hc0 : cond0_0 i)
    (x0 : Vec F S16x81920 .f32) :
    VO0_1.read (Elt F) (VO0_1.writes (Elt F) VO0_1.junk (kernelRun0_A c i arg2 harg2 arg3 harg3 hc0 x0).1)
      = k0_pay2 x0 (k0_pay1 (F := F)) := by
  rw [View.read_writes_eq_canon _ _ _ (cover0_A_1 c i arg2 harg2 arg3 harg3 hc0 x0)]
  unfold kernelRun0_A
  dsimp only
  sl_unfold_words
  rw [View.canon_cons_unit_zero (S := S16x1) hz]
  simp only [View.readAt_eq_ld, harg2.read_unread, View.ld_unit_zero (S := S16x81920) hz,
    View.readCov_unit_zero (S := S16x1) _ hz]

/-- At any other point the output's buffer ends at the row sums of the input block added to the contents it
    was entered with. -/
theorem out0_B_1_eq (c : Dev nD) (i : grid0.Coords) (arg2 : Memref sig .tc .vmem S16x81920 .f32) (harg2 : arg2.IsWhole) (arg3 : Memref sig .tc .vmem S16x1 .f32) (harg3 : arg3.IsWhole) (hc0 : ¬cond0_0 i)
    (x0 : Vec F S16x81920 .f32) (xo1 : Vec F S16x1 .f32) :
    VO0_1.read (Elt F) (VO0_1.writes (Elt F) VO0_1.junk (kernelRun0_B c i arg2 harg2 arg3 harg3 hc0 x0 xo1).1)
      = k0_pay2 x0 xo1 := by
  rw [View.read_writes_eq_canon _ _ _ (cover0_B_1 c i arg2 harg2 arg3 harg3 hc0 x0 xo1)]
  unfold kernelRun0_B
  dsimp only
  sl_unfold_words
  rw [View.canon_unit_zero hz]
  simp only [View.readAt_eq_ld, harg2.read_unread, harg3.read_unread, View.ld_unit_zero (S := S16x81920) hz,
    View.ld_unit_zero (S := S16x1) hz]

/-! ## What the staging buffers hold when the body is entered -/

/-- The input window's current staging buffer holds its block at every point, fetched there or not, for any
    proof data whose array is the region-entry contents and whose body leaves the block in place: the window
    is uncut and never idle, and where it is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- At a point whose block column is not 0 the output's current staging buffer holds what the body left at the
    point before: the point is not the first, and the buffer was not written back between (it is written back
    only after block column 3, and the point before has block column at most 2). -/
theorem before0_1_B (c : Dev nD) (t : Fin cfg0.N) (h0 : ¬t.val % 4 = 0) (d) :
    (dats m 0 c).before 1 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

/-- What the body is called with at point `t`: the invariant, what the core owes, and each window's current
    staging memref at its contents on entry. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What the body returns: the same, each staging memref at its contents after the body. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point.  The input's memref holds its block; the point's block column says which case it is
    in; at a column other than 0 the output's memref holds what the point before left; so the case's run
    applies, and what it leaves in the output's buffer is the accumulation's value at the point.  The invariant
    passes through untouched and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  by_cases h0 : t.val % 4 = 0
  · rw [outsAt0_A m c t h0]
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro
    exact (View.read_writes_of_cover _ _ _ _ _ (cover0_A_1 c _ _ _ _ _ _ _)).trans
      (out0_A_1_eq c (grid0.coords t) (ms0_0 t) (hs0_0 t) (ms0_1 t) (hs0_1 t) ((hcond0_0 t).mpr h0) (iblk m c 0 t))
  · rw [outsAt0_B m c t h0]
    simp only [before0_1_B m c t h0]
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro
    exact (View.read_writes_of_cover _ _ _ _ _ (cover0_B_1 c _ _ _ _ _ _ _ _)).trans
      (out0_B_1_eq c (grid0.coords t) (ms0_0 t) (hs0_0 t) (ms0_1 t) (hs0_1 t) (fun h => h0 ((hcond0_0 t).mp h)) (iblk m c 0 t)
        (outsAt0 m c (t.val - 1) (Nat.lt_of_le_of_lt (Nat.sub_le _ _) t.isLt)))

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.KF

end
-- ==== Proof.KernelFrame.Frame.lean ====
/-
  The run of the whole program and its frame.

  Every weakly fair execution of the program terminates without a fault; at the end each array a window stages
  holds what the proof data computes for it, and every other buffer holds what the host operations after the
  region leave there, started from the region's exit.  In particular no argument array is written.
-/
import proofs.«428731_j81046032875796_3_alg».proof.Proof.KernelFrame.Around
import proofs.«428731_j81046032875796_3_alg».proof.Proof.KernelFrame.Body

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the launch theorem's implicit arguments are found by unifying its conclusion with this statement, which takes
-- unfolding plain definitions in a metavariable's type
set_option backward.isDefEq.respectTransparency.types false in
/-- The run: the host prefix, the region under the pipeline's proof data, the seventeen stretches of host
    operations after it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: the six argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.KF

end
-- ==== Proof.KernelIdealFrame.Base.lean ====
/-
  The program around its one grid region, as data: the contents of the core's buffers when the region is
  entered (the logits reshaped to 64 × 327680 by the one host operation before it), the host operations that
  follow the region (seventeen stretches, in program order), each window's block at a grid point, the
  condition "second grid coordinate is 0" under which the body first clears its output block, and the
  staging memrefs the body is called with.
-/
import proofs.«428731_j81046032875796_3_alg».proof.Proof.Gen.KernelIdeal.Launch
import proofs.«428731_j81046032875796_3_alg».proof.Proof.Gen.KernelIdeal.Skeleton
import proofs.«428731_j81046032875796_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers at the region's entry, and the host operations after the region -/

/-- Core `c`'s buffer contents when the region is entered: after the reshape of the logits. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch, in program order. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15, hostOps1_16]

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch condition -/

/-- The condition of the body's one conditional, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds exactly at the points 0, 4, 8, 12 of the 4 × 4 grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs the body is called with -/

/-- One staging buffer of the output window, through which its contents are stated. -/
abbrev VO0_1 : View sig .tc .vmem S16x1 .f32 := (Memref.whole cc0_stg1_0 : Memref sig .tc .vmem S16x1 .f32).view
abbrev ms0_0 (t : Fin cfg0.N) : Memref sig .tc .vmem S16x81920 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)

end Cert.KernelIdeal.KF

end
-- ==== Proof.KernelIdealFrame.Around.lean ====
/-
  The host side of the program around its one grid region: the one reshape before the region and the seventeen
  stretches of host operations after it allocate nothing, touch only unscoped TensorCore buffers, and write neither
  an array of the region's windows nor an argument of the program.  Hence the program reduces to its region continued
  by the later stretches, every argument is found by the region as launched and is left so by everything after it, and
  a run of the whole program to the pipeline's post is a run to the frame claim's post.
-/
import proofs.«428731_j81046032875796_3_alg».proof.Proof.KernelIdealFrame.Base

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-! ## The program around the region -/

/-- The program at any variants: the reshape before the region, the region, the seventeen stretches after it; so it
    reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss : List (List (HloOp τ sig (Elt F)))).map StableHlo.seq)) :=
  Pipeline.hmain_around cfgs 0 defs₀ 𝒱₀ m main [hostOps0] tailOpss (by simp only [List.Forall]; exact hostOps0_sub)
    (by simp only [List.Forall]; exact hostOps0_fresh) main_chain

/-- A property every operation of each of the seventeen stretches has, every operation after the region has. -/
theorem tail_forall {p : HloOp τ sig (Elt F) → Prop}
    (h1 : (hostOps1 : List (HloOp τ sig (Elt F))).Forall p)
    (h1_1 : (hostOps1_1 : List (HloOp τ sig (Elt F))).Forall p)
    (h1_2 : (hostOps1_2 : List (HloOp τ sig (Elt F))).Forall p)
    (h1_3 : (hostOps1_3 : List (HloOp τ sig (Elt F))).Forall p)
    (h1_4 : (hostOps1_4 : List (HloOp τ sig (Elt F))).Forall p)
    (h1_5 : (hostOps1_5 : List (HloOp τ sig (Elt F))).Forall p)
    (h1_6 : (hostOps1_6 : List (HloOp τ sig (Elt F))).Forall p)
    (h1_7 : (hostOps1_7 : List (HloOp τ sig (Elt F))).Forall p)
    (h1_8 : (hostOps1_8 : List (HloOp τ sig (Elt F))).Forall p)
    (h1_9 : (hostOps1_9 : List (HloOp τ sig (Elt F))).Forall p)
    (h1_10 : (hostOps1_10 : List (HloOp τ sig (Elt F))).Forall p)
    (h1_11 : (hostOps1_11 : List (HloOp τ sig (Elt F))).Forall p)
    (h1_12 : (hostOps1_12 : List (HloOp τ sig (Elt F))).Forall p)
    (h1_13 : (hostOps1_13 : List (HloOp τ sig (Elt F))).Forall p)
    (h1_14 : (hostOps1_14 : List (HloOp τ sig (Elt F))).Forall p)
    (h1_15 : (hostOps1_15 : List (HloOp τ sig (Elt F))).Forall p)
    (h1_16 : (hostOps1_16 : List (HloOp τ sig (Elt F))).Forall p) :
    ∀ ops ∈ (tailOpss : (List (List (HloOp τ sig (Elt F))))), ∀ op ∈ ops, p op := by
  intro ops hops op hop
  simp only [tailOpss, List.mem_cons, List.mem_nil_iff, or_false] at hops
  rcases hops with rfl | rfl | rfl | rfl | rfl | rfl | rfl | rfl | rfl | rfl | rfl | rfl | rfl | rfl | rfl | rfl | rfl
  · exact (List.forall_iff_forall_mem.mp h1) op hop
  · exact (List.forall_iff_forall_mem.mp h1_1) op hop
  · exact (List.forall_iff_forall_mem.mp h1_2) op hop
  · exact (List.forall_iff_forall_mem.mp h1_3) op hop
  · exact (List.forall_iff_forall_mem.mp h1_4) op hop
  · exact (List.forall_iff_forall_mem.mp h1_5) op hop
  · exact (List.forall_iff_forall_mem.mp h1_6) op hop
  · exact (List.forall_iff_forall_mem.mp h1_7) op hop
  · exact (List.forall_iff_forall_mem.mp h1_8) op hop
  · exact (List.forall_iff_forall_mem.mp h1_9) op hop
  · exact (List.forall_iff_forall_mem.mp h1_10) op hop
  · exact (List.forall_iff_forall_mem.mp h1_11) op hop
  · exact (List.forall_iff_forall_mem.mp h1_12) op hop
  · exact (List.forall_iff_forall_mem.mp h1_13) op hop
  · exact (List.forall_iff_forall_mem.mp h1_14) op hop
  · exact (List.forall_iff_forall_mem.mp h1_15) op hop
  · exact (List.forall_iff_forall_mem.mp h1_16) op hop

/-- The operations after the region touch the windows' arrays and the bypassing buffers only: each touches unscoped
    TensorCore buffers, and with nothing prefetched every such buffer is one or the other. -/
theorem sfx_sub : ∀ ops ∈ (tailOpss : (List (List (HloOp τ sig (Elt F))))), ∀ op ∈ ops,
    op.bufs ⊆ Pipeline.tailRefs sig Pipeline.Prefetch.none spec0 := by
  rw [Pipeline.tailRefs_none spec0 launch0.win.arr_unscoped]
  exact tail_forall (p := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
    (List.forall_iff_forall_mem.mpr fun op hop => Pipeline.sub_ucRefs op ((List.forall_iff_forall_mem.mp hostOps1_3_sub) op hop))
    (List.forall_iff_forall_mem.mpr fun op hop => Pipeline.sub_ucRefs op ((List.forall_iff_forall_mem.mp hostOps1_4_sub) op hop))
    (List.forall_iff_forall_mem.mpr fun op hop => Pipeline.sub_ucRefs op ((List.forall_iff_forall_mem.mp hostOps1_5_sub) op hop))
    (List.forall_iff_forall_mem.mpr fun op hop => Pipeline.sub_ucRefs op ((List.forall_iff_forall_mem.mp hostOps1_6_sub) op hop))
    (List.forall_iff_forall_mem.mpr fun op hop => Pipeline.sub_ucRefs op ((List.forall_iff_forall_mem.mp hostOps1_7_sub) op hop))
    (List.forall_iff_forall_mem.mpr fun op hop => Pipeline.sub_ucRefs op ((List.forall_iff_forall_mem.mp hostOps1_8_sub) op hop))
    (List.forall_iff_forall_mem.mpr fun op hop => Pipeline.sub_ucRefs op ((List.forall_iff_forall_mem.mp hostOps1_9_sub) op hop))
    (List.forall_iff_forall_mem.mpr fun op hop => Pipeline.sub_ucRefs op ((List.forall_iff_forall_mem.mp hostOps1_10_sub) op hop))
    (List.forall_iff_forall_mem.mpr fun op hop => Pipeline.sub_ucRefs op ((List.forall_iff_forall_mem.mp hostOps1_11_sub) op hop))
    (List.forall_iff_forall_mem.mpr fun op hop => Pipeline.sub_ucRefs op ((List.forall_iff_forall_mem.mp hostOps1_12_sub) op hop))
    (List.forall_iff_forall_mem.mpr fun op hop => Pipeline.sub_ucRefs op ((List.forall_iff_forall_mem.mp hostOps1_13_sub) op hop))
    (List.forall_iff_forall_mem.mpr fun op hop => Pipeline.sub_ucRefs op ((List.forall_iff_forall_mem.mp hostOps1_14_sub) op hop))
    (List.forall_iff_forall_mem.mpr fun op hop => Pipeline.sub_ucRefs op ((List.forall_iff_forall_mem.mp hostOps1_15_sub) op hop))
    (List.forall_iff_forall_mem.mpr fun op hop => Pipeline.sub_ucRefs op ((List.forall_iff_forall_mem.mp hostOps1_16_sub) op hop))

/-- They allocate nothing. -/
theorem sfx_fresh : ∀ ops ∈ (tailOpss : (List (List (HloOp τ sig (Elt F))))), ∀ op ∈ ops, op.fresh = ∅ :=
  tail_forall hostOps1_fresh hostOps1_1_fresh hostOps1_2_fresh hostOps1_3_fresh hostOps1_4_fresh hostOps1_5_fresh hostOps1_6_fresh hostOps1_7_fresh hostOps1_8_fresh hostOps1_9_fresh hostOps1_10_fresh hostOps1_11_fresh hostOps1_12_fresh hostOps1_13_fresh hostOps1_14_fresh hostOps1_15_fresh hostOps1_16_fresh

/-! ## What the operations after the region leave alone -/

/-- The buffers no host operation after the region writes: the program's six arguments and the two windows' arrays. -/
abbrev kept : List (Ref sig .tc) :=
  [main_arg0, main_arg1, main_arg2, main_arg3, main_arg4, main_arg5, main_v0, main_v1]

/-- An operation whose one result buffer is none of them writes none of them. -/
theorem keeps_of {y : Ref sig .tc} (h : y ∉ kept) :
    ∀ b ∈ kept, Proc.devRef (τ := τ) .tc b ∉ ({Proc.devRef .tc y} : Finset (DevRef τ sig)) := fun b hb hm =>
  h (Proc.devRef_injective _ (Finset.mem_singleton.mp hm) ▸ hb)

/-! Stretch by stretch: every operation writes its own result buffer only, and that is a value of the program
    after the region's result, so none of the eight. -/
theorem hostOps1_keeps : (hostOps1 : List (HloOp τ sig (Elt F))).Forall fun op => ∀ b ∈ kept, Proc.devRef .tc b ∉ op.writes := by
  simp only [List.Forall]; repeat' apply And.intro
  all_goals exact keeps_of (by decide)
theorem hostOps1_1_keeps : (hostOps1_1 : List (HloOp τ sig (Elt F))).Forall fun op => ∀ b ∈ kept, Proc.devRef .tc b ∉ op.writes := by
  simp only [List.Forall]; repeat' apply And.intro
  all_goals exact keeps_of (by decide)
theorem hostOps1_2_keeps : (hostOps1_2 : List (HloOp τ sig (Elt F))).Forall fun op => ∀ b ∈ kept, Proc.devRef .tc b ∉ op.writes := by
  simp only [List.Forall]; repeat' apply And.intro
  all_goals exact keeps_of (by decide)
theorem hostOps1_3_keeps : (hostOps1_3 : List (HloOp τ sig (Elt F))).Forall fun op => ∀ b ∈ kept, Proc.devRef .tc b ∉ op.writes := by
  simp only [List.Forall]; repeat' apply And.intro
  all_goals exact keeps_of (by decide)
theorem hostOps1_4_keeps : (hostOps1_4 : List (HloOp τ sig (Elt F))).Forall fun op => ∀ b ∈ kept, Proc.devRef .tc b ∉ op.writes := by
  simp only [List.Forall]; repeat' apply And.intro
  all_goals exact keeps_of (by decide)
theorem hostOps1_5_keeps : (hostOps1_5 : List (HloOp τ sig (Elt F))).Forall fun op => ∀ b ∈ kept, Proc.devRef .tc b ∉ op.writes := by
  simp only [List.Forall]; repeat' apply And.intro
  all_goals exact keeps_of (by decide)
theorem hostOps1_6_keeps : (hostOps1_6 : List (HloOp τ sig (Elt F))).Forall fun op => ∀ b ∈ kept, Proc.devRef .tc b ∉ op.writes := by
  simp only [List.Forall]; repeat' apply And.intro
  all_goals exact keeps_of (by decide)
theorem hostOps1_7_keeps : (hostOps1_7 : List (HloOp τ sig (Elt F))).Forall fun op => ∀ b ∈ kept, Proc.devRef .tc b ∉ op.writes := by
  simp only [List.Forall]; repeat' apply And.intro
  all_goals exact keeps_of (by decide)
theorem hostOps1_8_keeps : (hostOps1_8 : List (HloOp τ sig (Elt F))).Forall fun op => ∀ b ∈ kept, Proc.devRef .tc b ∉ op.writes := by
  simp only [List.Forall]; repeat' apply And.intro
  all_goals exact keeps_of (by decide)
theorem hostOps1_9_keeps : (hostOps1_9 : List (HloOp τ sig (Elt F))).Forall fun op => ∀ b ∈ kept, Proc.devRef .tc b ∉ op.writes := by
  simp only [List.Forall]; repeat' apply And.intro
  all_goals exact keeps_of (by decide)
theorem hostOps1_10_keeps : (hostOps1_10 : List (HloOp τ sig (Elt F))).Forall fun op => ∀ b ∈ kept, Proc.devRef .tc b ∉ op.writes := by
  simp only [List.Forall]; repeat' apply And.intro
  all_goals exact keeps_of (by decide)
theorem hostOps1_11_keeps : (hostOps1_11 : List (HloOp τ sig (Elt F))).Forall fun op => ∀ b ∈ kept, Proc.devRef .tc b ∉ op.writes := by
  simp only [List.Forall]; repeat' apply And.intro
  all_goals exact keeps_of (by decide)
theorem hostOps1_12_keeps : (hostOps1_12 : List (HloOp τ sig (Elt F))).Forall fun op => ∀ b ∈ kept, Proc.devRef .tc b ∉ op.writes := by
  simp only [List.Forall]; repeat' apply And.intro
  all_goals exact keeps_of (by decide)
theorem hostOps1_13_keeps : (hostOps1_13 : List (HloOp τ sig (Elt F))).Forall fun op => ∀ b ∈ kept, Proc.devRef .tc b ∉ op.writes := by
  simp only [List.Forall]; repeat' apply And.intro
  all_goals exact keeps_of (by decide)
theorem hostOps1_14_keeps : (hostOps1_14 : List (HloOp τ sig (Elt F))).Forall fun op => ∀ b ∈ kept, Proc.devRef .tc b ∉ op.writes := by
  simp only [List.Forall]; repeat' apply And.intro
  all_goals exact keeps_of (by decide)
theorem hostOps1_15_keeps : (hostOps1_15 : List (HloOp τ sig (Elt F))).Forall fun op => ∀ b ∈ kept, Proc.devRef .tc b ∉ op.writes := by
  simp only [List.Forall]; repeat' apply And.intro
  all_goals exact keeps_of (by decide)
theorem hostOps1_16_keeps : (hostOps1_16 : List (HloOp τ sig (Elt F))).Forall fun op => ∀ b ∈ kept, Proc.devRef .tc b ∉ op.writes := by
  simp only [List.Forall]; repeat' apply And.intro
  all_goals exact keeps_of (by decide)

/-- No operation after the region writes an argument or a window's array. -/
theorem tail_keeps : ∀ ops ∈ (tailOpss : (List (List (HloOp τ sig (Elt F))))), ∀ op ∈ ops, ∀ b ∈ kept, Proc.devRef .tc b ∉ op.writes :=
  tail_forall hostOps1_keeps hostOps1_1_keeps hostOps1_2_keeps hostOps1_3_keeps hostOps1_4_keeps hostOps1_5_keeps hostOps1_6_keeps hostOps1_7_keeps hostOps1_8_keeps hostOps1_9_keeps hostOps1_10_keeps hostOps1_11_keeps hostOps1_12_keeps hostOps1_13_keeps hostOps1_14_keeps hostOps1_15_keeps hostOps1_16_keeps

/-- In particular they write no array of the pipeline. -/
theorem sfx_keeps : ∀ ops ∈ (tailOpss : (List (List (HloOp τ sig (Elt F))))), ∀ op ∈ ops,
    ∀ w, Proc.devRef .tc (Pipeline.arrRef spec0 w) ∉ op.writes := fun ops hops op hop w =>
  tail_keeps ops hops op hop (Pipeline.arrRef spec0 w) ((by decide : ∀ w, Pipeline.arrRef spec0 w ∈ kept) w)

/-! ## The arguments, at the region's entry and at the program's end -/

/-- The one operation before the region writes the reshaped logits only: the region finds every other buffer as launched. -/
theorem V_of_ne (c : Dev nD) {b : Ref sig .tc} (h : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne h))

/-- A buffer among the eight that is no window's array ends as the region found it: the region's result replaces
    the arrays only, and no operation after the region writes it. -/
theorem W_of_kept (dats : (p : Fin _) → (c : Dev nD) → Dat τ (Elt F) Unit ℕ (UR sig nD τ) ℕ (cfgs p) c) (c : Dev nD)
    {b : Ref sig .tc} (hb : b ∈ kept) (hne : ∀ w, Pipeline.arrRef spec0 w ≠ b) :
    Pipeline.afterTail₀ cfgs dats 0 (V0 m) tailOpss c b = V m c b := by
  have hw : ∀ op ∈ (tailOpss : (List (List (HloOp τ sig (Elt F))))).flatten, Proc.devRef .tc b ∉ op.writes := fun op hop => by
    obtain ⟨ops, hops, hop'⟩ := List.mem_flatten.mp hop
    exact tail_keeps ops hops op hop' b hb
  unfold Pipeline.afterTail₀
  exact (StableHlo.after_of_forall_not_mem (b := Proc.devRef .tc b) _ _ hw).trans
    (Pipeline.withArrays_of_ne _ c (V0 m c) _ b hne)

/-- No host operation before the region writes argument 0: the region finds it as launched. -/
theorem V_main_arg0 (c : Dev nD) : V m c main_arg0 = m ((c : Thread nD τ).loc main_arg0) :=
  V_of_ne m c (by decide)

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOpss c main_arg0 = m ((c : Thread nD τ).loc main_arg0) :=
  (W_of_kept m dats c (by decide) (by decide)).trans (V_main_arg0 m c)

/-- No host operation before the region writes argument 1: the region finds it as launched. -/
theorem V_main_arg1 (c : Dev nD) : V m c main_arg1 = m ((c : Thread nD τ).loc main_arg1) :=
  V_of_ne m c (by decide)

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) :=
  (W_of_kept m dats c (by decide) (by decide)).trans (V_main_arg1 m c)

/-- No host operation before the region writes argument 2: the region finds it as launched. -/
theorem V_main_arg2 (c : Dev nD) : V m c main_arg2 = m ((c : Thread nD τ).loc main_arg2) :=
  V_of_ne m c (by decide)

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOpss c main_arg2 = m ((c : Thread nD τ).loc main_arg2) :=
  (W_of_kept m dats c (by decide) (by decide)).trans (V_main_arg2 m c)

/-- No host operation before the region writes argument 3: the region finds it as launched. -/
theorem V_main_arg3 (c : Dev nD) : V m c main_arg3 = m ((c : Thread nD τ).loc main_arg3) :=
  V_of_ne m c (by decide)

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOpss c main_arg3 = m ((c : Thread nD τ).loc main_arg3) :=
  (W_of_kept m dats c (by decide) (by decide)).trans (V_main_arg3 m c)

/-- No host operation before the region writes argument 4: the region finds it as launched. -/
theorem V_main_arg4 (c : Dev nD) : V m c main_arg4 = m ((c : Thread nD τ).loc main_arg4) :=
  V_of_ne m c (by decide)

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOpss c main_arg4 = m ((c : Thread nD τ).loc main_arg4) :=
  (W_of_kept m dats c (by decide) (by decide)).trans (V_main_arg4 m c)

/-- No host operation before the region writes argument 5: the region finds it as launched. -/
theorem V_main_arg5 (c : Dev nD) : V m c main_arg5 = m ((c : Thread nD τ).loc main_arg5) :=
  V_of_ne m c (by decide)

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOpss c main_arg5 = m ((c : Thread nD τ).loc main_arg5) :=
  (W_of_kept m dats c (by decide) (by decide)).trans (V_main_arg5 m c)

/-! ## The frame claim's post from the frame run's -/

/-- For any proof data, a run of the program to the pipeline's post is a run to the frame claim's post: no argument
    is a window's array (the windows stage the reshaped logits and the region's result), so each is among the buffers that
    bypass the region, which end as the operations after the region leave them: as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

end Cert.KernelIdeal.KF

end
-- ==== Proof.KernelIdealFrame.Data.lean ====
/-
  What the output window's staging buffer holds after the body at each grid point, and the pipeline's proof data.

  The grid is 4 × 4 in row-major order, point `t` at block row `t / 4` and block column `t % 4`.  At a point of
  block column 0 the body clears its 16 × 1 output block and adds the block's row sums of the per-element term;
  at the other points it adds the row sums to what the point before left there (the buffer is written back only
  at block column 3).  So after point `t` the buffer holds the row sums over block columns `0 … t % 4`.
-/
import proofs.«428731_j81046032875796_3_alg».proof.Proof.KernelIdealFrame.Base

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE ACCUMULATION: the output block's staging buffer after the body at position `n`. -/
def outsAt0 (c : Dev nD) : (n : ℕ) → n < cfg0.N → Vec F S16x1 .f32
  | 0, hn => k0_pay2 (iblk m c 0 ⟨0, hn⟩) (k0_pay1 (F := F))
  | n + 1, hn =>
    if (n + 1) % 4 = 0 then k0_pay2 (iblk m c 0 ⟨n + 1, hn⟩) (k0_pay1 (F := F))
    else k0_pay2 (iblk m c 0 ⟨n + 1, hn⟩) (outsAt0 c n (Nat.lt_of_succ_lt hn))

/-- At a point of block column 0: the row sums of the point's block over a cleared block. -/
theorem outsAt0_A (c : Dev nD) (t : Fin cfg0.N) (h0 : t.val % 4 = 0) :
    outsAt0 m c t.val t.isLt = k0_pay2 (iblk m c 0 t) (k0_pay1 (F := F)) := by
  obtain ⟨n, hn⟩ := t
  cases n with
  | zero => exact rfl
  | succ n => exact (if_pos h0).trans rfl

/-- At any other point: the row sums of the point's block over what the point before left. -/
theorem outsAt0_B (c : Dev nD) (t : Fin cfg0.N) (h0 : ¬t.val % 4 = 0) :
    outsAt0 m c t.val t.isLt
      = k0_pay2 (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of the one pipeline on core `c`: the arrays as the region finds them; after the body at point
    `t` the input's buffer at its block and the output's at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

end Cert.KernelIdeal.KF

end
-- ==== Proof.KernelIdealFrame.RunA.lean ====
/-
  The kernel body, run whole, at a grid point whose second coordinate is 0: on whole staging memrefs, the
  input's at its block and the output's at anything, the body reads the output block, clears it, reads the
  input block, reads the output block twice more and stores the block's row sums added to the cleared
  block.  The pieces the output's buffer ends with (last first) are the witness the run finds.
-/
import proofs.«428731_j81046032875796_3_alg».proof.Proof.KernelIdealFrame.Base

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), at a point where the
    body's conditional is taken, with the proof that the body runs to a continuation holding the input's buffer
    as it was and the output's with those pieces written. -/
noncomputable def kernelRun0_A (c : Dev nD) (i : grid0.Coords) (arg2 : Memref sig .tc .vmem S16x81920 .f32) (harg2 : arg2.IsWhole) (arg3 : Memref sig .tc .vmem S16x1 .f32) (harg3 : arg3.IsWhole) (hc0 : cond0_0 i)
    (x0 : Vec F S16x81920 .f32) :
    { L1 : List (View.Piece (Elt F) S16x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__focal_t0_kernel i arg2 harg2 arg3 harg3) K } := by
  refine ⟨?_, fun E K => ?run⟩
  case run =>
    simp only [cc0__focal_t0_kernel_eq_skeleton]; unfold cc0__focal_t0_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

end Cert.KernelIdeal.KF

end
-- ==== Proof.KernelIdealFrame.RunB.lean ====
/-
  The kernel body, run whole, at a grid point whose second coordinate is not 0: on whole staging memrefs, the
  input's at its block and the output's at its running contents, the body reads the input block, reads the
  output block twice and stores the block's row sums added to the running contents.  The pieces the output's
  buffer ends with (last first) are the witness the run finds.
-/
import proofs.«428731_j81046032875796_3_alg».proof.Proof.KernelIdealFrame.RunA

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref, as pieces (last first), at a point where the
    body's conditional is not taken, with the proof that the body runs to a continuation holding the input's
    buffer as it was and the output's with those pieces written. -/
noncomputable def kernelRun0_B (c : Dev nD) (i : grid0.Coords) (arg2 : Memref sig .tc .vmem S16x81920 .f32) (harg2 : arg2.IsWhole) (arg3 : Memref sig .tc .vmem S16x1 .f32) (harg3 : arg3.IsWhole) (hc0 : ¬cond0_0 i)
    (x0 : Vec F S16x81920 .f32) (xo1 : Vec F S16x1 .f32) :
    { L1 : List (View.Piece (Elt F) S16x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__focal_t0_kernel i arg2 harg2 arg3 harg3) K } := by
  refine ⟨?_, fun E K => ?run⟩
  case run =>
    simp only [cc0__focal_t0_kernel_eq_skeleton]; unfold cc0__focal_t0_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.KF

end
-- ==== Proof.KernelIdealFrame.Body.lean ====
/-
  The kernel body's side of the frame: what each case's run leaves in the output's staging buffer, what the
  staging buffers hold when the body is entered at a grid point, and the pipeline's body obligation.

  The grid is 4 × 4 in row-major order.  At a point of block column 0 the body clears the 16 × 1 output block
  and stores the input block's row sums added to the cleared block; at the other points it stores the row sums
  added to what the point before left in the buffer, which is written back only after block column 3.
-/
import proofs.«428731_j81046032875796_3_alg».proof.Proof.KernelIdealFrame.Data
import proofs.«428731_j81046032875796_3_alg».proof.Proof.KernelIdealFrame.RunA
import proofs.«428731_j81046032875796_3_alg».proof.Proof.KernelIdealFrame.RunB
import Idealize.ShloMosaic.Lib.Pipeline.Value

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's pieces read back to -/

/-- The offsets of a whole-block access: zero on both axes. -/
private theorem hz : (![0, 0] : Fin 2 → Nat) = fun _ => 0 := funext fun a => by fin_cases a <;> rfl

/-- At a point of block column 0 the output's pieces (the clearing store, then the accumulating store) tile its
    16 × 1 block, so they cover it. -/
theorem cover0_A_1 (c : Dev nD) (i : grid0.Coords) (arg2 : Memref sig .tc .vmem S16x81920 .f32) (harg2 : arg2.IsWhole) (arg3 : Memref sig .tc .vmem S16x1 .f32) (harg3 : arg3.IsWhole) (hc0 : cond0_0 i)
    (x0 : Vec F S16x81920 .f32) (y : S16x1.Idx) :
    ∃ pc ∈ (kernelRun0_A c i arg2 harg2 arg3 harg3 hc0 x0).1, y ∈ pc.1.set :=
  View.cover_of_tiledL (kernelRun0_A c i arg2 harg2 arg3 harg3 hc0 x0).1 S16x1.size (by sl_kernel_rfl) y

/-- At any other point the output's one piece (the accumulating store) is its whole 16 × 1 block. -/
theorem cover0_B_1 (c : Dev nD) (i : grid0.Coords) (arg2 : Memref sig .tc .vmem S16x81920 .f32) (harg2 : arg2.IsWhole) (arg3 : Memref sig .tc .vmem S16x1 .f32) (harg3 : arg3.IsWhole) (hc0 : ¬cond0_0 i)
    (x0 : Vec F S16x81920 .f32) (xo1 : Vec F S16x1 .f32) (y : S16x1.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S16x1.size (by sl_kernel_rfl) y

/-- At a point of block column 0 the output's buffer ends at the row sums of the input block added to the
    cleared block: the last store covers the block, and the value it adds to was loaded after the clearing
    store, so it is the constant 0 block. -/
theorem out0_A_1_eq (c : Dev nD) (i : grid0.Coords) (arg2 : Memref sig .tc .vmem S16x81920 .f32) (harg2 : arg2.IsWhole) (arg3 : Memref sig .tc .vmem S16x1 .f32) (harg3 : arg3.IsWhole) (hc0 : cond0_0 i)
    (x0 : Vec F S16x81920 .f32) :
    VO0_1.read (Elt F) (VO0_1.writes (Elt F) VO0_1.junk (kernelRun0_A c i arg2 harg2 arg3 harg3 hc0 x0).1)
      = k0_pay2 x0 (k0_pay1 (F := F)) := by
  rw [View.read_writes_eq_canon _ _ _ (cover0_A_1 c i arg2 harg2 arg3 harg3 hc0 x0)]
  unfold kernelRun0_A
  dsimp only
  sl_unfold_words
  rw [View.canon_cons_unit_zero (S := S16x1) hz]
  simp only [View.readAt_eq_ld, harg2.read_unread, View.ld_unit_zero (S := S16x81920) hz,
    View.readCov_unit_zero (S := S16x1) _ hz]

/-- At any other point the output's buffer ends at the row sums of the input block added to the contents it
    was entered with. -/
theorem out0_B_1_eq (c : Dev nD) (i : grid0.Coords) (arg2 : Memref sig .tc .vmem S16x81920 .f32) (harg2 : arg2.IsWhole) (arg3 : Memref sig .tc .vmem S16x1 .f32) (harg3 : arg3.IsWhole) (hc0 : ¬cond0_0 i)
    (x0 : Vec F S16x81920 .f32) (xo1 : Vec F S16x1 .f32) :
    VO0_1.read (Elt F) (VO0_1.writes (Elt F) VO0_1.junk (kernelRun0_B c i arg2 harg2 arg3 harg3 hc0 x0 xo1).1)
      = k0_pay2 x0 xo1 := by
  rw [View.read_writes_eq_canon _ _ _ (cover0_B_1 c i arg2 harg2 arg3 harg3 hc0 x0 xo1)]
  unfold kernelRun0_B
  dsimp only
  sl_unfold_words
  rw [View.canon_unit_zero hz]
  simp only [View.readAt_eq_ld, harg2.read_unread, harg3.read_unread, View.ld_unit_zero (S := S16x81920) hz,
    View.ld_unit_zero (S := S16x1) hz]

/-! ## What the staging buffers hold when the body is entered -/

/-- The input window's current staging buffer holds its block at every point, fetched there or not, for any
    proof data whose array is the region-entry contents and whose body leaves the block in place: the window
    is uncut and never idle, and where it is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- At a point whose block column is not 0 the output's current staging buffer holds what the body left at the
    point before: the point is not the first, and the buffer was not written back between (it is written back
    only after block column 3, and the point before has block column at most 2). -/
theorem before0_1_B (c : Dev nD) (t : Fin cfg0.N) (h0 : ¬t.val % 4 = 0) (d) :
    (dats m 0 c).before 1 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

/-- What the body is called with at point `t`: the invariant, what the core owes, and each window's current
    staging memref at its contents on entry. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What the body returns: the same, each staging memref at its contents after the body. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point.  The input's memref holds its block; the point's block column says which case it is
    in; at a column other than 0 the output's memref holds what the point before left; so the case's run
    applies, and what it leaves in the output's buffer is the accumulation's value at the point.  The invariant
    passes through untouched and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  by_cases h0 : t.val % 4 = 0
  · rw [outsAt0_A m c t h0]
    iintro ⟨HΦ, Ho, ⟨%d0, H0⟩, ⟨%d1, H1⟩⟩
    iapply ((kernelRun0_A c (grid0.coords t) _ _ _ _ ((hcond0_0 t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro
    exact (View.read_writes_of_cover _ _ _ _ _ (cover0_A_1 c _ _ _ _ _ _ _)).trans
      (out0_A_1_eq c (grid0.coords t) (ms0_0 t) (hs0_0 t) (ms0_1 t) (hs0_1 t) ((hcond0_0 t).mpr h0) (iblk m c 0 t))
  · rw [outsAt0_B m c t h0]
    simp only [before0_1_B m c t h0]
    iintro ⟨HΦ, Ho, ⟨%d0, H0⟩, ⟨%d1, H1⟩⟩
    iapply ((kernelRun0_B c (grid0.coords t) _ _ _ _ (fun h => h0 ((hcond0_0 t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro
    exact (View.read_writes_of_cover _ _ _ _ _ (cover0_B_1 c _ _ _ _ _ _ _ _)).trans
      (out0_B_1_eq c (grid0.coords t) (ms0_0 t) (hs0_0 t) (ms0_1 t) (hs0_1 t) (fun h => h0 ((hcond0_0 t).mp h)) (iblk m c 0 t)
        (outsAt0 m c (t.val - 1) (Nat.lt_of_le_of_lt (Nat.sub_le _ _) t.isLt)))

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.KF

end
-- ==== Proof.KernelIdealFrame.Frame.lean ====
/-
  The run of the whole program and its frame.

  Every weakly fair execution of the program terminates without a fault; at the end each array a window stages
  holds what the proof data computes for it, and every other buffer holds what the host operations after the
  region leave there, started from the region's exit.  In particular no argument array is written.
-/
import proofs.«428731_j81046032875796_3_alg».proof.Proof.KernelIdealFrame.Around
import proofs.«428731_j81046032875796_3_alg».proof.Proof.KernelIdealFrame.Body

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the launch theorem's implicit arguments are found by unifying its conclusion with this statement, which takes
-- unfolding plain definitions in a metavariable's type
set_option backward.isDefEq.respectTransparency.types false in
/-- The run: the host prefix, the region under the pipeline's proof data, the seventeen stretches of host
    operations after it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: the six argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.KF

end
-- ==== Proof.SharedResults.lean ====
/-
  The three results whose host computation is the same in both programs: the box L1 loss, the GIoU loss and the total.

  Both programs gather the rows of the predicted boxes at the matched prediction indices and the rows of the ground-truth
  boxes at the matched ground-truth indices, and then apply the same operations in the same order: the L1 loss is the mean
  over rows of the summed absolute differences divided by 448, the GIoU loss the mean of one minus the generalised
  intersection-over-union of the boxes' first six coordinates, and the total is 2 · (classification loss) + ¼ · (L1 loss)
  + ¼ · (GIoU loss).  The kernel program's buffers are followed along its host operations after the region: the
  arguments reach the two gathers unchanged, the gathers give the reference's two gathered arrays, and the operations above
  them are the reference's stage by stage.  The total is compared without opening the classification loss.
-/
import proofs.«428731_j81046032875796_3_alg».proof.Proof.KernelIdealFrame.Data
import proofs.«428731_j81046032875796_3_alg».proof.Proof.RefReadP
import Idealize.ShloMosaic.Lib.StableHlo.Run

set_option maxRecDepth 16384

noncomputable section

namespace Cert.Shared

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.StableHlo
open Cert.KernelIdeal Cert.KernelIdeal.Gen Cert.KernelIdeal.KF

variable {F : FTy → Type} [FloatOps F]
variable (m : (ℓ : Loc Cert.KernelIdeal.nD Cert.KernelIdeal.τ Cert.KernelIdeal.sig) → Buf (Elt F) ℓ)

/-! ## The buffers' contents along the host operations after the region -/

/-- As the region leaves them. -/
def X0 (c : Dev Cert.KernelIdeal.nD) : Valuation Cert.KernelIdeal.τ Cert.KernelIdeal.sig (Elt F) :=
  Pipeline.withArrays (cfgs 0).spec c (V0 m c) fun w => (dats m 0 c).arrAt w (cfgs 0).N

/-- After the first eight stretches (all of the classification loss but its last additions). -/
def W7 (c : Dev Cert.KernelIdeal.nD) : Valuation Cert.KernelIdeal.τ Cert.KernelIdeal.sig (Elt F) :=
  (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (X0 m c)))))))))

/-- After the two gathers of the boxes. -/
def W11 (c : Dev Cert.KernelIdeal.nD) : Valuation Cert.KernelIdeal.τ Cert.KernelIdeal.sig (Elt F) :=
  (StableHlo.after hostOps1_11 (StableHlo.after hostOps1_10 (StableHlo.after hostOps1_9 (StableHlo.after hostOps1_8 (W7 m c)))))

/-- The contents at the program's end are the last five stretches run from `W11`. -/
theorem tail_eq (c : Dev Cert.KernelIdeal.nD) (b : Ref Cert.KernelIdeal.sig .tc) :
    Pipeline.afterTail₀ cfgs (dats m) 0 (V0 m) tailOpss c b
      = (StableHlo.after hostOps1_16 (StableHlo.after hostOps1_15 (StableHlo.after hostOps1_14 (StableHlo.after hostOps1_13 (StableHlo.after hostOps1_12 (W11 m c)))))) (Proc.devRef .tc b) := by
  unfold Pipeline.afterTail₀ W11 W7 X0
  simp only [tailOpss, List.flatten_cons, List.flatten_nil, List.append_nil, StableHlo.after_append]

/-! ## The arguments as the later stretches find them -/

theorem X0_arg0 (c : Dev Cert.KernelIdeal.nD) :
    X0 m c (Proc.devRef .tc Cert.KernelIdeal.main_arg0) = m ((c.tc : Thread Cert.KernelIdeal.nD Cert.KernelIdeal.τ).loc Cert.KernelIdeal.main_arg0) := by
  unfold X0
  rw [Pipeline.withArrays_of_ne _ _ _ _ _ (by decide)]
  show StableHlo.after hostOps0 (fun b => m (c, b)) (Proc.devRef .tc Cert.KernelIdeal.main_arg0) = _
  after_results

set_option maxHeartbeats 4000000 in
theorem W7_arg0 (c : Dev Cert.KernelIdeal.nD) :
    W7 m c (Proc.devRef .tc Cert.KernelIdeal.main_arg0) = m ((c.tc : Thread Cert.KernelIdeal.nD Cert.KernelIdeal.τ).loc Cert.KernelIdeal.main_arg0) := by
  unfold W7
  simp only [hostOps1, hostOps1_1, hostOps1_2, hostOps1_3, hostOps1_4, hostOps1_5, hostOps1_6, hostOps1_7]
  after_results_simp
  exact X0_arg0 m c

theorem X0_arg2 (c : Dev Cert.KernelIdeal.nD) :
    X0 m c (Proc.devRef .tc Cert.KernelIdeal.main_arg2) = m ((c.tc : Thread Cert.KernelIdeal.nD Cert.KernelIdeal.τ).loc Cert.KernelIdeal.main_arg2) := by
  unfold X0
  rw [Pipeline.withArrays_of_ne _ _ _ _ _ (by decide)]
  show StableHlo.after hostOps0 (fun b => m (c, b)) (Proc.devRef .tc Cert.KernelIdeal.main_arg2) = _
  after_results

set_option maxHeartbeats 4000000 in
theorem W7_arg2 (c : Dev Cert.KernelIdeal.nD) :
    W7 m c (Proc.devRef .tc Cert.KernelIdeal.main_arg2) = m ((c.tc : Thread Cert.KernelIdeal.nD Cert.KernelIdeal.τ).loc Cert.KernelIdeal.main_arg2) := by
  unfold W7
  simp only [hostOps1, hostOps1_1, hostOps1_2, hostOps1_3, hostOps1_4, hostOps1_5, hostOps1_6, hostOps1_7]
  after_results_simp
  exact X0_arg2 m c

theorem X0_arg4 (c : Dev Cert.KernelIdeal.nD) :
    X0 m c (Proc.devRef .tc Cert.KernelIdeal.main_arg4) = m ((c.tc : Thread Cert.KernelIdeal.nD Cert.KernelIdeal.τ).loc Cert.KernelIdeal.main_arg4) := by
  unfold X0
  rw [Pipeline.withArrays_of_ne _ _ _ _ _ (by decide)]
  show StableHlo.after hostOps0 (fun b => m (c, b)) (Proc.devRef .tc Cert.KernelIdeal.main_arg4) = _
  after_results

set_option maxHeartbeats 4000000 in
theorem W7_arg4 (c : Dev Cert.KernelIdeal.nD) :
    W7 m c (Proc.devRef .tc Cert.KernelIdeal.main_arg4) = m ((c.tc : Thread Cert.KernelIdeal.nD Cert.KernelIdeal.τ).loc Cert.KernelIdeal.main_arg4) := by
  unfold W7
  simp only [hostOps1, hostOps1_1, hostOps1_2, hostOps1_3, hostOps1_4, hostOps1_5, hostOps1_6, hostOps1_7]
  after_results_simp
  exact X0_arg4 m c

theorem X0_arg5 (c : Dev Cert.KernelIdeal.nD) :
    X0 m c (Proc.devRef .tc Cert.KernelIdeal.main_arg5) = m ((c.tc : Thread Cert.KernelIdeal.nD Cert.KernelIdeal.τ).loc Cert.KernelIdeal.main_arg5) := by
  unfold X0
  rw [Pipeline.withArrays_of_ne _ _ _ _ _ (by decide)]
  show StableHlo.after hostOps0 (fun b => m (c, b)) (Proc.devRef .tc Cert.KernelIdeal.main_arg5) = _
  after_results

set_option maxHeartbeats 4000000 in
theorem W7_arg5 (c : Dev Cert.KernelIdeal.nD) :
    W7 m c (Proc.devRef .tc Cert.KernelIdeal.main_arg5) = m ((c.tc : Thread Cert.KernelIdeal.nD Cert.KernelIdeal.τ).loc Cert.KernelIdeal.main_arg5) := by
  unfold W7
  simp only [hostOps1, hostOps1_1, hostOps1_2, hostOps1_3, hostOps1_4, hostOps1_5, hostOps1_6, hostOps1_7]
  after_results_simp
  exact X0_arg5 m c

/-! ## The total as a combination of the three losses -/

set_option maxHeartbeats 4000000 in
/-- The last stretch computes the total from the three losses it finds or computes. -/
theorem total_split (W : Valuation Cert.KernelIdeal.τ Cert.KernelIdeal.sig (Elt F)) :
    StableHlo.after hostOps1_16 W (Proc.devRef .tc Cert.KernelIdeal.main_v170)
      = addf (addf (mulf (constant S_ .f32 0x40000000#32) (StableHlo.after hostOps1_16 W (Proc.devRef .tc Cert.KernelIdeal.main_v75)))
            (mulf (constant S_ .f32 0x3E800000#32) (StableHlo.after hostOps1_16 W (Proc.devRef .tc Cert.KernelIdeal.main_v86))))
          (mulf (constant S_ .f32 0x3E800000#32) (StableHlo.after hostOps1_16 W (Proc.devRef .tc Cert.KernelIdeal.main_v165))) := by
  simp only [hostOps1_16]
  after_results_simp

/-! ## The two gathered arrays are the reference's -/

set_option maxHeartbeats 4000000 in
/-- The predicted boxes' rows at the matched prediction indices. -/
theorem pb_eq (c : Dev Cert.KernelIdeal.nD) :
    W11 m c (Proc.devRef .tc Cert.KernelIdeal.main_v77) = Cert.ReferenceIdeal.ReadP.val_main_v64 (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := by
  unfold W11
  have h0 := W7_arg0 m c
  have h4 := W7_arg4 m c
  generalize W7 m c = W at h0 h4 ⊢
  simp only [hostOps1_8, hostOps1_9, hostOps1_10, hostOps1_11]
  after_results_simp
  rw [h0, h4]
  rfl

set_option maxHeartbeats 4000000 in
/-- The ground-truth boxes' rows at the matched ground-truth indices. -/
theorem gb_eq (c : Dev Cert.KernelIdeal.nD) :
    W11 m c (Proc.devRef .tc Cert.KernelIdeal.main_v79) = Cert.ReferenceIdeal.ReadP.val_main_v66 (m ((c.tc : Thread Cert.KernelIdeal.nD Cert.KernelIdeal.τ).loc Cert.KernelIdeal.main_arg2)) (m ((c.tc : Thread Cert.KernelIdeal.nD Cert.KernelIdeal.τ).loc Cert.KernelIdeal.main_arg5)) := by
  unfold W11
  have h2 := W7_arg2 m c
  have h5 := W7_arg5 m c
  generalize W7 m c = W at h2 h5 ⊢
  simp only [hostOps1_8, hostOps1_9, hostOps1_10, hostOps1_11]
  after_results_simp
  rw [h2, h5]
  rfl

/-! ## The three results -/

set_option maxHeartbeats 4000000 in
/-- The box L1 loss. -/
theorem boxL1_eq (m' : (ℓ : Loc Cert.ReferenceIdeal.nD Cert.ReferenceIdeal.τ Cert.ReferenceIdeal.sig) → Buf (Elt F) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev Cert.KernelIdeal.nD) :
    Pipeline.afterTail₀ cfgs (dats m) 0 (V0 m) tailOpss c Cert.KernelIdeal.main_v86
      = Cert.ReferenceIdeal.ReadP.val_main_v73 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rw [(hagree c).1, (hagree c).2.2.1, (hagree c).2.2.2.2.1, (hagree c).2.2.2.2.2, tail_eq]
  have h77 := pb_eq m c
  have h79 := gb_eq m c
  generalize W11 m c = W at h77 h79 ⊢
  simp only [hostOps1_12, hostOps1_13, hostOps1_14, hostOps1_15, hostOps1_16]
  after_results_simp
  rw [h77, h79]
  rfl

set_option maxHeartbeats 40000000 in
/-- The GIoU loss. -/
theorem giou_eq (m' : (ℓ : Loc Cert.ReferenceIdeal.nD Cert.ReferenceIdeal.τ Cert.ReferenceIdeal.sig) → Buf (Elt F) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev Cert.KernelIdeal.nD) :
    Pipeline.afterTail₀ cfgs (dats m) 0 (V0 m) tailOpss c Cert.KernelIdeal.main_v165
      = Cert.ReferenceIdeal.ReadP.val_main_v152 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rw [(hagree c).1, (hagree c).2.2.1, (hagree c).2.2.2.2.1, (hagree c).2.2.2.2.2, tail_eq]
  have h77 := pb_eq m c
  have h79 := gb_eq m c
  generalize W11 m c = W at h77 h79 ⊢
  simp only [hostOps1_12, hostOps1_13, hostOps1_14, hostOps1_15, hostOps1_16]
  after_results_simp
  rw [h77, h79]
  rfl

/-- The reference's total is the same combination of its three losses. -/
theorem ref_total (x0 : (⟨Cert.ReferenceIdeal.S64x4096x7, .f32⟩ : BufTy).Contents (Elt F)) (x1 : (⟨Cert.ReferenceIdeal.S64x4096x80, .f32⟩ : BufTy).Contents (Elt F))
    (x2 : (⟨Cert.ReferenceIdeal.S64x64x7, .f32⟩ : BufTy).Contents (Elt F)) (x3 x4 x5 : (⟨Cert.ReferenceIdeal.S64x64, .i32⟩ : BufTy).Contents (Elt F)) :
    Cert.ReferenceIdeal.ReadP.val_main_v157 x0 x1 x2 x3 x4 x5
      = addf (addf (mulf (constant Cert.ReferenceIdeal.S_ .f32 0x40000000#32) (Cert.ReferenceIdeal.ReadP.val_main_v62 x1 x3 x4 x5))
            (mulf (constant Cert.ReferenceIdeal.S_ .f32 0x3E800000#32) (Cert.ReferenceIdeal.ReadP.val_main_v73 x0 x2 x4 x5)))
          (mulf (constant Cert.ReferenceIdeal.S_ .f32 0x3E800000#32) (Cert.ReferenceIdeal.ReadP.val_main_v152 x0 x2 x4 x5)) := rfl

/-- The total, given the classification losses' equality. -/
theorem total_eq (m' : (ℓ : Loc Cert.ReferenceIdeal.nD Cert.ReferenceIdeal.τ Cert.ReferenceIdeal.sig) → Buf (Elt F) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (c : Dev Cert.KernelIdeal.nD)
    (hcls : Pipeline.afterTail₀ cfgs (dats m) 0 (V0 m) tailOpss c Cert.KernelIdeal.main_v75
      = Cert.ReferenceIdeal.ReadP.val_main_v62 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))) :
    Pipeline.afterTail₀ cfgs (dats m) 0 (V0 m) tailOpss c Cert.KernelIdeal.main_v170
      = Cert.ReferenceIdeal.ReadP.val_main_v157 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rw [tail_eq, total_split, ← tail_eq, ← tail_eq, ← tail_eq, hcls, boxL1_eq m m' hagree c, giou_eq m m' hagree c]
  exact (ref_total _ _ _ _ _ _).symm

end Cert.Shared
end
-- ==== Proof.FocalReal.lean ====
/-
  The focal-loss term of one logit, over the reals.

  For a logit `x` and a target `t ∈ {0, 1}` the reference's element is
      (¼·t + ¾·(1 − t)) · (1 − p_t)² · (max x 0 − x·t + log (1 + e^{−|x|})),
  with `p = 1 / (1 + e^{−x})` and `p_t = p·t + (1 − p)·(1 − t)`.  At `t = 0` this is
  `term0 x = ¾ · p² · (max x 0 + log (1 + e^{−|x|}))`, at `t = 1` it is
  `term1 x = ¼ · (1 − p)² · (max x 0 − x + log (1 + e^{−|x|}))`.
  The kernel computes `p` as `(if 0 ≤ x then 1 else e^{−|x|}) / (1 + e^{−|x|})`, the same number.
-/
import Mathlib.Analysis.SpecialFunctions.Log.Basic
import Mathlib.Analysis.SpecialFunctions.Pow.Real

noncomputable section

namespace Cert.Focal

/-- The logistic function `1 / (1 + e^{−x})`. -/
def sgm (x : ℝ) : ℝ := 1 / (1 + Real.exp (-x))

/-- `log (1 + e^{−|x|})`, the stable form of the soft-plus remainder. -/
def lse (x : ℝ) : ℝ := Real.log (1 + Real.exp (-|x|))

/-- The element's value where the target is 0. -/
def term0 (x : ℝ) : ℝ := (3 / 4) * (sgm x * sgm x) * (max x 0 + lse x)

/-- The element's value where the target is 1. -/
def term1 (x : ℝ) : ℝ := (1 / 4) * ((1 - sgm x) * (1 - sgm x)) * (max x 0 - x + lse x)

/-- The kernel's quotient form of the logistic function. -/
theorem sgm_eq_select (x : ℝ) :
    (if 0 ≤ x then 1 else Real.exp (-|x|)) / (1 + Real.exp (-|x|)) = sgm x := by
  unfold sgm
  have hpos : ∀ y : ℝ, (0 : ℝ) < 1 + Real.exp y := fun y => by positivity
  split_ifs with h
  · rw [abs_of_nonneg h]
  · have hx : x < 0 := lt_of_not_ge h
    rw [abs_of_neg hx, neg_neg, div_eq_div_iff (hpos x).ne' (hpos (-x)).ne']
    have : Real.exp x * Real.exp (-x) = 1 := by rw [← Real.exp_add, add_neg_cancel, Real.exp_zero]
    nlinarith [this]

theorem one_add_exp_pos (y : ℝ) : (0 : ℝ) < 1 + Real.exp y := by positivity

end Cert.Focal

end
-- ==== Proof.SumBridge.lean ====
/-
  The focal sum split at the hit positions.

  Row b of the logits has 4096 · 80 entries, entry (q, c) at the flat key 80·q + c.  The target of row b is 1 at the
  sixty-four (not necessarily distinct) positions (pi b m, ci b m) and 0 elsewhere.  The sum of the focal terms over
  the row is the sum of the target-0 term over every entry, plus the correction term1 − term0 at each DISTINCT hit
  key: write the summand as term0 + (if hit then term1 − term0 else 0); the first part is re-indexed by the bijection
  (q, c) ↦ 80·q + c of Fin 4096 × Fin 80 with Fin 327680, the second is a sum over the set of hit keys.  The same
  identity is then stated with every term an extended real, and with the sums ranging over array index sets.
-/
import proofs.«428731_j81046032875796_3_alg».proof.Proof.FocalReal
import Idealize.ShloMosaic.Lib.ValueIdx
import Mathlib.Data.EReal.Basic
import Mathlib.Algebra.BigOperators.Fin
import Mathlib.Logic.Equiv.Fin.Basic

noncomputable section

open scoped BigOperators

namespace Cert.Focal

open Idealize.ShloMosaic Idealize.ShloMosaic.ValueIdx

/-! ## Sums over index sets as sums over coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the index set of an [n × 1] column is the sum over its rows. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  rw [Fin.sum_univ_one]

/-- The same for a summand given as a function of the three coordinates. -/
theorem sum_idx3_coord {M : Type*} [AddCommMonoid M] {n0 n1 n2 : Nat} (F : Fin n0 → Fin n1 → Fin n2 → M) :
    ∑ i : (⟨3, ![n0, n1, n2]⟩ : Shape).Idx, F (i 0) (i 1) (i 2) = ∑ a : Fin n0, ∑ b : Fin n1, ∑ c : Fin n2, F a b c :=
  sum_idx3 (fun i : (⟨3, ![n0, n1, n2]⟩ : Shape).Idx => F (i 0) (i 1) (i 2))

/-- The same for a summand given as a function of the row. -/
theorem sum_idxCol_coord {M : Type*} [AddCommMonoid M] {n : Nat} (G : Fin n → M) :
    ∑ r : (⟨2, ![n, 1]⟩ : Shape).Idx, G (r 0) = ∑ a : Fin n, G a :=
  sum_idxCol (fun r : (⟨2, ![n, 1]⟩ : Shape).Idx => G (r 0))

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One row -/

/-- ONE ROW, any extents (N = Q·C): if the entries (q, c) where P holds are exactly those whose key q·C + c lies in S ⊆ [0, N),
    the sum of "v at the marked entries, u elsewhere" is the sum of u over every key plus v − u over S. -/
theorem row_bridge (Q C N : ℕ) (hN : Q * C = N) (P : Fin Q → Fin C → Prop) [∀ q c, Decidable (P q c)] (S : Finset ℕ)
    (hP : ∀ q c, P q c ↔ q.val * C + c.val ∈ S) (hS : ∀ k ∈ S, k < N) (u v : ℕ → ℝ) :
    ∑ q : Fin Q, ∑ c : Fin C, (if P q c then v (q.val * C + c.val) else u (q.val * C + c.val))
      = ∑ j : Fin N, u j.val + ∑ k ∈ S, (v k - u k) := by
  classical
  subst hN
  -- the bijection (q, c) ↦ q·C + c of the pairs with the keys below Q·C
  have key : ∀ g : ℕ → ℝ, ∑ q : Fin Q, ∑ c : Fin C, g (q.val * C + c.val) = ∑ j : Fin (Q * C), g j.val := by
    intro g
    rw [← Fintype.sum_prod_type', ← Equiv.sum_comp finProdFinEquiv (fun j : Fin (Q * C) => g j.val)]
    refine Finset.sum_congr rfl fun p _ => ?_
    congr 1
    show p.1.val * C + p.2.val = p.2.val + C * p.1.val
    rw [Nat.mul_comm, Nat.add_comm]
  -- the summand is u plus the correction where the key is marked
  have split : ∀ (q : Fin Q) (c : Fin C), (if P q c then v (q.val * C + c.val) else u (q.val * C + c.val))
      = (fun k => u k + if k ∈ S then v k - u k else 0) (q.val * C + c.val) := by
    intro q c
    by_cases h : P q c
    · simp only [if_pos h, if_pos ((hP q c).1 h)]; ring
    · simp only [if_neg h, if_neg (mt (hP q c).2 h)]; ring
  rw [Finset.sum_congr rfl fun q _ => Finset.sum_congr rfl fun c _ => split q c,
    key (fun k => u k + if k ∈ S then v k - u k else 0), Finset.sum_add_distrib]
  congr 1
  rw [Fin.sum_univ_eq_sum_range (fun k => if k ∈ S then v k - u k else 0) (Q * C), Finset.sum_ite_mem,
    Finset.inter_eq_right.mpr fun k hk => Finset.mem_range.2 (hS k hk)]

/-! ## The program's extents -/

/-- The logit of row b at the flat key k: entry (k / 80, k % 80) for a key below 327680 (0 beyond). -/
def xf (x : Fin 64 → Fin 4096 → Fin 80 → ℝ) (b : Fin 64) (k : ℕ) : ℝ :=
  if h : k < 327680 then x b ⟨k / 80, by omega⟩ ⟨k % 80, Nat.mod_lt _ (by decide)⟩ else 0

/-- The set of distinct hit keys of row b. -/
def keys (pi : Fin 64 → Fin 64 → Fin 4096) (ci : Fin 64 → Fin 64 → Fin 80) (b : Fin 64) : Finset ℕ :=
  Finset.univ.image (fun m : Fin 64 => (pi b m).val * 80 + (ci b m).val)

theorem xf_key (x : Fin 64 → Fin 4096 → Fin 80 → ℝ) (b : Fin 64) (q : Fin 4096) (c : Fin 80) :
    xf x b (q.val * 80 + c.val) = x b q c := by
  have hq := q.isLt
  have hc := c.isLt
  unfold xf
  rw [dif_pos (by omega)]
  congr 1
  · apply Fin.ext; show (q.val * 80 + c.val) / 80 = q.val; omega
  · apply Fin.ext; show (q.val * 80 + c.val) % 80 = c.val; omega

/-- The focal term of entry (b, q, c): term1 at a hit position, term0 elsewhere. -/
def mix (hit : Fin 64 → Fin 4096 → Fin 80 → Prop) [∀ b q c, Decidable (hit b q c)] (x : Fin 64 → Fin 4096 → Fin 80 → ℝ)
    (b : Fin 64) (q : Fin 4096) (c : Fin 80) : ℝ :=
  if hit b q c then term1 (x b q c) else term0 (x b q c)

/-- The target-0 term of row b at the flat position j. -/
def flat0 (x : Fin 64 → Fin 4096 → Fin 80 → ℝ) (b : Fin 64) (j : Fin 327680) : ℝ :=
  term0 (x b ⟨j.val / 80, by omega⟩ ⟨j.val % 80, Nat.mod_lt _ (by decide)⟩)

/-- The correction of row b at the key k. -/
def corr (x : Fin 64 → Fin 4096 → Fin 80 → ℝ) (b : Fin 64) (k : ℕ) : ℝ := term1 (xf x b k) - term0 (xf x b k)

/-- THE IDENTITY over the reals. `hit` is any decidable predicate that says "(q, c) is one of row b's hit positions". -/
theorem sum_bridge (x : Fin 64 → Fin 4096 → Fin 80 → ℝ) (pi : Fin 64 → Fin 64 → Fin 4096) (ci : Fin 64 → Fin 64 → Fin 80)
    (hit : Fin 64 → Fin 4096 → Fin 80 → Prop) [∀ b q c, Decidable (hit b q c)]
    (hhit : ∀ b q c, hit b q c ↔ ∃ m, pi b m = q ∧ ci b m = c) :
    ∑ b, ∑ q, ∑ c, (if hit b q c then term1 (x b q c) else term0 (x b q c))
      = (∑ b : Fin 64, ∑ j : Fin 327680, term0 (x b ⟨j.val / 80, by omega⟩ ⟨j.val % 80, Nat.mod_lt _ (by decide)⟩))
        + ∑ b : Fin 64, ∑ k ∈ keys pi ci b, (term1 (xf x b k) - term0 (xf x b k)) := by
  classical
  have hrow : ∀ b : Fin 64, ∑ q, ∑ c, (if hit b q c then term1 (x b q c) else term0 (x b q c))
      = ∑ j : Fin 327680, term0 (x b ⟨j.val / 80, by omega⟩ ⟨j.val % 80, Nat.mod_lt _ (by decide)⟩)
        + ∑ k ∈ keys pi ci b, (term1 (xf x b k) - term0 (xf x b k)) := by
    intro b
    -- an entry is a hit exactly when its key is one of the row's keys: a key determines its pair
    have hP : ∀ (q : Fin 4096) (c : Fin 80), hit b q c ↔ q.val * 80 + c.val ∈ keys pi ci b := by
      intro q c
      rw [hhit, keys, Finset.mem_image]
      constructor
      · rintro ⟨m, rfl, rfl⟩
        exact ⟨m, Finset.mem_univ _, rfl⟩
      · rintro ⟨m, -, hm⟩
        have h1 := (ci b m).isLt
        have h2 := c.isLt
        exact ⟨m, Fin.ext (by omega), Fin.ext (by omega)⟩
    have hS : ∀ k ∈ keys pi ci b, k < 327680 := by
      intro k hk
      rw [keys, Finset.mem_image] at hk
      obtain ⟨m, -, rfl⟩ := hk
      have h1 := (ci b m).isLt
      have h2 := (pi b m).isLt
      omega
    have hr := row_bridge 4096 80 327680 (by norm_num) (hit b) (keys pi ci b) hP hS
      (fun k => term0 (xf x b k)) (fun k => term1 (xf x b k))
    simp only [xf_key] at hr
    have hflat : ∀ j : Fin 327680, term0 (xf x b j.val)
        = term0 (x b ⟨j.val / 80, by omega⟩ ⟨j.val % 80, Nat.mod_lt _ (by decide)⟩) := by
      intro j
      unfold xf
      rw [dif_pos j.isLt]
    rw [hr, Finset.sum_congr rfl fun j _ => hflat j]
  rw [Finset.sum_congr rfl fun b _ => hrow b, Finset.sum_add_distrib]

/-- THE IDENTITY with every term an extended real. -/
theorem sum_bridge_ereal (x : Fin 64 → Fin 4096 → Fin 80 → ℝ) (pi : Fin 64 → Fin 64 → Fin 4096) (ci : Fin 64 → Fin 64 → Fin 80)
    (hit : Fin 64 → Fin 4096 → Fin 80 → Prop) [∀ b q c, Decidable (hit b q c)]
    (hhit : ∀ b q c, hit b q c ↔ ∃ m, pi b m = q ∧ ci b m = c) :
    ∑ b, ∑ q, ∑ c, ((if hit b q c then term1 (x b q c) else term0 (x b q c) : ℝ) : EReal)
      = (∑ b : Fin 64, ∑ j : Fin 327680,
            ((term0 (x b ⟨j.val / 80, by omega⟩ ⟨j.val % 80, Nat.mod_lt _ (by decide)⟩) : ℝ) : EReal))
        + ∑ b : Fin 64, ∑ k ∈ keys pi ci b, ((term1 (xf x b k) - term0 (xf x b k) : ℝ) : EReal) := by
  have h := congrArg (fun r : ℝ => (r : EReal)) (sum_bridge x pi ci hit hhit)
  simp only [EReal.coe_add, coe_finset_sum] at h
  exact h

/-- THE IDENTITY over the arrays' index sets: the left sum over the [64, 4096, 80] index set, the row sums over the
    [64, 1] index set (`mix`, `flat0`, `corr` are the three summands of the identity above, by `rfl`). -/
theorem sum_bridge_idx (x : Fin 64 → Fin 4096 → Fin 80 → ℝ) (pi : Fin 64 → Fin 64 → Fin 4096) (ci : Fin 64 → Fin 64 → Fin 80)
    (hit : Fin 64 → Fin 4096 → Fin 80 → Prop) [∀ b q c, Decidable (hit b q c)]
    (hhit : ∀ b q c, hit b q c ↔ ∃ m, pi b m = q ∧ ci b m = c) :
    ∑ i : (⟨3, ![64, 4096, 80]⟩ : Shape).Idx, ((mix hit x (i 0) (i 1) (i 2) : ℝ) : EReal)
      = (∑ r : (⟨2, ![64, 1]⟩ : Shape).Idx, ∑ j : Fin 327680, ((flat0 x (r 0) j : ℝ) : EReal))
        + ∑ r : (⟨2, ![64, 1]⟩ : Shape).Idx, ∑ k ∈ keys pi ci (r 0), ((corr x (r 0) k : ℝ) : EReal) := by
  rw [sum_idx3_coord (fun b q c => ((mix hit x b q c : ℝ) : EReal)),
    sum_idxCol_coord (fun b => ∑ j : Fin 327680, ((flat0 x b j : ℝ) : EReal)),
    sum_idxCol_coord (fun b => ∑ k ∈ keys pi ci b, ((corr x b k : ℝ) : EReal))]
  exact sum_bridge_ereal x pi ci hit hhit

end Cert.Focal

end
-- ==== Proof.PreDecode.lean ====
/-
  The precondition decoded.  The printed precondition is the conjunction of nine "all entries hold" tests: three
  finiteness tests |x| < +∞ on the float arrays, and for each of the three index arrays a lower bound 0 ≤ w and an
  upper bound w < n (n = 80, 4096, 64), every comparison signed.  If the conjunction is 1, every entry of each
  float array is a real number and every entry of each index array lies in its range.
-/
import proofs.«428731_j81046032875796_3_alg».proof.Pre_finite_inputs
import proofs.«428731_j81046032875796_3_alg».proof.Proof.Gen.Pre_finite_inputs
import Idealize.ShloMosaic.Lib.ReduceAll
import Idealize.ShloMosaic.Lib.StableHlo.Predicate
import Idealize.ShloMosaic.PureOps.Ideal

noncomputable section

namespace Cert.Pre_finite_inputs.Decode

open Idealize.ShloMosaic

/-- The scalar shape has one index. -/
instance : Subsingleton S_.Idx := ⟨fun a b => funext fun d => d.elim0⟩

/-- An extended real whose absolute value lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 denotes +∞. -/
theorem inf_pattern : Ideal.ofBits .f32 0x7F800000#32 = (⊤ : EReal) := by
  simp [Ideal.ofBits, Ideal.ieee]

/-- The finiteness test at one element: |x| < +∞ as a comparison word being 1 says x is real. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : Ideal.cmp .olt (max x (-x)) (Ideal.ofBits .f32 0x7F800000#32) = 1#1 := h
  rw [inf_pattern] at h'
  unfold Ideal.cmp at h'
  rw [StableHlo.Predicate.ofBool_eq_one_iff] at h'
  exact of_decide_eq_true h'

/-- A word that tests 0 ≤ w and w < n signed lies in [0, n). -/
theorem range_of_cmp (w : BitVec 32) (n : Nat) (hn : n < 2 ^ 31) (h0 : IntOp.cmpi .sge w 0#32 = 1#1)
    (h1 : IntOp.cmpi .slt w (BitVec.ofNat 32 n) = 1#1) : 0 ≤ w.toInt ∧ w.toInt < n := by
  rw [IntOp.cmpi_sge] at h0
  rw [IntOp.cmpi_slt, StableHlo.Predicate.toInt_ofNat_small n hn] at h1
  exact ⟨by simpa using h0, h1⟩

/-- THE PRECONDITION DECODED: all-ones means the float arrays are real-valued and the index arrays in range. -/
theorem pre_decode [Cert.Pre_finite_inputs.Facts]
    (a0 : FVec Ideal S64x4096x7 .f32) (a1 : FVec Ideal S64x4096x80 .f32) (a2 : FVec Ideal S64x64x7 .f32)
    (a3 a4 a5 : IVec S64x64 32)
    (h : Cert.Pre_finite_inputs.fn (F := Ideal) a0 a1 a2 a3 a4 a5 = fun _ => 1#1) :
    (∀ j, ∃ r : ℝ, a0 j = (r : EReal)) ∧ (∀ j, ∃ r : ℝ, a1 j = (r : EReal)) ∧ (∀ j, ∃ r : ℝ, a2 j = (r : EReal))
    ∧ (∀ j, 0 ≤ (a3 j).toInt ∧ (a3 j).toInt < 80)
    ∧ (∀ j, 0 ≤ (a4 j).toInt ∧ (a4 j).toInt < 4096)
    ∧ (∀ j, 0 ≤ (a5 j).toInt ∧ (a5 j).toInt < 64) := by
  have e := congrFun h (fun d => d.elim0)
  dsimp only [fn, fn_part1, fn_part2] at e
  simp only [andi, IntOp.andi_eq_one] at e
  obtain ⟨⟨⟨⟨⟨⟨⟨⟨f0, f1⟩, f2⟩, l3⟩, u3⟩, l4⟩, u4⟩, l5⟩, u5⟩ := e
  refine ⟨fun j => ?_, fun j => ?_, fun j => ?_, fun j => ?_, fun j => ?_, fun j => ?_⟩
  · exact real_of_test (a0 j) (Host.reduce_andi_all _ _ _ _ _ f0 j)
  · exact real_of_test (a1 j) (Host.reduce_andi_all _ _ _ _ _ f1 j)
  · exact real_of_test (a2 j) (Host.reduce_andi_all _ _ _ _ _ f2 j)
  · exact range_of_cmp (a3 j) 80 (by decide) (Host.reduce_andi_all _ _ _ _ _ l3 j) (Host.reduce_andi_all _ _ _ _ _ u3 j)
  · exact range_of_cmp (a4 j) 4096 (by decide) (Host.reduce_andi_all _ _ _ _ _ l4 j) (Host.reduce_andi_all _ _ _ _ _ u4 j)
  · exact range_of_cmp (a5 j) 64 (by decide) (Host.reduce_andi_all _ _ _ _ _ l5 j) (Host.reduce_andi_all _ _ _ _ _ u5 j)

end Cert.Pre_finite_inputs.Decode

end
-- ==== Proof.KernelIdealValue.HostPieces.lean ====
/-
  Four host computations of the kernel program, read at an index at the extended-real instance.

  * the class index: the labels taken along the ground-truth indices (a negative index moved up by 64, the
    label row gathered at it, an out-of-range index answered by the smallest 32-bit integer);
  * the hit logit: the logits gathered at (row, prediction index, class index), each index column moved up by
    its extent when negative;
  * the sort key: prediction index · 80 + class index in 32-bit wrapping arithmetic;
  * the correction term: (¼ · (1 − p)² · (max x 0 − x + log1p e)) − (¾ · p² · (max x 0 + log1p e)) with
    p = 1 / (1 + exp (−x)) and e = exp (−|x|).

  Under the ranges 0 ≤ label < 80, 0 ≤ prediction index < 4096, 0 ≤ ground-truth index < 64 the first is
  the label at (b, gt[b, m]), the second the logit at (b, pred[b, m], label), the third the natural number
  pred · 80 + label < 327680 (so a key determines its pair), and on a real logit r the fourth is the real
  number term1 r − term0 r.
-/
import proofs.«428731_j81046032875796_3_alg».proof.KernelIdeal
import proofs.«428731_j81046032875796_3_alg».proof.Proof.FocalReal
import Idealize.ShloMosaic.PureOps.Ideal.Laws
import Idealize.ShloMosaic.Lib.ValueIdx
import Idealize.ShloMosaic.Lib.Pipeline.Value
import Idealize.ShloMosaic.Lib.IdealHost
import Idealize.ShloMosaic.Lib.ReduceAll

noncomputable section

namespace Cert.KernelIdeal.KV

open Idealize.ShloMosaic Idealize.ShloMosaic.ValueIdx
open Cert.KernelIdeal

variable [Cert.KernelIdeal.Facts]
open Facts₀ Facts

/-! ## The chains, each the literal composition of the program's operations -/

/-- The 32-bit word n at every index of the 64 × 64 array. -/
def isplat (n : BitVec 32) : IVec S64x64 32 := broadcastInDim S64x64 ![] bcast_S_S64x64 (constantI S_ 32 n)

/-- An index array with its negative entries moved up by n: select (x < 0) (x + n) x. -/
def wrapNeg (n : BitVec 32) (x : IVec S64x64 32) : IVec S64x64 32 :=
  select (cmpi .slt x (isplat 0#32)) (addi x (isplat n)) x

/-- The start indices of the gather along axis 1: the ground-truth indices, negatives moved up by 64, as a
    64 × 64 × 1 array. -/
def takeStart (a5 : IVec S64x64 32) : IVec S64x64x1 32 :=
  shapeCast S64x64x1 (wrapNeg 64#32 a5) shapeCasts_S64x64_S64x64x1

/-- The in-range bit of each start index: 0 ≤ start ∧ start ≤ 63, reduced by and over the unit axis. -/
def takeInb (a5 : IVec S64x64 32) : IVec S64x64 1 :=
  Host.reduce IntOp.andi
    (andi (cmpi .sge (takeStart a5) (broadcastInDim S64x64x1 ![] bcast_S_S64x64x1 (constantI S_ 32 0#32)))
      (cmpi .sle (takeStart a5)
        (broadcastInDim S64x64x1 ![0, 1, 2] bcast_S1x1x1_S64x64x1_0_1_2
          (broadcastInDim S1x1x1 ![2] bcast_S1_S1x1x1_2 (constantI S1 32 63#32)))))
    (constantI S_ 1 1#1) reducesTo_S64x64x1_S64x64_d2 h_S_

/-- The class index: the labels a3 taken along the ground-truth indices a5. -/
def clsIdx (a3 a5 : IVec S64x64 32) : IVec S64x64 32 :=
  select (takeInb a5) (Host.gather gather_S64x64_S64x64x1_S64x64_n_1_0_0_1_2_11 a3 (takeStart a5))
    (isplat 2147483648#32)

/-- The row numbers 0 … 63 as a 64 × 1 column, negatives (there are none) moved up by 64. -/
def rowCol : IVec S64x1 32 :=
  select
    (cmpi .slt (broadcastInDim S64x1 ![0] bcast_S64_S64x1_0 (iotaInDim S64 32 0))
      (broadcastInDim S64x1 ![] bcast_S_S64x1 (constantI S_ 32 0#32)))
    (addi (broadcastInDim S64x1 ![0] bcast_S64_S64x1_0 (iotaInDim S64 32 0))
      (broadcastInDim S64x1 ![] bcast_S_S64x1 (constantI S_ 32 64#32)))
    (broadcastInDim S64x1 ![0] bcast_S64_S64x1_0 (iotaInDim S64 32 0))

/-- The three index columns (row, prediction index, class index) side by side: a 64 × 64 × 3 array. -/
def hitIdx (a4 cls : IVec S64x64 32) : IVec S64x64x3 32 :=
  concatenate S64x64x3 2
    [⟨S64x64x1, broadcastInDim S64x64x1 ![0, 1] bcast_S64x64_S64x64x1_0_1
        (broadcastInDim S64x64 ![0, 1] bcast_S64x1_S64x64_0_1 rowCol)⟩,
      ⟨S64x64x1, broadcastInDim S64x64x1 ![0, 1] bcast_S64x64_S64x64x1_0_1 (wrapNeg 4096#32 a4)⟩,
      ⟨S64x64x1, broadcastInDim S64x64x1 ![0, 1] bcast_S64x64_S64x64x1_0_1 (wrapNeg 80#32 cls)⟩]
    concatenates_S64x64x1_S64x64x1_S64x64x1_S64x64x3_d2

/-- The hit logit: the logits a1 gathered at (row, prediction index, class index). -/
def xhit (a1 : FVec Ideal S64x4096x80 .f32) (a3 a4 a5 : IVec S64x64 32) : FVec Ideal S64x64 .f32 :=
  Host.gather gather_S64x4096x80_S64x64x3_S64x64_n_012_n_n_012_2_111 a1 (hitIdx a4 (clsIdx a3 a5))

/-- The sort key: prediction index · 80 + class index, in 32-bit wrapping arithmetic. -/
def key (a4 cls : IVec S64x64 32) : IVec S64x64 32 := addi (muli a4 (isplat 80#32)) cls

/-- The float whose word is b at every index of the 64 × 64 array. -/
def fsplat (b : BitVec 32) : FVec Ideal S64x64 .f32 := broadcastInDim S64x64 ![] bcast_S_S64x64 (constant S_ .f32 b)

/-- The logistic function as the program spells it: 1 / (1 + exp (−x)). -/
def sigm (x : FVec Ideal S64x64 .f32) : FVec Ideal S64x64 .f32 :=
  Host.divf (fsplat 0x3F800000#32) (addf (fsplat 0x3F800000#32) (Host.exp (Host.negf x)))

/-- log1p (exp (−|x|)). -/
def lsep (x : FVec Ideal S64x64 .f32) : FVec Ideal S64x64 .f32 :=
  Host.log1p (Host.exp (Host.negf (Host.absf x)))

/-- The target-0 term: ¾ · p² · (max x 0 + log1p (exp (−|x|))). -/
def t0 (x : FVec Ideal S64x64 .f32) : FVec Ideal S64x64 .f32 :=
  mulf (mulf (fsplat 0x3F400000#32) (Host.powf (sigm x) (fsplat 0x40000000#32)))
    (addf (maximumf x (fsplat 0x00000000#32)) (lsep x))

/-- The target-1 term: ¼ · (1 − p)² · (max x 0 − x + log1p (exp (−|x|))). -/
def t1 (x : FVec Ideal S64x64 .f32) : FVec Ideal S64x64 .f32 :=
  mulf (mulf (fsplat 0x3E800000#32) (Host.powf (subf (fsplat 0x3F800000#32) (sigm x)) (fsplat 0x40000000#32)))
    (addf (subf (maximumf x (fsplat 0x00000000#32)) x) (lsep x))

/-- The correction term: target-1 term minus target-0 term. -/
def delta (x : FVec Ideal S64x64 .f32) : FVec Ideal S64x64 .f32 := subf (t1 x) (t0 x)

/-! ## Their values at an index -/

/-! ## The class index -/

/-- A nonnegative entry is not moved. -/
theorem wrapNeg_apply_nonneg (n : BitVec 32) (x : IVec S64x64 32) (j : S64x64.Idx) (h : 0 ≤ (x j).toInt) :
    wrapNeg n x j = x j := by
  have hc : IntOp.cmpi .slt (x j) 0#32 = 0#1 := by
    refine eq_zero_of_ne_one fun h1 => ?_
    have h2 := IntOp.cmpi_slt.1 h1
    have h0 : (0#32 : BitVec 32).toInt = 0 := rfl
    omega
  show Scalar.select (IntOp.cmpi .slt (x j) 0#32) _ _ = _
  rw [hc, select_zero]

/-- The start index at (b, m, 0) is the moved ground-truth index at (b, m). -/
private theorem takeStart_apply (a5 : IVec S64x64 32) (b m : Fin 64) (u : Fin 1) :
    takeStart a5 (ix3 b m u) = wrapNeg 64#32 a5 (ix2 b m) := by
  unfold takeStart
  refine shapeCast_apply _ _ (ix3 b m u) (ix2 b m) ?_
  rw [Shape.rowMajor_val_two, Shape.rowMajor_val_three]
  have hu : u.val = 0 := by omega
  show b.val * 64 + m.val = (b.val * 64 + m.val) * 1 + u.val
  omega

/-- The operand index of the gather along axis 1 at (b, m): row b, column the start index read signed and
    clamped into [0, 63]. -/
private theorem takeOperandIdx (idx : IVec S64x64x1 32) (b m : Fin 64) :
    gather_S64x64_S64x64x1_S64x64_n_1_0_0_1_2_11.operandIdx (ix2 b m) idx
      = ix2 b ⟨min (idx (ix3 b m 0)).toInt.toNat 63, by omega⟩ := by
  funext a
  match a with
  | ⟨0, _⟩ =>
    refine Fin.ext ?_
    show gather_S64x64_S64x64x1_S64x64_n_1_0_0_1_2_11.start (ix2 b m) idx 0
      + gather_S64x64_S64x64x1_S64x64_n_1_0_0_1_2_11.batchCoord (ix2 b m) 0
      + gather_S64x64_S64x64x1_S64x64_n_1_0_0_1_2_11.offCoord (ix2 b m) 0 = b.val
    have h1 : gather_S64x64_S64x64x1_S64x64_n_1_0_0_1_2_11.start (ix2 b m) idx 0 = 0 := rfl
    have h2 : gather_S64x64_S64x64x1_S64x64_n_1_0_0_1_2_11.batchCoord (ix2 b m) 0 = b.val := rfl
    have h3 : gather_S64x64_S64x64x1_S64x64_n_1_0_0_1_2_11.offCoord (ix2 b m) 0 = 0 := rfl
    omega
  | ⟨1, _⟩ =>
    refine Fin.ext ?_
    show gather_S64x64_S64x64x1_S64x64_n_1_0_0_1_2_11.start (ix2 b m) idx 1
      + gather_S64x64_S64x64x1_S64x64_n_1_0_0_1_2_11.batchCoord (ix2 b m) 1
      + gather_S64x64_S64x64x1_S64x64_n_1_0_0_1_2_11.offCoord (ix2 b m) 1 = min (idx (ix3 b m 0)).toInt.toNat 63
    have hsi : gather_S64x64_S64x64x1_S64x64_n_1_0_0_1_2_11.siIdx (ix2 b m) ⟨0, Nat.one_pos⟩ = ix3 b m (0 : Fin 1) := by
      funext c
      refine Fin.ext ?_
      match c with
      | ⟨0, _⟩ => rfl
      | ⟨1, _⟩ => rfl
      | ⟨2, _⟩ => rfl
    have h1 : gather_S64x64_S64x64x1_S64x64_n_1_0_0_1_2_11.start (ix2 b m) idx 1
        = min (idx (gather_S64x64_S64x64x1_S64x64_n_1_0_0_1_2_11.siIdx (ix2 b m) ⟨0, Nat.one_pos⟩)).toInt.toNat 63 := rfl
    rw [hsi] at h1
    have h2 : gather_S64x64_S64x64x1_S64x64_n_1_0_0_1_2_11.batchCoord (ix2 b m) 1 = 0 := rfl
    have h3 : gather_S64x64_S64x64x1_S64x64_n_1_0_0_1_2_11.offCoord (ix2 b m) 1 = 0 := rfl
    omega

/-- A left fold by and from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- Every start index is in range, so the in-range bit is 1 everywhere. -/
private theorem takeInb_eq_one (a5 : IVec S64x64 32) (h5 : ∀ j, 0 ≤ (a5 j).toInt ∧ (a5 j).toInt < 64) (j : S64x64.Idx) :
    takeInb a5 j = 1#1 := by
  unfold takeInb
  rw [Host.reduce_eq_foldl]
  refine foldl_andi_one _ _ fun i _ => ?_
  obtain ⟨b, m, u, rfl⟩ : ∃ b m u, i = ix3 b m u := ⟨i 0, i 1, i 2, eq_ix3 i⟩
  have hs : takeStart a5 (ix3 b m u) = a5 (ix2 b m) :=
    (takeStart_apply a5 b m u).trans (wrapNeg_apply_nonneg _ _ _ (h5 _).1)
  have h0 : (0#32 : BitVec 32).toInt = 0 := rfl
  have h63 : (63#32 : BitVec 32).toInt = 63 := rfl
  have := h5 (ix2 b m)
  refine IntOp.andi_eq_one.2 ⟨IntOp.cmpi_sge.2 ?_, IntOp.cmpi_sle.2 ?_⟩
  · show (0#32 : BitVec 32).toInt ≤ (takeStart a5 (ix3 b m u)).toInt
    rw [hs]; omega
  · show (takeStart a5 (ix3 b m u)).toInt ≤ (63#32 : BitVec 32).toInt
    rw [hs]; omega

/-- The class index at (b, m) is the label at (b, gt[b, m]). -/
theorem clsIdx_apply (a3 a5 : IVec S64x64 32) (h5 : ∀ j, 0 ≤ (a5 j).toInt ∧ (a5 j).toInt < 64) (b m : Fin 64) :
    clsIdx a3 a5 (ix2 b m)
      = a3 (ix2 b ⟨(a5 (ix2 b m)).toInt.toNat, by have := h5 (ix2 b m); omega⟩) := by
  have hs : takeStart a5 (ix3 b m 0) = a5 (ix2 b m) :=
    (takeStart_apply a5 b m 0).trans (wrapNeg_apply_nonneg _ _ _ (h5 _).1)
  show Scalar.select (takeInb a5 (ix2 b m))
    (a3 (gather_S64x64_S64x64x1_S64x64_n_1_0_0_1_2_11.operandIdx (ix2 b m) (takeStart a5))) _ = _
  rw [takeInb_eq_one a5 h5, select_one, takeOperandIdx]
  refine congrArg a3 (congrArg (ix2 b) (Fin.ext ?_))
  show min (takeStart a5 (ix3 b m 0)).toInt.toNat 63 = (a5 (ix2 b m)).toInt.toNat
  rw [hs]
  have := h5 (ix2 b m)
  omega

/-- Hence the class index is a label: in [0, 80). -/
theorem clsIdx_range (a3 a5 : IVec S64x64 32) (h3 : ∀ j, 0 ≤ (a3 j).toInt ∧ (a3 j).toInt < 80)
    (h5 : ∀ j, 0 ≤ (a5 j).toInt ∧ (a5 j).toInt < 64) (j : S64x64.Idx) :
    0 ≤ (clsIdx a3 a5 j).toInt ∧ (clsIdx a3 a5 j).toInt < 80 := by
  obtain ⟨b, m, rfl⟩ : ∃ b m, j = ix2 b m := ⟨j 0, j 1, eq_ix2 j⟩
  rw [clsIdx_apply a3 a5 h5 b m]
  exact h3 _

/-! ## The hit logit -/

/-- A small natural as a 32-bit word reads signed as itself. -/
private theorem toInt_ofNat_small (n : Nat) (h : n < 64) : (BitVec.ofNat 32 n).toInt = (n : Int) := by
  have hx := BitVec.toInt_eq_toNat_cond (BitVec.ofNat 32 n)
  rw [BitVec.toNat_ofNat, Nat.mod_eq_of_lt (by omega)] at hx
  split_ifs at hx <;> omega

/-- The row column at (b, 0) is the row number b. -/
private theorem rowCol_apply (b : Fin 64) (u : Fin 1) : rowCol (ix2 b u) = BitVec.ofNat 32 b.val := by
  have hI : broadcastInDim S64x1 ![0] bcast_S64_S64x1_0 (iotaInDim S64 32 0) (ix2 b u) = BitVec.ofNat 32 b.val :=
    broadcastInDim_apply _ _ _ (ix2 b u) (ix1 b) (fun a => by match a with | ⟨0, _⟩ => rfl)
  have hc : IntOp.cmpi .slt (BitVec.ofNat 32 b.val) 0#32 = 0#1 := by
    refine eq_zero_of_ne_one fun h1 => ?_
    have h2 := IntOp.cmpi_slt.1 h1
    have h0 : (0#32 : BitVec 32).toInt = 0 := rfl
    rw [toInt_ofNat_small _ b.isLt] at h2
    omega
  show Scalar.select
    (IntOp.cmpi .slt (broadcastInDim S64x1 ![0] bcast_S64_S64x1_0 (iotaInDim S64 32 0) (ix2 b u)) 0#32) _
    (broadcastInDim S64x1 ![0] bcast_S64_S64x1_0 (iotaInDim S64 32 0) (ix2 b u)) = _
  rw [hI, hc, select_zero]

/-- A 64 × 64 array as a 64 × 64 × 1 one reads, at (b, m, 0), its entry at (b, m). -/
private theorem bcast_unit_apply {α : Type} (x : S64x64.Idx → α) (b m : Fin 64) (u : Fin 1) :
    broadcastInDim S64x64x1 ![0, 1] bcast_S64x64_S64x64x1_0_1 x (ix3 b m u) = x (ix2 b m) :=
  broadcastInDim_apply _ _ _ (ix3 b m u) (ix2 b m) (fun a => by match a with | ⟨0, _⟩ => rfl | ⟨1, _⟩ => rfl)

/-- A 64 × 1 column as a 64 × 64 array reads, at (b, m), its entry at (b, 0). -/
private theorem bcast_col_apply {α : Type} (x : S64x1.Idx → α) (b m : Fin 64) :
    broadcastInDim S64x64 ![0, 1] bcast_S64x1_S64x64_0_1 x (ix2 b m) = x (ix2 b 0) :=
  broadcastInDim_apply _ _ _ (ix2 b m) (ix2 b 0) (fun a => by match a with | ⟨0, _⟩ => rfl | ⟨1, _⟩ => rfl)

/-- The first index column at (b, m) is the row number. -/
private theorem hitIdx_apply0 (a4 cls : IVec S64x64 32) (b m : Fin 64) :
    hitIdx a4 cls (ix3 b m 0) = BitVec.ofNat 32 b.val := by
  unfold hitIdx
  refine Eq.trans (concatenate_apply_piece (t := S64x64x3) 2 _ _ (ix3 b m (0 : Fin 3)) 0 (by simp) S64x64x1 _ rfl rfl 0 rfl (ix3 b m (0 : Fin 1))
    (fun c hc => by match c with | ⟨0, _⟩ => rfl | ⟨1, _⟩ => rfl | ⟨2, _⟩ => exact absurd rfl hc) rfl) ?_
  rw [bcast_unit_apply, bcast_col_apply, rowCol_apply]

/-- The second index column at (b, m) is the moved prediction index. -/
private theorem hitIdx_apply1 (a4 cls : IVec S64x64 32) (b m : Fin 64) :
    hitIdx a4 cls (ix3 b m 1) = wrapNeg 4096#32 a4 (ix2 b m) := by
  unfold hitIdx
  refine Eq.trans (concatenate_apply_piece (t := S64x64x3) 2 _ _ (ix3 b m (1 : Fin 3)) 1 (by simp) S64x64x1 _ rfl rfl 1 rfl (ix3 b m (0 : Fin 1))
    (fun c hc => by match c with | ⟨0, _⟩ => rfl | ⟨1, _⟩ => rfl | ⟨2, _⟩ => exact absurd rfl hc) rfl) ?_
  rw [bcast_unit_apply]

/-- The third index column at (b, m) is the moved class index. -/
private theorem hitIdx_apply2 (a4 cls : IVec S64x64 32) (b m : Fin 64) :
    hitIdx a4 cls (ix3 b m 2) = wrapNeg 80#32 cls (ix2 b m) := by
  unfold hitIdx
  refine Eq.trans (concatenate_apply_piece (t := S64x64x3) 2 _ _ (ix3 b m (2 : Fin 3)) 2 (by simp) S64x64x1 _ rfl rfl 2 rfl (ix3 b m (0 : Fin 1))
    (fun c hc => by match c with | ⟨0, _⟩ => rfl | ⟨1, _⟩ => rfl | ⟨2, _⟩ => exact absurd rfl hc) rfl) ?_
  rw [bcast_unit_apply]

/-- The operand index of the three-column gather at (b, m): each column's entry at (b, m) read signed and clamped
    into its axis. -/
private theorem hitOperandIdx (idx : IVec S64x64x3 32) (b m : Fin 64) :
    gather_S64x4096x80_S64x64x3_S64x64_n_012_n_n_012_2_111.operandIdx (ix2 b m) idx
      = ix3 (⟨min (idx (ix3 b m 0)).toInt.toNat 63, by omega⟩ : Fin 64)
          (⟨min (idx (ix3 b m 1)).toInt.toNat 4095, by omega⟩ : Fin 4096)
          (⟨min (idx (ix3 b m 2)).toInt.toNat 79, by omega⟩ : Fin 80) := by
  have hsi : ∀ (k : Fin 3),
      gather_S64x4096x80_S64x64x3_S64x64_n_012_n_n_012_2_111.siIdx (ix2 b m) k = ix3 b m k := by
    intro k
    funext c
    refine Fin.ext ?_
    match c with
    | ⟨0, _⟩ => rfl
    | ⟨1, _⟩ => rfl
    | ⟨2, _⟩ => rfl
  funext a
  match a with
  | ⟨0, _⟩ =>
    refine Fin.ext ?_
    show gather_S64x4096x80_S64x64x3_S64x64_n_012_n_n_012_2_111.start (ix2 b m) idx 0
      + gather_S64x4096x80_S64x64x3_S64x64_n_012_n_n_012_2_111.batchCoord (ix2 b m) 0
      + gather_S64x4096x80_S64x64x3_S64x64_n_012_n_n_012_2_111.offCoord (ix2 b m) 0
      = min (idx (ix3 b m 0)).toInt.toNat 63
    have h1 : gather_S64x4096x80_S64x64x3_S64x64_n_012_n_n_012_2_111.start (ix2 b m) idx 0
        = min (idx (gather_S64x4096x80_S64x64x3_S64x64_n_012_n_n_012_2_111.siIdx (ix2 b m) (0 : Fin 3))).toInt.toNat 63 := rfl
    rw [hsi] at h1
    have h2 : gather_S64x4096x80_S64x64x3_S64x64_n_012_n_n_012_2_111.batchCoord (ix2 b m) 0 = 0 := rfl
    have h3 : gather_S64x4096x80_S64x64x3_S64x64_n_012_n_n_012_2_111.offCoord (ix2 b m) 0 = 0 := rfl
    omega
  | ⟨1, _⟩ =>
    refine Fin.ext ?_
    show gather_S64x4096x80_S64x64x3_S64x64_n_012_n_n_012_2_111.start (ix2 b m) idx 1
      + gather_S64x4096x80_S64x64x3_S64x64_n_012_n_n_012_2_111.batchCoord (ix2 b m) 1
      + gather_S64x4096x80_S64x64x3_S64x64_n_012_n_n_012_2_111.offCoord (ix2 b m) 1
      = min (idx (ix3 b m 1)).toInt.toNat 4095
    have h1 : gather_S64x4096x80_S64x64x3_S64x64_n_012_n_n_012_2_111.start (ix2 b m) idx 1
        = min (idx (gather_S64x4096x80_S64x64x3_S64x64_n_012_n_n_012_2_111.siIdx (ix2 b m) (1 : Fin 3))).toInt.toNat 4095 := rfl
    rw [hsi] at h1
    have h2 : gather_S64x4096x80_S64x64x3_S64x64_n_012_n_n_012_2_111.batchCoord (ix2 b m) 1 = 0 := rfl
    have h3 : gather_S64x4096x80_S64x64x3_S64x64_n_012_n_n_012_2_111.offCoord (ix2 b m) 1 = 0 := rfl
    omega
  | ⟨2, _⟩ =>
    refine Fin.ext ?_
    show gather_S64x4096x80_S64x64x3_S64x64_n_012_n_n_012_2_111.start (ix2 b m) idx 2
      + gather_S64x4096x80_S64x64x3_S64x64_n_012_n_n_012_2_111.batchCoord (ix2 b m) 2
      + gather_S64x4096x80_S64x64x3_S64x64_n_012_n_n_012_2_111.offCoord (ix2 b m) 2
      = min (idx (ix3 b m 2)).toInt.toNat 79
    have h1 : gather_S64x4096x80_S64x64x3_S64x64_n_012_n_n_012_2_111.start (ix2 b m) idx 2
        = min (idx (gather_S64x4096x80_S64x64x3_S64x64_n_012_n_n_012_2_111.siIdx (ix2 b m) (2 : Fin 3))).toInt.toNat 79 := rfl
    rw [hsi] at h1
    have h2 : gather_S64x4096x80_S64x64x3_S64x64_n_012_n_n_012_2_111.batchCoord (ix2 b m) 2 = 0 := rfl
    have h3 : gather_S64x4096x80_S64x64x3_S64x64_n_012_n_n_012_2_111.offCoord (ix2 b m) 2 = 0 := rfl
    omega

/-- The hit logit at (b, m) is the logit at (b, pred[b, m], class index at (b, m)). -/
theorem xhit_apply (a1 : FVec Ideal S64x4096x80 .f32) (a3 a4 a5 : IVec S64x64 32)
    (h3 : ∀ j, 0 ≤ (a3 j).toInt ∧ (a3 j).toInt < 80) (h4 : ∀ j, 0 ≤ (a4 j).toInt ∧ (a4 j).toInt < 4096)
    (h5 : ∀ j, 0 ≤ (a5 j).toInt ∧ (a5 j).toInt < 64) (b m : Fin 64) :
    xhit a1 a3 a4 a5 (ix2 b m)
      = a1 (ix3 b ⟨(a4 (ix2 b m)).toInt.toNat, by have := h4 (ix2 b m); omega⟩
          ⟨(clsIdx a3 a5 (ix2 b m)).toInt.toNat, by have := clsIdx_range a3 a5 h3 h5 (ix2 b m); omega⟩) := by
  have hcr := clsIdx_range a3 a5 h3 h5 (ix2 b m)
  have h4r := h4 (ix2 b m)
  have e0 : hitIdx a4 (clsIdx a3 a5) (ix3 b m 0) = BitVec.ofNat 32 b.val := hitIdx_apply0 _ _ b m
  have e1 : hitIdx a4 (clsIdx a3 a5) (ix3 b m 1) = a4 (ix2 b m) :=
    (hitIdx_apply1 _ _ b m).trans (wrapNeg_apply_nonneg _ _ _ h4r.1)
  have e2 : hitIdx a4 (clsIdx a3 a5) (ix3 b m 2) = clsIdx a3 a5 (ix2 b m) :=
    (hitIdx_apply2 _ _ b m).trans (wrapNeg_apply_nonneg _ _ _ hcr.1)
  show a1 (gather_S64x4096x80_S64x64x3_S64x64_n_012_n_n_012_2_111.operandIdx (ix2 b m) (hitIdx a4 (clsIdx a3 a5))) = _
  rw [hitOperandIdx]
  refine congrArg a1 ?_
  funext a
  match a with
  | ⟨0, _⟩ =>
    refine Fin.ext ?_
    show min (hitIdx a4 (clsIdx a3 a5) (ix3 b m 0)).toInt.toNat 63 = b.val
    rw [e0, toInt_ofNat_small _ b.isLt]
    omega
  | ⟨1, _⟩ =>
    refine Fin.ext ?_
    show min (hitIdx a4 (clsIdx a3 a5) (ix3 b m 1)).toInt.toNat 4095 = (a4 (ix2 b m)).toInt.toNat
    rw [e1]
    omega
  | ⟨2, _⟩ =>
    refine Fin.ext ?_
    show min (hitIdx a4 (clsIdx a3 a5) (ix3 b m 2)).toInt.toNat 79 = (clsIdx a3 a5 (ix2 b m)).toInt.toNat
    rw [e2]
    omega

/-- A 32-bit word that is nonnegative read signed is its unsigned reading. -/
private theorem toNat_of_nonneg (x : BitVec 32) (h : 0 ≤ x.toInt) : x.toInt.toNat = x.toNat := by
  have hx := BitVec.toInt_eq_toNat_cond x
  have := x.isLt
  split_ifs at hx <;> omega

/-- The key at an index: the wrapping product and sum of the words there. -/
theorem key_eq (a4 cls : IVec S64x64 32) (j : S64x64.Idx) : key a4 cls j = a4 j * 80#32 + cls j := rfl

/-- In range the key is the natural number pred · 80 + class. -/
theorem key_toNat (a4 cls : IVec S64x64 32) (j : S64x64.Idx) (h4 : 0 ≤ (a4 j).toInt ∧ (a4 j).toInt < 4096)
    (hc : 0 ≤ (cls j).toInt ∧ (cls j).toInt < 80) :
    (key a4 cls j).toNat = (a4 j).toInt.toNat * 80 + (cls j).toInt.toNat := by
  have ha := toNat_of_nonneg (a4 j) h4.1
  have hb := toNat_of_nonneg (cls j) hc.1
  have ha' : (a4 j).toInt.toNat < 4096 := by omega
  have hb' : (cls j).toInt.toNat < 80 := by omega
  rw [key_eq, BitVec.toNat_add, BitVec.toNat_mul, ← ha, ← hb]
  have : (80#32 : BitVec 32).toNat = 80 := rfl
  rw [this]
  norm_num
  omega

/-- … below 4096 · 80. -/
theorem key_lt (a4 cls : IVec S64x64 32) (j : S64x64.Idx) (h4 : 0 ≤ (a4 j).toInt ∧ (a4 j).toInt < 4096)
    (hc : 0 ≤ (cls j).toInt ∧ (cls j).toInt < 80) : (key a4 cls j).toNat < 327680 := by
  have ha' : (a4 j).toInt.toNat < 4096 := by omega
  have hb' : (cls j).toInt.toNat < 80 := by omega
  rw [key_toNat a4 cls j h4 hc]
  omega

/-- The key determines its pair: the quotient by 80 is the prediction index … -/
theorem key_div (a4 cls : IVec S64x64 32) (j : S64x64.Idx) (h4 : 0 ≤ (a4 j).toInt ∧ (a4 j).toInt < 4096)
    (hc : 0 ≤ (cls j).toInt ∧ (cls j).toInt < 80) : (key a4 cls j).toNat / 80 = (a4 j).toInt.toNat := by
  have hb' : (cls j).toInt.toNat < 80 := by omega
  rw [key_toNat a4 cls j h4 hc]
  omega

/-- … and the remainder the class index. -/
theorem key_mod (a4 cls : IVec S64x64 32) (j : S64x64.Idx) (h4 : 0 ≤ (a4 j).toInt ∧ (a4 j).toInt < 4096)
    (hc : 0 ≤ (cls j).toInt ∧ (cls j).toInt < 80) : (key a4 cls j).toNat % 80 = (cls j).toInt.toNat := by
  have hb' : (cls j).toInt.toNat < 80 := by omega
  rw [key_toNat a4 cls j h4 hc]
  omega

/-- Two in-range positions have equal keys exactly when they have equal (prediction index, class index) pairs. -/
theorem key_eq_iff (a4 cls : IVec S64x64 32) (j j' : S64x64.Idx)
    (h4 : 0 ≤ (a4 j).toInt ∧ (a4 j).toInt < 4096) (hc : 0 ≤ (cls j).toInt ∧ (cls j).toInt < 80)
    (h4' : 0 ≤ (a4 j').toInt ∧ (a4 j').toInt < 4096) (hc' : 0 ≤ (cls j').toInt ∧ (cls j').toInt < 80) :
    key a4 cls j = key a4 cls j' ↔ a4 j = a4 j' ∧ cls j = cls j' := by
  constructor
  · intro h
    have hd := key_div a4 cls j h4 hc
    have hd' := key_div a4 cls j' h4' hc'
    have hm := key_mod a4 cls j h4 hc
    have hm' := key_mod a4 cls j' h4' hc'
    rw [h] at hd hm
    have e1 : (a4 j).toInt.toNat = (a4 j').toInt.toNat := hd.symm.trans hd'
    have e2 : (cls j).toInt.toNat = (cls j').toInt.toNat := hm.symm.trans hm'
    rw [toNat_of_nonneg _ h4.1, toNat_of_nonneg _ h4'.1] at e1
    rw [toNat_of_nonneg _ hc.1, toNat_of_nonneg _ hc'.1] at e2
    exact ⟨BitVec.eq_of_toNat_eq e1, BitVec.eq_of_toNat_eq e2⟩
  · rintro ⟨h1, h2⟩
    rw [key_eq, key_eq, h1, h2]

/-! ## The correction term on a real logit -/

/-- The word 0x40000000 is the real 2. -/
private theorem ofBits_two_f32 : Ideal.ofBits .f32 0x40000000#32 = ((2 : ℝ) : EReal) := by
  simp [Ideal.ofBits, Ideal.ieee, -EReal.coe_mul]
  norm_num

/-- The word 0x3E800000 is the real 1/4. -/
private theorem ofBits_quarter_f32 : Ideal.ofBits .f32 0x3E800000#32 = ((1 / 4 : ℝ) : EReal) := by
  simp [Ideal.ofBits, Ideal.ieee, -EReal.coe_mul]
  norm_num

/-- The word 0x3F800000 is the real 1. -/
private theorem ofBits_one_f32 : Ideal.ofBits .f32 0x3F800000#32 = ((1 : ℝ) : EReal) := by
  simp [Ideal.ofBits, Ideal.ieee, -EReal.coe_mul]
  norm_num

/-- The word 0x3F400000 is the real 3/4. -/
private theorem ofBits_three_quarters_f32 : Ideal.ofBits .f32 0x3F400000#32 = ((3 / 4 : ℝ) : EReal) := by
  simp [Ideal.ofBits, Ideal.ieee, -EReal.coe_mul]
  norm_num

/-- A real to a real power is the real power. -/
private theorem pow_coe (a b : ℝ) : Ideal.pow (a : EReal) (b : EReal) = ((a ^ b : ℝ) : EReal) := rfl

/-- The exponential of a real is the real exponential. -/
private theorem exp_coe (r : ℝ) : Ideal.exp (r : EReal) = ((Real.exp r : ℝ) : EReal) := rfl

/-- log1p of a real above −1 is the real logarithm of 1 + r. -/
private theorem log1p_coe {r : ℝ} (h : -1 < r) : Ideal.log1p (r : EReal) = ((Real.log (1 + r) : ℝ) : EReal) := by
  have h1 : (1 : EReal) + (r : EReal) = ((1 + r : ℝ) : EReal) := by
    rw [← EReal.coe_one, ← EReal.coe_add]
  have hpos : ¬ (1 + r ≤ 0) := by linarith
  rw [Ideal.log1p, h1, Ideal.log_coe, if_neg hpos]

/-- The quotient of two reals with a nonzero denominator is the real quotient. -/
private theorem div_coe_coe (a : ℝ) {b : ℝ} (hb : b ≠ 0) : Ideal.div (a : EReal) (b : EReal) = ((a / b : ℝ) : EReal) := by
  rw [Ideal.div_coe hb, ← EReal.coe_mul, mul_one_div]

/-- The maximum of two reals is the real maximum. -/
private theorem max_coe (a b : ℝ) : max (a : EReal) (b : EReal) = ((max a b : ℝ) : EReal) :=
  (EReal.coe_strictMono.monotone.map_max).symm

/-- max x (−x) of a real is the real absolute value. -/
private theorem abs_coe (a : ℝ) : max (a : EReal) (-(a : EReal)) = ((|a| : ℝ) : EReal) := by
  rw [← EReal.coe_neg, max_coe, abs_eq_max_neg]

/-- The program's logistic function on one extended real: 1 / (1 + exp (−x)). -/
private def sigmE (x : EReal) : EReal :=
  Ideal.div (Ideal.ofBits .f32 0x3F800000#32) (Ideal.ofBits .f32 0x3F800000#32 + Ideal.exp (-x))

/-- log1p (exp (−|x|)) on one extended real. -/
private def lsepE (x : EReal) : EReal := Ideal.log1p (Ideal.exp (-(max x (-x))))

/-- The correction term on one extended real. -/
private def deltaE (x : EReal) : EReal :=
  Ideal.ofBits .f32 0x3E800000#32
        * Ideal.pow (Ideal.ofBits .f32 0x3F800000#32 - sigmE x) (Ideal.ofBits .f32 0x40000000#32)
      * (max x (Ideal.ofBits .f32 0x00000000#32) - x + lsepE x)
    - Ideal.ofBits .f32 0x3F400000#32 * Ideal.pow (sigmE x) (Ideal.ofBits .f32 0x40000000#32)
      * (max x (Ideal.ofBits .f32 0x00000000#32) + lsepE x)

/-- The correction term at an index is the scalar expression of the logit there. -/
private theorem delta_eq (x : FVec Ideal S64x64 .f32) (j : S64x64.Idx) : delta x j = deltaE (x j) := rfl

private theorem sigmE_coe (r : ℝ) : sigmE (r : EReal) = ((Cert.Focal.sgm r : ℝ) : EReal) := by
  unfold sigmE
  rw [ofBits_one_f32, ← EReal.coe_neg, exp_coe, ← EReal.coe_add,
    div_coe_coe _ (Cert.Focal.one_add_exp_pos _).ne']
  rfl

private theorem lsepE_coe (r : ℝ) : lsepE (r : EReal) = ((Cert.Focal.lse r : ℝ) : EReal) := by
  unfold lsepE
  rw [abs_coe, ← EReal.coe_neg, exp_coe, log1p_coe (by have := Real.exp_pos (-|r|); linarith)]
  rfl

/-- On a real logit the scalar expression is the real number term1 r − term0 r. -/
private theorem deltaE_coe (r : ℝ) : deltaE (r : EReal) = ((Cert.Focal.term1 r - Cert.Focal.term0 r : ℝ) : EReal) := by
  have hz : Ideal.ofBits .f32 0x00000000#32 = ((0 : ℝ) : EReal) := by
    rw [Ideal.ofBits_zero_f32, EReal.coe_zero]
  unfold deltaE
  rw [sigmE_coe, lsepE_coe, hz, ofBits_one_f32, ofBits_two_f32, ofBits_quarter_f32, ofBits_three_quarters_f32,
    max_coe, ← EReal.coe_sub, pow_coe, pow_coe, ← EReal.coe_sub, ← EReal.coe_add, ← EReal.coe_add, ← EReal.coe_mul,
    ← EReal.coe_mul, ← EReal.coe_mul, ← EReal.coe_mul, ← EReal.coe_sub]
  congr 1
  unfold Cert.Focal.term1 Cert.Focal.term0
  rw [Real.rpow_two, Real.rpow_two]
  ring

/-- On a real logit r the correction term is the real number term1 r − term0 r. -/
theorem delta_apply (x : FVec Ideal S64x64 .f32) (j : S64x64.Idx) (r : ℝ) (hr : x j = (r : EReal)) :
    delta x j = ((Cert.Focal.term1 r - Cert.Focal.term0 r : ℝ) : EReal) := by
  rw [delta_eq, hr, deltaE_coe]

end Cert.KernelIdeal.KV

end
-- ==== Proof.DedupSort.lean ====
/-
  Summing over the first element of each run of equal keys, in sorted order, is summing over the
  distinct keys.

  A stable sort of `n` keys by the signed order reads the keys through a permutation `σ` of the
  positions, and the sorted keys `key ∘ σ` are non-decreasing.  In a non-decreasing sequence the
  positions `j` with `j = 0` or `sk j ≠ sk (j − 1)` (the heads of the runs of equal values) are
  carried by `sk` injectively ONTO the set of values: two heads `i < j` with one value would squeeze
  `sk (j − 1)` between `sk i` and `sk j`, so `sk (j − 1) = sk j`; and the least position of each
  value is a head.  Hence a sum over the heads of `g ∘ sk` is the sum of `g` over the distinct values.
-/
import Idealize.ShloMosaic.PureOps.ShapeOps
import Idealize.ShloMosaic.Lib.SortFacts
import Mathlib.Algebra.BigOperators.Group.Finset.Basic
import Mathlib.Data.Fintype.Basic

namespace Cert.Focal

open Idealize.ShloMosaic

/-- The position before `j` (position `0` for `j = 0`). -/
def prevPos {n : Nat} (j : Fin n) : Fin n := ⟨j.val - 1, lt_of_le_of_lt (Nat.sub_le _ _) j.isLt⟩

@[simp] theorem prevPos_val {n : Nat} (j : Fin n) : (prevPos j).val = j.val - 1 := rfl

/-- The permutation of a stable sort of `key` by the signed order: entry `j` is the position whose
    key lands at `j`. -/
def sortPerm {n : Nat} (key : Fin n → BitVec 32) : Fin n → Fin n :=
  sortedFrom (fun k k' => IntOp.cmpi .slt (key k) (key k') == 1#1)

theorem sortPerm_def {n : Nat} (key : Fin n → BitVec 32) :
    sortPerm key = sortedFrom (fun k k' => IntOp.cmpi .slt (key k) (key k') == 1#1) := rfl

/-! ## The abstract statement: heads of runs of a non-decreasing sequence -/

/-- For a sequence `sk` that is non-decreasing under an injective ranking of its values, the sum of
    `g ∘ sk` over the heads of the runs of equal values is the sum of `g` over the distinct values. -/
theorem sum_runHeads {n : Nat} {β α M : Type*} [DecidableEq β] [PartialOrder α] [AddCommMonoid M]
    (sk : Fin n → β) (rank : β → α) (hinj : Function.Injective rank)
    (hmono : ∀ i j : Fin n, i ≤ j → rank (sk i) ≤ rank (sk j)) (g : β → M) :
    (∑ j : Fin n, if j.val = 0 ∨ sk j ≠ sk (prevPos j) then g (sk j) else 0)
      = ∑ b ∈ Finset.univ.image sk, g b := by
  -- two heads `i < j` cannot carry one value: `sk (j − 1)` would be squeezed onto it
  have hsep : ∀ i j : Fin n, i < j → (j.val = 0 ∨ sk j ≠ sk (prevPos j)) → sk i ≠ sk j := by
    intro i j hij hj e
    have hij' : i.val < j.val := Fin.lt_def.mp hij
    rcases hj with h0 | hne
    · omega
    · apply hne
      have h1 : i ≤ prevPos j := by rw [Fin.le_def, prevPos_val]; omega
      have h2 : prevPos j ≤ j := by rw [Fin.le_def, prevPos_val]; omega
      apply hinj
      apply le_antisymm
      · rw [← e]; exact hmono _ _ h1
      · exact hmono _ _ h2
  -- every value is carried by a head: walk down from any position holding it
  have hhead : ∀ m : ℕ, ∀ j : Fin n, j.val = m →
      ∃ i : Fin n, (i.val = 0 ∨ sk i ≠ sk (prevPos i)) ∧ sk i = sk j := by
    intro m
    induction m with
    | zero => intro j hj; exact ⟨j, Or.inl hj, rfl⟩
    | succ m ih =>
      intro j hj
      by_cases h : sk j = sk (prevPos j)
      · obtain ⟨i, hi, e⟩ := ih (prevPos j) (by rw [prevPos_val]; omega)
        exact ⟨i, hi, e.trans h.symm⟩
      · exact ⟨j, Or.inr h, rfl⟩
  rw [← Finset.sum_filter]
  have hinjOn : Set.InjOn sk
      (Finset.univ.filter fun j : Fin n => j.val = 0 ∨ sk j ≠ sk (prevPos j) : Finset (Fin n)) := by
    intro i hi j hj e
    simp only [Finset.coe_filter, Finset.mem_univ, true_and, Set.mem_setOf_eq] at hi hj
    rcases lt_trichotomy i j with h | h | h
    · exact absurd e (hsep i j h hj)
    · exact h
    · exact absurd e.symm (hsep j i h hi)
  rw [← Finset.sum_image hinjOn]
  congr 1
  ext b
  simp only [Finset.mem_image, Finset.mem_filter, Finset.mem_univ, true_and]
  constructor
  · rintro ⟨j, _, rfl⟩; exact ⟨j, rfl⟩
  · rintro ⟨j, rfl⟩
    obtain ⟨i, hi, e⟩ := hhead j.val j rfl
    exact ⟨i, hi, e⟩

/-! ## The signed stable sort -/

/-- The comparator is the strict signed comparison. -/
theorem cmpi_slt_beq_one (x y : BitVec 32) : (IntOp.cmpi .slt x y == 1#1) = x.slt y := by
  show (BitVec.ofBool (x.slt y) == 1#1) = x.slt y
  cases x.slt y <;> rfl

theorem slt_eq_false_iff (x y : BitVec 32) : x.slt y = false ↔ y.toInt ≤ x.toInt := by
  rw [BitVec.slt_eq_decide, decide_eq_false_iff_not, not_lt]

/-- The sorting permutation is a bijection of the positions. -/
theorem sortPerm_bijective {n : Nat} (key : Fin n → BitVec 32) : Function.Bijective (sortPerm key) :=
  ⟨sortedFrom_injective _, sortedFrom_surjective _⟩

/-- The sorted keys are non-decreasing in the signed order. -/
theorem sortPerm_sorted {n : Nat} (key : Fin n → BitVec 32) (i j : Fin n) (hij : i ≤ j) :
    (key (sortPerm key i)).toInt ≤ (key (sortPerm key j)).toInt := by
  rcases eq_or_lt_of_le hij with rfl | hlt
  · exact le_rfl
  · -- the strict signed comparison is asymmetric and its negation is transitive, so the stable sort
    -- leaves no inversion: the later key is not strictly before the earlier one
    have h := sortedFrom_noInversion
      (fun k k' => IntOp.cmpi .slt (key k) (key k') == 1#1)
      (fun k k' => IntOp.cmpi .slt (key k) (key k') == 1#1)
      (fun a b hab => by
        rw [cmpi_slt_beq_one] at hab ⊢
        rw [slt_eq_false_iff]
        exact le_of_lt (BitVec.slt_iff_toInt_lt.mp hab))
      (fun _ _ hab => hab)
      (fun a b c hab hbc => by
        rw [cmpi_slt_beq_one, slt_eq_false_iff] at hab hbc ⊢
        exact le_trans hbc hab)
      i j hlt
    rw [cmpi_slt_beq_one, slt_eq_false_iff] at h
    exact h

/-- The sorted keys take exactly the values of the keys. -/
theorem image_sortPerm {n : Nat} (key : Fin n → BitVec 32) :
    Finset.univ.image (fun j => key (sortPerm key j)) = Finset.univ.image key := by
  have e : (fun j => key (sortPerm key j)) = key ∘ sortPerm key := rfl
  rw [e, ← Finset.image_image, Finset.image_univ_of_surjective (sortPerm_bijective key).2]

/-- THE IDENTITY: the sum of `g` over the first of each run of equal sorted keys is the sum of `g`
    over the distinct keys. -/
theorem sum_firstOfRun {n : Nat} {M : Type*} [AddCommMonoid M] (key : Fin n → BitVec 32) (g : BitVec 32 → M) :
    (∑ j : Fin n, if j.val = 0 ∨ key (sortPerm key j) ≠ key (sortPerm key (prevPos j))
        then g (key (sortPerm key j)) else 0)
      = ∑ k ∈ Finset.univ.image key, g k := by
  rw [← image_sortPerm key]
  exact sum_runHeads (fun j => key (sortPerm key j)) BitVec.toInt (fun _ _ h => BitVec.toInt_inj.mp h)
    (fun i j hij => sortPerm_sorted key i j hij) g

/-- The same with a payload `d` carried along the sort: `d j` is `g` of the `j`-th sorted key. -/
theorem sum_firstOfRun_payload {n : Nat} {M : Type*} [AddCommMonoid M] (key : Fin n → BitVec 32)
    (g : BitVec 32 → M) (d : Fin n → M) (hd : ∀ j, d j = g (key (sortPerm key j))) :
    (∑ j : Fin n, if j.val = 0 ∨ key (sortPerm key j) ≠ key (sortPerm key (prevPos j)) then d j else 0)
      = ∑ k ∈ Finset.univ.image key, g k := by
  rw [← sum_firstOfRun key g]
  exact Finset.sum_congr rfl fun j _ => by rw [hd j]

end Cert.Focal
-- ==== Proof.KernelIdealValue.Correction.lean ====
/-
  The host correction of the focal sum: per row, the payload summed over the distinct keys.

  The program sorts each row's 64 keys stably by the signed order, carrying the positions; gathers the keys and the
  payload through the sorted positions (the gather of `take_along_axis`: a negative index is moved up by the row
  length, an index outside the row is answered by a fill value — neither happens for the positions of a sort);
  marks the first of each run of equal sorted keys; and sums the payload over the marked positions, all rows
  together.  When the payload at a position is a function `g b` of the row `b` and of the key there, the sum is
  `∑ b, ∑ k ∈ (the keys of row b), g b k`: each distinct key of a row counted once.
-/
import proofs.«428731_j81046032875796_3_alg».proof.KernelIdeal
import proofs.«428731_j81046032875796_3_alg».proof.Proof.DedupSort
import Idealize.ShloMosaic.Lib.ValueIdx
import Idealize.ShloMosaic.Lib.IdealHost
import Idealize.ShloMosaic.Lib.Pipeline.Value
import Idealize.ShloMosaic.Lib.SortFacts
import Idealize.ShloMosaic.PureOps.Ideal.Laws

noncomputable section

namespace Cert.KernelIdeal.KV

open Idealize.ShloMosaic Idealize.ShloMosaic.ValueIdx
open Cert.KernelIdeal Cert.KernelIdeal.Facts₀
open Cert.Focal (sortPerm prevPos)

variable [Cert.KernelIdeal.Facts]

/-! ## The chain, as the program spells it -/

section Chain
variable {F : FTy → Type} [FloatOps F]

/-- The argsort of the keys along a row: the positions carried by the stable sort. -/
def argsortOrder (key : IVec S64x64 32) : IVec S64x64 32 :=
  (Host.sort2 S64x64 1 comparator_i32_i32_d1 key (iotaInDim S64x64 32 1)).2

/-- The gather's indices: a negative index moved up by the row length. -/
def takeNorm (order : IVec S64x64 32) : IVec S64x64 32 :=
  select (cmpi .slt order (broadcastInDim S64x64 ![] bcast_S_S64x64 (constantI S_ 32 0#32)))
    (addi order (broadcastInDim S64x64 ![] bcast_S_S64x64 (constantI S_ 32 64#32))) order

/-- … with the index vector's unit axis. -/
def takeIdx3 (order : IVec S64x64 32) : IVec S64x64x1 32 :=
  shapeCast S64x64x1 (takeNorm order) shapeCasts_S64x64_S64x64x1

/-- Where the index is inside the row. -/
def takeMask (order : IVec S64x64 32) : IVec S64x64 1 :=
  Host.reduce IntOp.andi
    (andi (cmpi .sge (takeIdx3 order) (broadcastInDim S64x64x1 ![] bcast_S_S64x64x1 (constantI S_ 32 0#32)))
      (cmpi .sle (takeIdx3 order)
        (broadcastInDim S64x64x1 ![0, 1, 2] bcast_S1x1x1_S64x64x1_0_1_2
          (broadcastInDim S1x1x1 ![2] bcast_S1_S1x1x1_2 (constantI S1 32 63#32)))))
    (constantI S_ 1 1#1) reducesTo_S64x64x1_S64x64_d2 h_S_

/-- `take_along_axis` along a row: the gather, a fill value where the index is outside the row. -/
def takeAlong {α : Type} (x : S64x64.Idx → α) (order : IVec S64x64 32) (fill : S64x64.Idx → α) : S64x64.Idx → α :=
  select (takeMask order) (Host.gather gather_S64x64_S64x64x1_S64x64_n_1_0_0_1_2_11 x (takeIdx3 order)) fill

/-- The sorted keys. -/
def sortedKey (key : IVec S64x64 32) : IVec S64x64 32 :=
  takeAlong key (argsortOrder key) (broadcastInDim S64x64 ![] bcast_S_S64x64 (constantI S_ 32 2147483648#32))

/-- The payload in the keys' sorted order. -/
def sortedPayload (key : IVec S64x64 32) (delta : FVec F S64x64 .f32) : FVec F S64x64 .f32 :=
  takeAlong delta (argsortOrder key) (broadcastInDim S64x64 ![] bcast_S_S64x64 (constant S_ .f32 0x7FC00000#32))

/-- The first of each run of equal sorted keys: position 0, and every position whose key differs from the one before. -/
def isFirst (sk : IVec S64x64 32) : IVec S64x64 1 :=
  concatenate S64x64 1
    [⟨S64x1, broadcastInDim S64x1 ![] bcast_S_S64x1 (constantI S_ 1 1#1)⟩,
     ⟨S64x63, cmpi .ne (extractStridedSlice S64x63 ![0, 1] sk slices_S64x64_S64x63_0_1)
        (extractStridedSlice S64x63 ![0, 0] sk slices_S64x64_S64x63_0_0)⟩]
    concatenates_S64x1_S64x63_S64x64_d1

/-- The correction: the payload summed over the first of each run, all rows together. -/
def corrChain (key : IVec S64x64 32) (delta : FVec F S64x64 .f32) : FVec F S_ .f32 :=
  Host.reduceAdd
    (select (isFirst (sortedKey key)) (sortedPayload key delta)
      (broadcastInDim S64x64 ![] bcast_S_S64x64 (id (constant S_ .f32 0x00000000#32))))
    (constant S_ .f32 0x00000000#32) reducesTo_S64x64_S_d0_1 h_S_

end Chain

/-! ## Its value -/

/-- The keys of row `b`. -/
def keyRow (key : IVec S64x64 32) (b : Fin 64) : Fin 64 → BitVec 32 := fun m => key (ix2 b m)

/-- Moving along a row: the index `(b, m)` with its column replaced by `k` is `(b, k)`. -/
theorem along_ix2 (b m : Fin 64) (h : 1 < S64x64.rank) (k : Fin (S64x64.size ⟨1, h⟩)) :
    Shape.Idx.along (s := S64x64) (ix2 b m) ⟨1, h⟩ k = ix2 b k := by
  funext a
  match a with
  | ⟨0, _⟩ => rfl
  | ⟨1, _⟩ => rfl

/-- The argsort at `(b, m)` is the sorting permutation of row `b`'s keys at `m`, as a word. -/
theorem argsortOrder_apply (key : IVec S64x64 32) (b m : Fin 64) :
    argsortOrder key (ix2 b m) = BitVec.ofNat 32 (sortPerm (keyRow key b) m).val := by
  unfold argsortOrder Host.sort2
  rw [dif_pos (show 1 < S64x64.rank by decide)]
  dsimp only
  simp only [along_ix2]
  rfl

/-! ### `take_along_axis` at indices that are positions of the row -/

/-- A position of the row, as a word, is not negative, … -/
private theorem word_not_neg : ∀ v : Fin 64, IntOp.cmpi .slt (BitVec.ofNat 32 v.val) 0#32 = 0#1 := by decide
/-- … lies in `[0, 63]`, … -/
private theorem word_in_range : ∀ v : Fin 64,
    IntOp.andi (IntOp.cmpi .sge (BitVec.ofNat 32 v.val) 0#32) (IntOp.cmpi .sle (BitVec.ofNat 32 v.val) 63#32) = 1#1 := by
  decide
/-- … and, read signed and clamped into the row, is itself. -/
private theorem word_clamp : ∀ v : Fin 64, min (BitVec.ofNat 32 v.val).toInt.toNat 63 = v.val := by decide

/-- Every entry of `order` is a position of its row, as a word. -/
def InRow (order : IVec S64x64 32) : Prop := ∀ j : S64x64.Idx, ∃ v : Fin 64, order j = BitVec.ofNat 32 v.val

theorem takeNorm_apply (order : IVec S64x64 32) (h : InRow order) (j : S64x64.Idx) : takeNorm order j = order j := by
  obtain ⟨v, hv⟩ := h j
  show Scalar.select (IntOp.cmpi .slt (order j) 0#32) (IntOp.addi (order j) 64#32) (order j) = order j
  rw [hv, word_not_neg, select_zero]

theorem takeIdx3_apply (order : IVec S64x64 32) (i : S64x64x1.Idx) :
    takeIdx3 order i = takeNorm order (ix2 (i 0) (i 1)) := by
  unfold takeIdx3
  refine shapeCast_apply _ _ i (ix2 (i 0) (i 1)) ?_
  rw [Shape.rowMajor_val_two, Shape.rowMajor_val_three]
  have h2 : (i 2).val < 1 := (i 2).isLt
  show (i 0).val * 64 + (i 1).val = ((i 0).val * 64 + (i 1).val) * 1 + (i 2).val
  omega

private theorem foldl_andi_one {ι : Type} (l : List ι) (f : ι → BitVec 1) (hf : ∀ n, f n = 1#1) :
    l.foldl (fun r n => IntOp.andi r (f n)) 1#1 = 1#1 := by
  induction l with
  | nil => rfl
  | cons a l ih =>
    rw [List.foldl_cons, hf a]
    exact ih

theorem takeMask_apply (order : IVec S64x64 32) (h : InRow order) (j : S64x64.Idx) : takeMask order j = 1#1 := by
  unfold takeMask Host.reduce
  refine foldl_andi_one _ (fun n => IntOp.andi
    (IntOp.cmpi .sge (takeIdx3 order (S64x64x1.rowMajor.symm n)) 0#32)
    (IntOp.cmpi .sle (takeIdx3 order (S64x64x1.rowMajor.symm n)) 63#32)) fun n => ?_
  obtain ⟨v, hv⟩ := h (ix2 (S64x64x1.rowMajor.symm n 0) (S64x64x1.rowMajor.symm n 1))
  rw [takeIdx3_apply, takeNorm_apply order h, hv]
  exact word_in_range v

/-- The gather's dimension numbers, under a short name. -/
abbrev takeG : GatherDims S64x64 S64x64x1 S64x64 := gather_S64x64_S64x64x1_S64x64_n_1_0_0_1_2_11

/-- The gather of `take_along_axis` along a row: row `b` at the start index `idx[b, m, 0]`, read signed and
    clamped into the row. -/
theorem gather_row_apply {α : Type} (x : S64x64.Idx → α) (idx : IVec S64x64x1 32) (b m : Fin 64) :
    Host.gather takeG x idx (ix2 b m)
      = x (ix2 b ⟨min (idx (ix3 b m (0 : Fin 1))).toInt.toNat 63, by omega⟩) := by
  unfold Host.gather
  congr 1
  funext a
  refine Fin.ext ?_
  match a with
  | ⟨0, h0⟩ =>
    -- the batching axis: the row of the result index
    show takeG.start (ix2 b m) idx ⟨0, h0⟩ + takeG.batchCoord (ix2 b m) ⟨0, h0⟩ + takeG.offCoord (ix2 b m) ⟨0, h0⟩ = b.val
    have hb : (⟨0, h0⟩ : Fin S64x64.rank) ∈ takeG.operandBatchingDims := List.mem_singleton.mpr rfl
    rw [takeG.start_batching _ _ _ hb, takeG.offCoord_eq_zero _ _ (fun h => ((takeG.mem_sKept _).mp h).2 hb),
      Nat.zero_add, Nat.add_zero]
    rfl
  | ⟨1, h1⟩ =>
    -- the gathered axis: the start index, clamped
    show takeG.start (ix2 b m) idx ⟨1, h1⟩ + takeG.batchCoord (ix2 b m) ⟨1, h1⟩ + takeG.offCoord (ix2 b m) ⟨1, h1⟩
      = min (idx (ix3 b m (0 : Fin 1))).toInt.toNat 63
    have hnb : (⟨1, h1⟩ : Fin S64x64.rank) ∉ takeG.operandBatchingDims := fun h =>
      absurd (congrArg Fin.val (List.mem_singleton.mp h)) Nat.one_ne_zero
    have hc : (⟨1, h1⟩ : Fin S64x64.rank) ∈ takeG.collapsedSliceDims := List.mem_singleton.mpr rfl
    have hm : (⟨1, h1⟩ : Fin S64x64.rank) ∈ takeG.startIndexMap := List.mem_singleton.mpr rfl
    rw [takeG.batchCoord_eq_zero _ _ hnb, takeG.offCoord_eq_zero _ _ (fun h => ((takeG.mem_sKept _).mp h).1 hc),
      Nat.add_zero]
    unfold GatherDims.start
    rw [dif_pos hm]
    have hsi : takeG.siIdx (ix2 b m) ⟨List.idxOf (⟨1, h1⟩ : Fin S64x64.rank) takeG.startIndexMap,
        List.idxOf_lt_length_iff.2 hm⟩ = ix3 b m (0 : Fin 1) := by
      funext c; refine Fin.ext ?_
      match c with
      | ⟨0, _⟩ => rfl
      | ⟨1, _⟩ => rfl
      | ⟨2, _⟩ => rfl
    rw [hsi]
    rfl

/-- `take_along_axis` by positions of the row reads the row at those positions. -/
theorem takeAlong_apply {α : Type} (x fill : S64x64.Idx → α) (order : IVec S64x64 32) (b m v : Fin 64)
    (h : InRow order) (hv : order (ix2 b m) = BitVec.ofNat 32 v.val) :
    takeAlong x order fill (ix2 b m) = x (ix2 b v) := by
  show Scalar.select (takeMask order (ix2 b m))
    (Host.gather gather_S64x64_S64x64x1_S64x64_n_1_0_0_1_2_11 x (takeIdx3 order) (ix2 b m)) (fill (ix2 b m)) = _
  rw [takeMask_apply order h, select_one]
  refine (gather_row_apply x (takeIdx3 order) b m).trans ?_
  have e : min (takeIdx3 order (ix3 b m (0 : Fin 1))).toInt.toNat 63 = v.val := by
    rw [takeIdx3_apply]
    show min (takeNorm order (ix2 b m)).toInt.toNat 63 = v.val
    rw [takeNorm_apply order h, hv, word_clamp]
  exact congrArg (fun k => x (ix2 b k)) (Fin.ext e)

theorem argsortOrder_inRow (key : IVec S64x64 32) : InRow (argsortOrder key) := fun j => by
  obtain ⟨b, m, rfl⟩ : ∃ b m : Fin 64, j = ix2 b m := ⟨j 0, j 1, eq_ix2 j⟩
  exact ⟨_, argsortOrder_apply key b m⟩

/-- `take_along_axis` by the argsort reads row `b` at the sorting permutation. -/
theorem takeAlong_argsort_apply {α : Type} (key : IVec S64x64 32) (x fill : S64x64.Idx → α) (b m : Fin 64) :
    takeAlong x (argsortOrder key) fill (ix2 b m) = x (ix2 b (sortPerm (keyRow key b) m)) :=
  takeAlong_apply x fill _ b m _ (argsortOrder_inRow key) (argsortOrder_apply key b m)

theorem sortedKey_apply (key : IVec S64x64 32) (b m : Fin 64) :
    sortedKey key (ix2 b m) = keyRow key b (sortPerm (keyRow key b) m) :=
  takeAlong_argsort_apply key key _ b m

theorem sortedPayload_apply {F : FTy → Type} [FloatOps F] (key : IVec S64x64 32) (delta : FVec F S64x64 .f32)
    (b m : Fin 64) : sortedPayload key delta (ix2 b m) = delta (ix2 b (sortPerm (keyRow key b) m)) :=
  takeAlong_argsort_apply key delta _ b m

private theorem cmpi_ne_eq_one (x y : BitVec 32) : IntOp.cmpi .ne x y = 1#1 ↔ x ≠ y := by
  show BitVec.ofBool (x != y) = 1#1 ↔ x ≠ y
  by_cases h : x = y
  · subst h; simp
  · rw [bne_iff_ne.mpr h]
    exact ⟨fun _ => h, fun _ => rfl⟩

/-- The mark at `(b, m)`: position 0, or a sorted key that differs from the one before. -/
theorem isFirst_apply (sk : IVec S64x64 32) (b m : Fin 64) :
    isFirst sk (ix2 b m) = 1#1 ↔ (m.val = 0 ∨ sk (ix2 b m) ≠ sk (ix2 b (prevPos m))) := by
  unfold isFirst
  by_cases hm : m.val = 0
  · -- column 0 lies in the first piece, the column of ones
    rw [concatenate_pair_apply_left (t := S64x64) (s₁ := S64x1) (s₂ := S64x63) (1 : Fin 2) _ _ _ (ix2 b m) rfl
      (ix2 b (⟨0, Nat.one_pos⟩ : Fin 1)) (fun c => by
      match c with
      | ⟨0, _⟩ => rfl
      | ⟨1, _⟩ => exact hm.symm)]
    exact ⟨fun _ => Or.inl hm, fun _ => rfl⟩
  · -- a later column lies in the second piece, one column to the left
    have hlt : m.val - 1 < 63 := by have := m.isLt; omega
    rw [concatenate_pair_apply_right (t := S64x64) (s₁ := S64x1) (s₂ := S64x63) (1 : Fin 2) _ _ _ (ix2 b m) rfl rfl
      (ix2 b (⟨m.val - 1, hlt⟩ : Fin 63))
      (fun c hne => by
        match c with
        | ⟨0, _⟩ => rfl
        | ⟨1, _⟩ => exact absurd (Fin.ext rfl) hne)
      (by show m.val - 1 + 1 = m.val; omega)]
    show IntOp.cmpi .ne (extractStridedSlice S64x63 ![0, 1] sk slices_S64x64_S64x63_0_1 (ix2 b ⟨m.val - 1, hlt⟩))
      (extractStridedSlice S64x63 ![0, 0] sk slices_S64x64_S64x63_0_0 (ix2 b ⟨m.val - 1, hlt⟩)) = 1#1 ↔ _
    rw [extractStridedSlice_apply ![0, 1] sk _ _ (ix2 b m) (fun a => by
        match a with
        | ⟨0, _⟩ => show b.val = 0 + b.val; omega
        | ⟨1, _⟩ => show m.val = 1 + (m.val - 1); omega),
      extractStridedSlice_apply ![0, 0] sk _ _ (ix2 b (prevPos m)) (fun a => by
        match a with
        | ⟨0, _⟩ => show b.val = 0 + b.val; omega
        | ⟨1, _⟩ => show m.val - 1 = 0 + (m.val - 1); omega),
      cmpi_ne_eq_one]
    exact ⟨Or.inr, fun h => h.resolve_left hm⟩

/-- THE VALUE: with the payload at a position a function of its row and its key, the correction is the sum, over the
    rows, of that function over the row's distinct keys. -/
theorem corrChain_value (key : IVec S64x64 32) (delta : FVec Ideal S64x64 .f32) (g : Fin 64 → BitVec 32 → EReal)
    (hd : ∀ b m : Fin 64, delta (ix2 b m) = g b (key (ix2 b m))) (i : S_.Idx) :
    corrChain key delta i = ∑ b : Fin 64, ∑ k ∈ Finset.univ.image (fun m : Fin 64 => key (ix2 b m)), g b k := by
  unfold corrChain
  rw [hostReduceAdd_apply, Ideal.hostReduceAdd_total _ (fun a => a.elim0)]
  show Ideal.ofBits .f32 0x00000000#32 + ∑ j : S64x64.Idx, _ = _
  rw [Ideal.ofBits_zero_f32, zero_add, sum_idx2]
  refine Finset.sum_congr rfl fun b _ => ?_
  -- row `b`: the payload summed over the first of each run of its sorted keys
  refine Eq.trans (Finset.sum_congr rfl fun m _ => ?_)
    (Cert.Focal.sum_firstOfRun_payload (keyRow key b) (g b) (fun m => sortedPayload key delta (ix2 b m))
      (fun m => by rw [sortedPayload_apply]; exact hd b _))
  show Scalar.select (isFirst (sortedKey key) (ix2 b m)) (sortedPayload key delta (ix2 b m))
    (Ideal.ofBits .f32 0x00000000#32) = _
  have hiff := isFirst_apply (sortedKey key) b m
  rw [sortedKey_apply, sortedKey_apply] at hiff
  by_cases hf : isFirst (sortedKey key) (ix2 b m) = 1#1
  · rw [hf, select_one, if_pos (hiff.mp hf)]
  · rw [eq_zero_of_ne_one hf, select_zero, if_neg (fun h => hf (hiff.mpr h)), Ideal.ofBits_zero_f32]

end Cert.KernelIdeal.KV

end
-- ==== Proof.ElemKernel.lean ====
/-
  The kernel body's two payloads read at an index, at the extended-real instance.

  The first payload is the 16×1 block of zeros. The second adds, to the running column it is given,
  the sum over the 81920 lanes of a row of
      ¾ · (p · p) · (max x 0 + log1p e),   e = exp (0 − |x|),   p = (if x ≥ 0 then 1 else e) / (1 + e),
  which on a real entry x is the real number term0 x = ¾ · sgm(x)² · (max x 0 + log (1 + e^{−|x|})).
  The file first records what each scalar operation of the extended-real instance does on real
  arguments, then the identity for one element, then the two payloads at an index.
-/
import proofs.«428731_j81046032875796_3_alg».proof.Proof.Gen.KernelIdeal.Skeleton
import proofs.«428731_j81046032875796_3_alg».proof.Proof.FocalReal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Elem

open Idealize.ShloMosaic Idealize.ShloMosaic.ValueIdx
open Cert.KernelIdeal

/-! ## The scalar operations of the extended-real instance at real arguments -/

/-- The exponential of a real is the real exponential. -/
theorem exp_coe (r : ℝ) : Ideal.exp (r : EReal) = ((Real.exp r : ℝ) : EReal) := rfl

/-- `log1p` of a real above `-1` is the real logarithm of `1 + r`. -/
theorem log1p_coe {r : ℝ} (h : -1 < r) : Ideal.log1p (r : EReal) = ((Real.log (1 + r) : ℝ) : EReal) := by
  have h1 : (1 : EReal) + (r : EReal) = ((1 + r : ℝ) : EReal) := by
    rw [← EReal.coe_one, ← EReal.coe_add]
  have hpos : ¬ (1 + r ≤ 0) := by linarith
  rw [Ideal.log1p, h1, Ideal.log_coe, if_neg hpos]

/-- The quotient of two reals with a nonzero denominator is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The maximum of two reals is the real maximum. -/
theorem max_coe (a b : ℝ) : max (a : EReal) (b : EReal) = ((max a b : ℝ) : EReal) :=
  (EReal.coe_strictMono.monotone.map_max).symm

/-- The absolute value (`max x (-x)`) of a real is the real absolute value. -/
theorem abs_coe (a : ℝ) : max (a : EReal) (-(a : EReal)) = ((|a| : ℝ) : EReal) := by
  rw [← EReal.coe_neg, max_coe, abs_eq_max_neg]

/-- The ordered comparison `≥` of two reals is the bit of the real comparison. -/
theorem cmp_oge_coe (a b : ℝ) : Ideal.cmp .oge (a : EReal) (b : EReal) = BitVec.ofBool (decide (b ≤ a)) := by
  show BitVec.ofBool (decide ((b : EReal) ≤ (a : EReal))) = _
  exact congrArg BitVec.ofBool (decide_eq_decide.mpr EReal.coe_le_coe_iff)

/-- A select on the bit of a decidable proposition is the `if`. -/
theorem select_ofBool {α : Type} (P : Prop) [Decidable P] (x y : α) :
    Scalar.select (BitVec.ofBool (decide P)) x y = if P then x else y := by
  unfold Scalar.select
  by_cases h : P
  · simp [h]
  · simp [h]

/-- The word `0x3F800000` is the real `1`. -/
theorem ofBits_one_f32 : Ideal.ofBits .f32 0x3F800000#32 = ((1 : ℝ) : EReal) := by
  simp [Ideal.ofBits, Ideal.ieee, -EReal.coe_mul]
  norm_num

/-- The word `0x3F400000` is the real `3/4`. -/
theorem ofBits_three_quarters_f32 : Ideal.ofBits .f32 0x3F400000#32 = ((3 / 4 : ℝ) : EReal) := by
  simp [Ideal.ofBits, Ideal.ieee, -EReal.coe_mul]
  norm_num

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One element -/

/-- The kernel's elementwise expression on one extended real `x`:
    `¾ · (p · p) · (max x 0 + log1p e)` with `e = exp (0 − |x|)` and `p = (if x ≥ 0 then 1 else e) / (1 + e)`. -/
def elemExpr (x : EReal) : EReal :=
  Ideal.ofBits .f32 0x3F400000#32
      * (Ideal.div (Scalar.select (Ideal.cmp .oge x (Ideal.ofBits .f32 0x00000000#32))
              (Ideal.ofBits .f32 0x3F800000#32) (Ideal.exp (Ideal.ofBits .f32 0x00000000#32 - max x (-x))))
            (Ideal.ofBits .f32 0x3F800000#32 + Ideal.exp (Ideal.ofBits .f32 0x00000000#32 - max x (-x)))
        * Ideal.div (Scalar.select (Ideal.cmp .oge x (Ideal.ofBits .f32 0x00000000#32))
              (Ideal.ofBits .f32 0x3F800000#32) (Ideal.exp (Ideal.ofBits .f32 0x00000000#32 - max x (-x))))
            (Ideal.ofBits .f32 0x3F800000#32 + Ideal.exp (Ideal.ofBits .f32 0x00000000#32 - max x (-x))))
      * (max x (Ideal.ofBits .f32 0x00000000#32)
          + Ideal.log1p (Ideal.exp (Ideal.ofBits .f32 0x00000000#32 - max x (-x))))

/-- At a real entry the kernel's elementwise expression is the real focal term at target 0. -/
theorem elemExpr_coe (r : ℝ) : elemExpr (r : EReal) = ((Cert.Focal.term0 r : ℝ) : EReal) := by
  have hz : Ideal.ofBits .f32 0x00000000#32 = ((0 : ℝ) : EReal) := by
    rw [Ideal.ofBits_zero_f32, EReal.coe_zero]
  have he : Ideal.exp (((0 : ℝ) : EReal) - max (r : EReal) (-(r : EReal))) = ((Real.exp (-|r|) : ℝ) : EReal) := by
    rw [abs_coe, ← EReal.coe_sub, zero_sub, exp_coe]
  have hsel : Scalar.select (Ideal.cmp .oge (r : EReal) ((0 : ℝ) : EReal)) ((1 : ℝ) : EReal)
        ((Real.exp (-|r|) : ℝ) : EReal)
      = (((if 0 ≤ r then 1 else Real.exp (-|r|)) : ℝ) : EReal) := by
    rw [cmp_oge_coe, select_ofBool]
    split_ifs <;> rfl
  have hden : ((1 : ℝ) : EReal) + ((Real.exp (-|r|) : ℝ) : EReal) = ((1 + Real.exp (-|r|) : ℝ) : EReal) :=
    (EReal.coe_add _ _).symm
  have hq : Ideal.div ((((if 0 ≤ r then 1 else Real.exp (-|r|)) : ℝ)) : EReal) ((1 + Real.exp (-|r|) : ℝ) : EReal)
      = ((Cert.Focal.sgm r : ℝ) : EReal) := by
    rw [div_coe_coe _ (Cert.Focal.one_add_exp_pos _).ne', Cert.Focal.sgm_eq_select]
  have hl : Ideal.log1p ((Real.exp (-|r|) : ℝ) : EReal) = ((Cert.Focal.lse r : ℝ) : EReal) := by
    rw [log1p_coe (by have := Real.exp_pos (-|r|); linarith)]
    rfl
  unfold elemExpr
  rw [hz, ofBits_one_f32, ofBits_three_quarters_f32, he, hsel, hden, hq, hl, max_coe, ← EReal.coe_mul,
    ← EReal.coe_mul, ← EReal.coe_add, ← EReal.coe_mul]
  rfl

/-! ## Two layout readings -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the lanes of a `16 × 81920` block, read at row `p`, is the sum over the row's entries. -/
theorem laneSum_apply (src : FVec Ideal S16x81920 .f32) (h : S16x81920.Reduces [1] S16) (hφ : FKind.Formats .f32)
    (hacc : (0x00000000#32 : BitVec 32) = 0x00000000#32) (p : Fin 16) :
    multiReduction .add [1] S16 src 0x00000000#32 h hφ hacc (ix1 p) = ∑ q : Fin 81920, src (ix2 p q) := by
  refine (Ideal.multiReduction_add_single src 0x00000000#32 h hφ hacc (ix1 p)).trans ?_
  refine Finset.sum_congr rfl fun q _ => congrArg src ?_
  funext a
  match a with
  | ⟨0, _⟩ => rfl
  | ⟨1, _⟩ => rfl

/-! ## The payloads at an index -/

/-- The first payload is zero at every index. -/
theorem k0_pay1_apply (j : S16x1.Idx) : Gen.k0_pay1 (F := Ideal) j = 0 := by
  unfold Gen.k0_pay1
  exact Ideal.ofBits_zero_f32

/-- The second payload at row `p`: the running column's entry plus the sum over the row's lanes of the real focal
    term at target 0, when every entry of the block is a real. -/
theorem k0_pay2_apply (v3 : Vec Ideal S16x81920 .f32) (hv : ∀ j, ∃ r : ℝ, v3 j = (r : EReal))
    (v26 : Vec Ideal S16x1 .f32) (p : Fin 16) :
    Gen.k0_pay2 v3 v26 (ix2 p (0 : Fin 1))
      = v26 (ix2 p (0 : Fin 1)) + ∑ q : Fin 81920, ((Cert.Focal.term0 (v3 (ix2 p q)).toReal : ℝ) : EReal) := by
  unfold Gen.k0_pay2
  dsimp only
  rw [addf_apply, shapeCast_self, shapeCast_self]
  refine congrArg (v26 (ix2 p (0 : Fin 1)) + ·) ?_
  refine (shapeCast_a_a1_apply _ _ p 0).trans ?_
  refine (laneSum_apply _ _ _ _ p).trans ?_
  refine Finset.sum_congr rfl fun q _ => ?_
  obtain ⟨r, hr⟩ := hv (ix2 p q)
  show elemExpr (v3 (ix2 p q)) = _
  rw [hr, EReal.toReal_coe]
  exact elemExpr_coe r

/-- The same at any index `j` of the column (its second coordinate can only be `0`). -/
theorem k0_pay2_apply_idx (v3 : Vec Ideal S16x81920 .f32) (hv : ∀ j, ∃ r : ℝ, v3 j = (r : EReal))
    (v26 : Vec Ideal S16x1 .f32) (j : S16x1.Idx) :
    Gen.k0_pay2 v3 v26 j
      = v26 j + ∑ q : Fin 81920, ((Cert.Focal.term0 (v3 (ix2 (j 0) q)).toReal : ℝ) : EReal) := by
  obtain ⟨p, u, rfl⟩ : ∃ (p : Fin 16) (u : Fin 1), j = ix2 p u := ⟨j 0, j 1, eq_ix2 j⟩
  obtain rfl : u = 0 := Subsingleton.elim _ _
  exact k0_pay2_apply v3 hv v26 p

/-- The same for a block given by a real-valued function, with the sum taken in the reals. -/
theorem k0_pay2_apply_real (x : S16x81920.Idx → ℝ) (v26 : Vec Ideal S16x1 .f32) (p : Fin 16) :
    Gen.k0_pay2 (F := Ideal) (fun j => ((x j : ℝ) : EReal)) v26 (ix2 p (0 : Fin 1))
      = v26 (ix2 p (0 : Fin 1)) + ((∑ q : Fin 81920, Cert.Focal.term0 (x (ix2 p q)) : ℝ) : EReal) := by
  rw [k0_pay2_apply (fun j => ((x j : ℝ) : EReal)) (fun j => ⟨x j, rfl⟩) v26 p, coe_finset_sum]
  rfl

end Cert.KernelIdeal.Elem

end
-- ==== Proof.KernelIdealValue.Region.lean ====
/-
  The value of the grid region's output array at the extended-real instance.

  The region reads the logits reshaped to 64 × 327680 in blocks of 16 × 81920 on a 4 × 4 grid (point t at block row
  t / 4 and block column t % 4) and accumulates, over the block columns of a block row, the row sums of the focal
  term at target 0 into a 16 × 1 block that is written back after block column 3.  So row r of the 64 × 1 output
  ends holding the sum over all 327680 entries of row r of the reshaped logits of the real term, provided every
  logit is a real number.
-/
import proofs.«428731_j81046032875796_3_alg».proof.Proof.KernelIdealFrame.Data
import proofs.«428731_j81046032875796_3_alg».proof.Proof.FocalReal
import proofs.«428731_j81046032875796_3_alg».proof.Proof.ElemKernel
import Idealize.ShloMosaic.Lib.Pipeline.Value
import Idealize.ShloMosaic.Lib.ValueIdx
import Idealize.ShloMosaic.Lib.Tactic

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.KF

local notation "𝕄" => MT nD τ sig Unit (Elt Ideal) ℕ (UR sig nD τ) ℕ

variable (m : (ℓ : Loc nD τ sig) → Buf (Elt Ideal) ℓ) (ρ : Dev nD → PrngReg)

/-! ## Names of literal type -/

/-- The logits on core `c` as the program is launched with them. -/
abbrev logits (c : Dev nD) : Vec Ideal S64x4096x80 .f32 := m ((c : Thread nD τ).loc main_arg1)

/-- The region's input array on core `c`: what the one host operation before the region leaves. -/
abbrev xarr (c : Dev nD) : Vec Ideal S64x327680 .f32 := V m c main_v0

/-- The input block at grid point `t`. -/
abbrev xblk (c : Dev nD) (t : Fin cfg0.N) : Vec Ideal S16x81920 .f32 := iblk m c 0 t

/-- The real value of the logit at row `r`, flat column `j` of the 64 × 327680 array (zero outside it). -/
def lgt (c : Dev nD) (r j : ℕ) : ℝ :=
  if h : r < 64 ∧ j < 327680 then
    (logits m c (ix3 (⟨r, h.1⟩ : Fin 64) (⟨j / 80, by omega⟩ : Fin 4096) (⟨j % 80, Nat.mod_lt _ (by decide)⟩ : Fin 80))).toReal
  else 0

/-- The region's output array at the end: row `r` holds the sum of the real term over the row's 327680 logits. -/
def rowSums (c : Dev nD) : Vec Ideal S64x1 .f32 := fun i =>
  ∑ j : Fin 327680, ((Cert.Focal.term0
    (logits m c (ix3 (i 0) (⟨j.val / 80, by have := j.isLt; omega⟩ : Fin 4096)
      (⟨j.val % 80, Nat.mod_lt _ (by decide)⟩ : Fin 80))).toReal : ℝ) : EReal)

/-! ## The input array and its blocks -/

/-- The grid has 16 points. -/
theorem lt16 (t : Fin cfg0.N) : t.val < 16 := by
  have hN : cfg0.N = 16 := N_0
  have := t.isLt
  omega

/-- The region's input array is the logits reshaped. -/
theorem xarr_eq (c : Dev nD) :
    xarr m c = shapeCast S64x327680 (logits m c) shapeCasts_S64x4096x80_S64x327680 := by
  show StableHlo.after hostOps0 (fun b => m (c, b)) (Proc.devRef .tc main_v0) = _
  after_results
  rfl

/-- Read at row `b`, flat column `j`: the logit at `(b, j / 80, j % 80)`. -/
theorem xarr_apply (c : Dev nD) (b : Fin 64) (j : Fin 327680) :
    xarr m c (ix2 b j)
      = logits m c (ix3 b (⟨j.val / 80, by have := j.isLt; omega⟩ : Fin 4096) (⟨j.val % 80, Nat.mod_lt _ (by decide)⟩ : Fin 80)) := by
  rw [xarr_eq]
  exact shapeCast_apply _ _ _ _ (by
    rw [Shape.rowMajor_val_three, Shape.rowMajor_val_two]
    show (b.val * 4096 + j.val / 80) * 80 + j.val % 80 = b.val * 327680 + j.val
    omega)

/-- The printed index maps, decided over the grid: the input's block index at point `t` is `(t / 4, t % 4)`, -/
theorem idx_in : ∀ t : Fin cfg0.N, win0_0.index t (0 : Fin 2) = t.val / 4 ∧ win0_0.index t (1 : Fin 2) = t.val % 4 :=
  (by decide +kernel : ∀ t : Fin grid0.N, _)

/-- and the output's is `(t / 4, 0)`. -/
theorem idx_out : ∀ t : Fin cfg0.N, win0_1.index t (0 : Fin 2) = t.val / 4 ∧ win0_1.index t (1 : Fin 2) = 0 :=
  (by decide +kernel : ∀ t : Fin grid0.N, _)

/-- The input block at point `t`, read at `(p, q)`: the array at row `16 (t / 4) + p`, column `81920 (t % 4) + q`. -/
theorem xblk_apply (c : Dev nD) (t : Fin cfg0.N) (p : Fin 16) (q : Fin 81920) :
    xblk m c t (ix2 p q)
      = xarr m c (ix2 (⟨16 * (t.val / 4) + p.val, by have := lt16 t; have := p.isLt; omega⟩ : Fin 64)
          (⟨81920 * (t.val % 4) + q.val, by have := q.isLt; have := Nat.mod_lt t.val (show 0 < 4 by decide); omega⟩ : Fin 327680)) := by
  obtain ⟨e0, e1⟩ := idx_in t
  unfold xblk iblk
  rw [View.read_apply]
  show xarr m c _ = xarr m c _
  congr 1
  funext a
  apply Fin.ext
  match a with
  | ⟨0, _⟩ => show win0_0.index t 0 * 16 + 1 * p.val = 16 * (t.val / 4) + p.val; rw [e0]; omega
  | ⟨1, _⟩ => show win0_0.index t 1 * 81920 + 1 * q.val = 81920 * (t.val % 4) + q.val; rw [e1]; omega

/-- With real logits every entry of every block is real, -/
theorem xblk_real (c : Dev nD) (hfin : ∀ j, ∃ r : ℝ, logits m c j = (r : EReal)) (t : Fin cfg0.N) :
    ∀ j, ∃ r : ℝ, xblk m c t j = (r : EReal) := by
  intro j
  obtain ⟨p, q, rfl⟩ : ∃ (p : Fin 16) (q : Fin 81920), j = ix2 p q := ⟨j 0, j 1, eq_ix2 j⟩
  rw [xblk_apply m c t p q, xarr_apply]
  exact hfin _

/-- and its real value is the logit's. -/
theorem xblk_toReal (c : Dev nD) (t : Fin cfg0.N) (p : Fin 16) (q : Fin 81920) :
    (xblk m c t (ix2 p q)).toReal = lgt m c (16 * (t.val / 4) + p.val) (81920 * (t.val % 4) + q.val) := by
  have hr : 16 * (t.val / 4) + p.val < 64 := by have := lt16 t; have := p.isLt; omega
  have hc : 81920 * (t.val % 4) + q.val < 327680 := by
    have := q.isLt; have := Nat.mod_lt t.val (show 0 < 4 by decide); omega
  rw [xblk_apply m c t p q, xarr_apply]
  unfold lgt
  rw [dif_pos ⟨hr, hc⟩]

/-! ## The accumulation -/

/-- The body's second payload at point `t`, read at row `p`: what it is given there plus the sum of the real term
    over the block's row, which is row `16 (t / 4) + p`, columns `81920 (t % 4) + q` of the array. -/
theorem pay2_at (c : Dev nD) (hfin : ∀ j, ∃ r : ℝ, logits m c j = (r : EReal)) (t : Fin cfg0.N)
    (acc : Vec Ideal S16x1 .f32) (p : Fin 16) :
    k0_pay2 (xblk m c t) acc (ix2 p (0 : Fin 1))
      = acc (ix2 p (0 : Fin 1)) + ∑ q : Fin 81920,
          ((Cert.Focal.term0 (lgt m c (16 * (t.val / 4) + p.val) (81920 * (t.val % 4) + q.val)) : ℝ) : EReal) :=
  (Elem.k0_pay2_apply (xblk m c t) (xblk_real m c hfin t) acc p).trans
    (congrArg (acc (ix2 p (0 : Fin 1)) + ·) (Finset.sum_congr rfl fun q _ => by rw [xblk_toReal m c t p q]))

/-- After the body at point `n` the output block's buffer holds, at row `p`, the sum of the real term over the block
    columns `0 … n % 4` of row `16 (n / 4) + p`. -/
theorem outsAt_apply (c : Dev nD) (hfin : ∀ j, ∃ r : ℝ, logits m c j = (r : EReal)) :
    ∀ (n : ℕ) (h : n < cfg0.N) (p : Fin 16),
      outsAt0 m c n h (ix2 p (0 : Fin 1))
        = ∑ s ∈ Finset.range (n % 4 + 1), ∑ q : Fin 81920,
            ((Cert.Focal.term0 (lgt m c (16 * (n / 4) + p.val) (81920 * s + q.val)) : ℝ) : EReal)
  | 0, h, p => by
    rw [outsAt0_A m c ⟨0, h⟩ rfl]
    refine (pay2_at m c hfin ⟨0, h⟩ (k0_pay1 (F := Ideal)) p).trans ?_
    rw [Elem.k0_pay1_apply, zero_add]
    show _ = ∑ s ∈ Finset.range 1, _
    rw [Finset.sum_range_one]
    rfl
  | n + 1, h, p => by
    by_cases h0 : (n + 1) % 4 = 0
    · rw [outsAt0_A m c ⟨n + 1, h⟩ h0]
      refine (pay2_at m c hfin ⟨n + 1, h⟩ (k0_pay1 (F := Ideal)) p).trans ?_
      rw [Elem.k0_pay1_apply, zero_add]
      show ∑ q : Fin 81920, ((Cert.Focal.term0 (lgt m c (16 * ((n + 1) / 4) + p.val) (81920 * ((n + 1) % 4) + q.val)) : ℝ) : EReal) = _
      rw [h0, Finset.sum_range_one]
    · rw [outsAt0_B m c ⟨n + 1, h⟩ h0]
      refine (pay2_at m c hfin ⟨n + 1, h⟩ (outsAt0 m c n (Nat.lt_of_succ_lt h)) p).trans ?_
      rw [outsAt_apply c hfin n (Nat.lt_of_succ_lt h) p]
      have e1 : (n + 1) / 4 = n / 4 := by omega
      have e2 : (n + 1) % 4 = n % 4 + 1 := by omega
      show _ + ∑ q : Fin 81920, ((Cert.Focal.term0 (lgt m c (16 * ((n + 1) / 4) + p.val) (81920 * ((n + 1) % 4) + q.val)) : ℝ) : EReal) = _
      rw [e1, e2, Finset.sum_range_succ _ (n % 4 + 1)]

/-! ## Block columns to the whole row -/

/-- A sum over `k` consecutive stretches of `B` naturals is the sum over the first `B k` naturals. -/
theorem sum_range_blocks (f : ℕ → EReal) (B : ℕ) :
    ∀ k : ℕ, ∑ s ∈ Finset.range k, ∑ q ∈ Finset.range B, f (B * s + q) = ∑ j ∈ Finset.range (B * k), f j
  | 0 => by simp
  | k + 1 => by
    rw [Finset.sum_range_succ, sum_range_blocks f B k, Nat.mul_succ, Finset.sum_range_add]

/-- The four block columns of 81920 make up the 327680 columns. -/
theorem sum_cols (f : ℕ → EReal) :
    ∑ s ∈ Finset.range 4, ∑ q : Fin 81920, f (81920 * s + q.val) = ∑ j : Fin 327680, f j.val := by
  rw [Fin.sum_univ_eq_sum_range f 327680]
  have e : ∀ s, ∑ q : Fin 81920, f (81920 * s + q.val) = ∑ q ∈ Finset.range 81920, f (81920 * s + q) :=
    fun s => Fin.sum_univ_eq_sum_range (fun q => f (81920 * s + q)) 81920
  simp only [e]
  exact sum_range_blocks f 81920 4

/-- The row sums at an index of row `r`, over the real logits as a function of naturals. -/
theorem rowSums_apply (c : Dev nD) (i : S64x1.Idx) (r : ℕ) (hr : (i 0).val = r) :
    rowSums m c i = ∑ j : Fin 327680, ((Cert.Focal.term0 (lgt m c r j.val) : ℝ) : EReal) := by
  subst hr
  unfold rowSums
  refine Finset.sum_congr rfl fun j _ => ?_
  unfold lgt
  rw [dif_pos ⟨(i 0).isLt, j.isLt⟩]
  rfl

/-! ## The output array -/

/-- An array of the output's shape read through the output's block at point `t`: the array at the block's position. -/
theorem read_out (t : Fin cfg0.N) (G : Vec Ideal S64x1 .f32) (y : ((cfg0.win 1).xblock (grid0.coords t)).Idx) :
    ((cfg0.win 1).blk t).view.read (Elt Ideal) G y = G (((cfg0.win 1).blk t).view.emb y) := rfl

/-- What a point of block column 3 writes back is its block of the row sums. -/
theorem flushed_eq (c : Dev nD) (hfin : ∀ j, ∃ r : ℝ, logits m c j = (r : EReal)) (t : Fin cfg0.N)
    (hf : (cfg0.win 1).flush t = true) :
    (dats m 0 c).flushed 1 t = ((cfg0.win 1).blk t).view.read (Elt Ideal) (rowSums m c) := by
  have h3 : t.val % 4 = 3 := (flush0_1 t).mp hf
  obtain ⟨e0, e1⟩ := idx_out t
  show (cfg0.win 1).cut (grid0.coords t) ((dats m 0 c).after 1 t) = _
  rw [after0_1]
  funext y
  refine Eq.trans ?_ (read_out t (rowSums m c) y).symm
  have hy0 : (y 0).val < 16 := (y 0).isLt
  have hy1 : (y 1).val < 1 := (y 1).isLt
  have hx : (cfg0.win 1).xinj (grid0.coords t) y = ix2 (⟨(y 0).val, hy0⟩ : Fin 16) (0 : Fin 1) := by
    funext a
    apply Fin.ext
    match a with
    | ⟨0, _⟩ => rfl
    | ⟨1, _⟩ => show (y 1).val = 0; omega
  show outsAt0 m c t.val t.isLt ((cfg0.win 1).xinj (grid0.coords t) y) = _
  rw [hx, outsAt_apply m c hfin t.val t.isLt ⟨(y 0).val, hy0⟩, h3]
  refine (sum_cols fun j => ((Cert.Focal.term0 (lgt m c (16 * (t.val / 4) + (y 0).val) j) : ℝ) : EReal)).trans ?_
  refine (rowSums_apply m c (((cfg0.win 1).blk t).view.emb y) (16 * (t.val / 4) + (y 0).val) ?_).symm
  show win0_1.index t 0 * 16 + 1 * (y 0).val = 16 * (t.val / 4) + (y 0).val
  rw [e0]
  omega

/-- An index of the output array is in point `t`'s block iff each coordinate is in the block's range on its axis. -/
theorem mem_blk (t : Fin cfg0.N) (i : S64x1.Idx) :
    i ∈ ((cfg0.win 1).blk t).view.set
      ↔ ∀ a : Fin 2, win0_1.index t a * S16x1.size a ≤ (i a).val ∧ (i a).val < win0_1.index t a * S16x1.size a + S16x1.size a := by
  show i ∈ ((View.whole main_v1).slice (win0_1.rect t)).set ↔ _
  rw [View.set_slice_whole, Rect.mem_set_unit]
  exact Iff.rfl

/-- THE OUTPUT ARRAY after the region: the row sums of the real term over the reshaped logits. -/
theorem final (c : Dev nD) (hfin : ∀ j, ∃ r : ℝ, m ((c : Thread nD τ).loc main_arg1) j = (r : EReal)) :
    (dats m 0 c).arrAt 1 cfg0.N = rowSums m c :=
  (dats m 0 c).arrAt_eq_of_cover 1 (rowSums m c) (fun t hf => flushed_eq m c hfin t hf) fun i => by
    have hi0 : (i 0).val < 64 := (i 0).isLt
    have hi1 : (i 1).val < 1 := (i 1).isLt
    have hN : cfg0.N = 16 := N_0
    have ht : 4 * ((i 0).val / 16) + 3 < cfg0.N := by omega
    obtain ⟨e0, e1⟩ := idx_out ⟨4 * ((i 0).val / 16) + 3, ht⟩
    refine ⟨⟨4 * ((i 0).val / 16) + 3, ht⟩, (flush0_1 _).mpr (by show (4 * ((i 0).val / 16) + 3) % 4 = 3; omega), ?_⟩
    rw [mem_blk]
    intro a
    match a with
    | ⟨0, _⟩ =>
      show win0_1.index ⟨4 * ((i 0).val / 16) + 3, ht⟩ 0 * 16 ≤ (i 0).val
        ∧ (i 0).val < win0_1.index ⟨4 * ((i 0).val / 16) + 3, ht⟩ 0 * 16 + 16
      rw [e0]
      show (4 * ((i 0).val / 16) + 3) / 4 * 16 ≤ (i 0).val ∧ (i 0).val < (4 * ((i 0).val / 16) + 3) / 4 * 16 + 16
      omega
    | ⟨1, _⟩ =>
      show win0_1.index ⟨4 * ((i 0).val / 16) + 3, ht⟩ 1 * 1 ≤ (i 1).val
        ∧ (i 1).val < win0_1.index ⟨4 * ((i 0).val / 16) + 3, ht⟩ 1 * 1 + 1
      rw [e1]
      omega

/-- The same, spelled out. -/
theorem final_apply (c : Dev nD) (hfin : ∀ j, ∃ r : ℝ, m ((c : Thread nD τ).loc main_arg1) j = (r : EReal)) :
    (dats m 0 c).arrAt 1 cfg0.N = fun i : S64x1.Idx =>
      ∑ j : Fin 327680, ((Cert.Focal.term0
        (m ((c : Thread nD τ).loc main_arg1) (ix3 (i 0) (⟨j.val / 80, by have := j.isLt; omega⟩ : Fin 4096)
          (⟨j.val % 80, Nat.mod_lt _ (by decide)⟩ : Fin 80))).toReal : ℝ) : EReal) :=
  final m c hfin

end Cert.KernelIdeal.KV

end
-- ==== Proof.KernelIdealValue.Tail.lean ====
/-
  The classification loss read off the host operations that follow the region.  The seventeen stretches of host
  operations fall into three blocks: the first computes the sum of the region's 64 row sums (main_v2), the hits' keys
  (main_v63) and the hits' terms (main_v60); the second sorts the keys, keeps the first of each run, sums the terms
  there and divides (main_v75); the third does not write main_v75.  Here: the buffers as the region leaves them, the
  three blocks, and the composition of what the first two compute into the program's second result.
-/
import proofs.«428731_j81046032875796_3_alg».proof.Proof.KernelIdealFrame.Data
import Idealize.ShloMosaic.Lib.StableHlo.Run

set_option maxRecDepth 16384

noncomputable section

namespace Cert.KernelIdeal.KV.T

open Idealize.ShloMosaic Idealize.ShloMosaic.TcCoe Idealize.ShloMosaic.Tactic
open Idealize.ShloMosaic.Pipeline (Dat Cfg Window BodyObligation cellOf)
open Cert.KernelIdeal Cert.KernelIdeal.Gen Cert.KernelIdeal.KF

variable {F : FTy → Type} [FloatOps F]
variable (m : (ℓ : Loc nD τ sig) → Buf (Elt F) ℓ)

/-! ## The buffers at the region's exit -/

/-- The core's buffers as the region leaves them: the windows' arrays at what the pipeline flushed, the rest as before. -/
abbrev Wt (c : Dev nD) : Valuation τ sig (Elt F) :=
  Pipeline.withArrays (cfgs 0).spec c (V0 m c) fun w => (dats m 0 c).arrAt w (cfgs 0).N

theorem tail_eq (c : Dev nD) (b : Ref sig .tc) :
    Pipeline.afterTail₀ cfgs (dats m) 0 (V0 m) tailOpss c b = StableHlo.after (List.flatten tailOpss) (Wt m c) (Proc.devRef .tc b) := rfl

/-- At the output window's array the region leaves what the pipeline flushed. -/
theorem Wt_v1 (c : Dev nD) : Wt m c (Proc.devRef .tc main_v1) = (dats m 0 c).arrAt 1 cfg0.N :=
  Pipeline.withArrays_arr spec0 launch0.win.arr_inj c _ _ 1

/-- At an argument array no window of the region is on, nothing has changed since the launch. -/
theorem Wt_arg1 (c : Dev nD) : Wt m c (Proc.devRef .tc main_arg1) = m ((c.tc : Thread nD τ).loc main_arg1) := by
  refine (Pipeline.withArrays_of_ne _ c _ _ main_arg1 (by decide)).trans ?_
  show StableHlo.after hostOps0 (fun b => m (c, b)) (Proc.devRef .tc main_arg1) = _
  after_results
theorem Wt_arg3 (c : Dev nD) : Wt m c (Proc.devRef .tc main_arg3) = m ((c.tc : Thread nD τ).loc main_arg3) := by
  refine (Pipeline.withArrays_of_ne _ c _ _ main_arg3 (by decide)).trans ?_
  show StableHlo.after hostOps0 (fun b => m (c, b)) (Proc.devRef .tc main_arg3) = _
  after_results
theorem Wt_arg4 (c : Dev nD) : Wt m c (Proc.devRef .tc main_arg4) = m ((c.tc : Thread nD τ).loc main_arg4) := by
  refine (Pipeline.withArrays_of_ne _ c _ _ main_arg4 (by decide)).trans ?_
  show StableHlo.after hostOps0 (fun b => m (c, b)) (Proc.devRef .tc main_arg4) = _
  after_results
theorem Wt_arg5 (c : Dev nD) : Wt m c (Proc.devRef .tc main_arg5) = m ((c.tc : Thread nD τ).loc main_arg5) := by
  refine (Pipeline.withArrays_of_ne _ c _ _ main_arg5 (by decide)).trans ?_
  show StableHlo.after hostOps0 (fun b => m (c, b)) (Proc.devRef .tc main_arg5) = _
  after_results

/-! ## The tail in three blocks -/

/-- The operations after the one that writes `main_v75` leave it as it is. -/
theorem suffix_v75 (V : Valuation τ sig (Elt F)) :
    StableHlo.after (List.flatten [hostOps1_9, hostOps1_10, hostOps1_11, hostOps1_12, hostOps1_13, hostOps1_14, hostOps1_15, hostOps1_16]) V (Proc.devRef .tc main_v75)
      = V (Proc.devRef .tc main_v75) := by
  simp only [hostOps1_9, hostOps1_10, hostOps1_11, hostOps1_12, hostOps1_13, hostOps1_14, hostOps1_15, hostOps1_16,
    List.flatten_cons, List.flatten_nil, List.append_nil, List.cons_append, List.nil_append]
  after_results

/-- The seventeen stretches as three blocks: up to the hits' keys and terms, the correction and the loss, the rest. -/
theorem tail_split :
    (List.flatten tailOpss : List (HloOp τ sig (Elt F)))
      = (hostOps1 ++ hostOps1_1 ++ hostOps1_2) ++ (hostOps1_3 ++ hostOps1_4 ++ hostOps1_5 ++ hostOps1_6 ++ hostOps1_7 ++ hostOps1_8)
        ++ List.flatten [hostOps1_9, hostOps1_10, hostOps1_11, hostOps1_12, hostOps1_13, hostOps1_14, hostOps1_15, hostOps1_16] := by
  simp only [tailOpss, List.flatten_cons, List.flatten_nil, List.append_nil, List.append_assoc]

/-- THE COMPOSITION.  Whatever the first block computes at `main_v2`, `main_v63`, `main_v60` from the buffers it
    finds (`g2`, `g63`, `g60`) and the second at `main_v75` from those three (`gB`), the program's classification
    loss is `gB` of them at the region's output and the argument arrays. -/
theorem tail_v75_of_stages
    {g2 : Vec F S64x1 .f32 → Vec F S_ .f32}
    {g63 : IVec S64x64 32 → IVec S64x64 32 → IVec S64x64 32 → IVec S64x64 32}
    {g60 : Vec F S64x4096x80 .f32 → IVec S64x64 32 → IVec S64x64 32 → IVec S64x64 32 → Vec F S64x64 .f32}
    {gB : Vec F S_ .f32 → IVec S64x64 32 → Vec F S64x64 .f32 → Vec F S_ .f32}
    (h2 : ∀ W : Valuation τ sig (Elt F), StableHlo.after (hostOps1 ++ hostOps1_1 ++ hostOps1_2) W (Proc.devRef .tc main_v2)
      = g2 (W (Proc.devRef .tc main_v1)))
    (h63 : ∀ W : Valuation τ sig (Elt F), StableHlo.after (hostOps1 ++ hostOps1_1 ++ hostOps1_2) W (Proc.devRef .tc main_v63)
      = g63 (W (Proc.devRef .tc main_arg3)) (W (Proc.devRef .tc main_arg4)) (W (Proc.devRef .tc main_arg5)))
    (h60 : ∀ W : Valuation τ sig (Elt F), StableHlo.after (hostOps1 ++ hostOps1_1 ++ hostOps1_2) W (Proc.devRef .tc main_v60)
      = g60 (W (Proc.devRef .tc main_arg1)) (W (Proc.devRef .tc main_arg3)) (W (Proc.devRef .tc main_arg4)) (W (Proc.devRef .tc main_arg5)))
    (hB : ∀ V : Valuation τ sig (Elt F),
      StableHlo.after (hostOps1_3 ++ hostOps1_4 ++ hostOps1_5 ++ hostOps1_6 ++ hostOps1_7 ++ hostOps1_8) V (Proc.devRef .tc main_v75)
        = gB (V (Proc.devRef .tc main_v2)) (V (Proc.devRef .tc main_v63)) (V (Proc.devRef .tc main_v60)))
    (c : Dev nD) :
    Pipeline.afterTail₀ cfgs (dats m) 0 (V0 m) tailOpss c main_v75
      = gB (g2 ((dats m 0 c).arrAt 1 cfg0.N))
          (g63 (m ((c.tc : Thread nD τ).loc main_arg3)) (m ((c.tc : Thread nD τ).loc main_arg4)) (m ((c.tc : Thread nD τ).loc main_arg5)))
          (g60 (m ((c.tc : Thread nD τ).loc main_arg1)) (m ((c.tc : Thread nD τ).loc main_arg3)) (m ((c.tc : Thread nD τ).loc main_arg4))
            (m ((c.tc : Thread nD τ).loc main_arg5))) := by
  rw [tail_eq, tail_split, StableHlo.after_append, StableHlo.after_append, suffix_v75, hB, h2, h63, h60,
    Wt_v1, Wt_arg1, Wt_arg3, Wt_arg4, Wt_arg5]

end Cert.KernelIdeal.KV.T

end
-- ==== Proof.KernelIdealValue.TailHead.lean ====
/-
  The first three host stretches of the kernel program, run from any contents: what the buffers the tail reads
  hold afterwards.

  The first stretch sums the kernel's 64 × 1 column and makes the row numbers; the second takes the labels along
  the ground-truth indices (the class indices); the third gathers the hit logits, forms the correction array
  term1 − term0 of them and the keys prediction index · 80 + class index.  Each stretch is read buffer by
  buffer — the value its operations compose at the buffers it writes, the old contents at the ones it does not —
  and the three are then chained: after all of them the sum buffer holds the column's sum, the correction buffer
  the correction term of the logits gathered at (row, prediction index, class index), the key buffer the keys.
-/
import proofs.«428731_j81046032875796_3_alg».proof.Proof.Gen.KernelIdeal.Launch
import proofs.«428731_j81046032875796_3_alg».proof.Proof.KernelIdealValue.HostPieces
import Idealize.ShloMosaic.Lib.StableHlo.Run

set_option maxRecDepth 16384

noncomputable section

namespace Cert.KernelIdeal.KV.TH

open Idealize.ShloMosaic Idealize.ShloMosaic.StableHlo
open Cert.KernelIdeal Cert.KernelIdeal.Gen Cert.KernelIdeal.KV

variable [Cert.KernelIdeal.Facts]

/-- The row numbers 0 … 63 as a 64 × 1 column, before the (vacuous) move of negatives. -/
abbrev iotaCol : IVec S64x1 32 := broadcastInDim S64x1 ![0] Facts₀.bcast_S64_S64x1_0 (iotaInDim S64 32 0)

/-! ## Reading a three-operand operation's result -/

/-- A three-operand operation's result with each operand's contents at its own reference. -/
private theorem nary3_result {y x a b : Ref sig .tc}
    (f : ((k : Fin 3) → ((![x, a, b] : Fin 3 → Ref sig .tc) k).ty.Contents (Elt Ideal)) → y.ty.Contents (Elt Ideal))
    (hxs hy) (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

/-- Unfolds a line's fold and rewrites each operation's result, at its own buffer to its function's value and at
    any other reference to what was there, a three-operand operation's operands each at its own reference. -/
local macro "head_results" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## The first stretch: the sum of the kernel's column and the row numbers -/

theorem head0_v2 (V : Valuation τ sig (Elt Ideal)) :
    after (hostOps1 : List (HloOp τ sig (Elt Ideal))) V (Proc.devRef .tc main_v2)
      = (Host.reduceAdd (F := Ideal) (V (Proc.devRef .tc main_v1) : FVec Ideal S64x1 .f32) (constant S_ .f32 0x00000000#32)
          Facts₀.reducesTo_S64x1_S_d0_1 Facts₀.h_S_ : FVec Ideal S_ .f32) := by
  head_results

theorem head0_v4 (V : Valuation τ sig (Elt Ideal)) :
    after (hostOps1 : List (HloOp τ sig (Elt Ideal))) V (Proc.devRef .tc main_v4) = iotaCol := by
  head_results

theorem head0_arg1 (V : Valuation τ sig (Elt Ideal)) :
    after (hostOps1 : List (HloOp τ sig (Elt Ideal))) V (Proc.devRef .tc main_arg1) = V (Proc.devRef .tc main_arg1) := by
  head_results

theorem head0_arg3 (V : Valuation τ sig (Elt Ideal)) :
    after (hostOps1 : List (HloOp τ sig (Elt Ideal))) V (Proc.devRef .tc main_arg3) = V (Proc.devRef .tc main_arg3) := by
  head_results

theorem head0_arg4 (V : Valuation τ sig (Elt Ideal)) :
    after (hostOps1 : List (HloOp τ sig (Elt Ideal))) V (Proc.devRef .tc main_arg4) = V (Proc.devRef .tc main_arg4) := by
  head_results

theorem head0_arg5 (V : Valuation τ sig (Elt Ideal)) :
    after (hostOps1 : List (HloOp τ sig (Elt Ideal))) V (Proc.devRef .tc main_arg5) = V (Proc.devRef .tc main_arg5) := by
  head_results

/-! ## The second stretch: the labels taken along the ground-truth indices -/

set_option maxHeartbeats 4000000 in
theorem head1_v5 (V : Valuation τ sig (Elt Ideal)) :
    after (hostOps1_1 : List (HloOp τ sig (Elt Ideal))) V (Proc.devRef .tc main_v5)
      = clsIdx (V (Proc.devRef .tc main_arg3)) (V (Proc.devRef .tc main_arg5)) := by
  head_results
  rfl

set_option maxHeartbeats 4000000 in
theorem head1_v2 (V : Valuation τ sig (Elt Ideal)) :
    after (hostOps1_1 : List (HloOp τ sig (Elt Ideal))) V (Proc.devRef .tc main_v2) = V (Proc.devRef .tc main_v2) := by
  head_results

set_option maxHeartbeats 4000000 in
theorem head1_v4 (V : Valuation τ sig (Elt Ideal)) :
    after (hostOps1_1 : List (HloOp τ sig (Elt Ideal))) V (Proc.devRef .tc main_v4) = V (Proc.devRef .tc main_v4) := by
  head_results

set_option maxHeartbeats 4000000 in
theorem head1_arg1 (V : Valuation τ sig (Elt Ideal)) :
    after (hostOps1_1 : List (HloOp τ sig (Elt Ideal))) V (Proc.devRef .tc main_arg1) = V (Proc.devRef .tc main_arg1) := by
  head_results

set_option maxHeartbeats 4000000 in
theorem head1_arg4 (V : Valuation τ sig (Elt Ideal)) :
    after (hostOps1_1 : List (HloOp τ sig (Elt Ideal))) V (Proc.devRef .tc main_arg4) = V (Proc.devRef .tc main_arg4) := by
  head_results

/-! ## The third stretch: the hit logits, the correction array and the keys -/

set_option maxHeartbeats 8000000 in
theorem head2_v63 (V : Valuation τ sig (Elt Ideal)) :
    after (hostOps1_2 : List (HloOp τ sig (Elt Ideal))) V (Proc.devRef .tc main_v63)
      = key (V (Proc.devRef .tc main_arg4)) (V (Proc.devRef .tc main_v5)) := by
  after_results_simp
  rfl

set_option maxHeartbeats 8000000 in
theorem head2_v2 (V : Valuation τ sig (Elt Ideal)) :
    after (hostOps1_2 : List (HloOp τ sig (Elt Ideal))) V (Proc.devRef .tc main_v2) = V (Proc.devRef .tc main_v2) := by
  after_results_simp

set_option maxHeartbeats 8000000 in
theorem head2_v26 (V : Valuation τ sig (Elt Ideal)) (h4 : V (Proc.devRef .tc main_v4) = iotaCol) :
    after (hostOps1_2 : List (HloOp τ sig (Elt Ideal))) V (Proc.devRef .tc main_v26)
      = Host.gather gather_S64x4096x80_S64x64x3_S64x64_n_012_n_n_012_2_111 (V (Proc.devRef .tc main_arg1))
          (hitIdx (V (Proc.devRef .tc main_arg4)) (V (Proc.devRef .tc main_v5))) := by
  head_results
  rw [h4]
  rfl

set_option maxHeartbeats 8000000 in
theorem head2_v60 (V : Valuation τ sig (Elt Ideal)) (h4 : V (Proc.devRef .tc main_v4) = iotaCol) :
    after (hostOps1_2 : List (HloOp τ sig (Elt Ideal))) V (Proc.devRef .tc main_v60)
      = delta (Host.gather gather_S64x4096x80_S64x64x3_S64x64_n_012_n_n_012_2_111 (V (Proc.devRef .tc main_arg1))
          (hitIdx (V (Proc.devRef .tc main_arg4)) (V (Proc.devRef .tc main_v5)))) := by
  rw [← head2_v26 V h4]
  after_results_simp
  rfl

/-! ## The three stretches in a row -/

/-- After the three stretches the kernel's column is summed: the first result's first summand. -/
theorem head_v2 (W : Valuation τ sig (Elt Ideal)) :
    after (hostOps1 ++ hostOps1_1 ++ hostOps1_2 : List (HloOp τ sig (Elt Ideal))) W (Proc.devRef .tc main_v2)
      = (Host.reduceAdd (F := Ideal) (W (Proc.devRef .tc main_v1) : FVec Ideal S64x1 .f32) (constant S_ .f32 0x00000000#32)
          Facts₀.reducesTo_S64x1_S_d0_1 Facts₀.h_S_ : FVec Ideal S_ .f32) := by
  rw [after_append, after_append, head2_v2, head1_v2, head0_v2]

/-- After the three stretches the correction array is the correction term of the hit logits. -/
theorem head_v60 (W : Valuation τ sig (Elt Ideal)) :
    after (hostOps1 ++ hostOps1_1 ++ hostOps1_2 : List (HloOp τ sig (Elt Ideal))) W (Proc.devRef .tc main_v60)
      = delta (xhit (W (Proc.devRef .tc main_arg1)) (W (Proc.devRef .tc main_arg3)) (W (Proc.devRef .tc main_arg4))
          (W (Proc.devRef .tc main_arg5))) := by
  have h4 : after (hostOps1_1 : List (HloOp τ sig (Elt Ideal))) (after hostOps1 W) (Proc.devRef .tc main_v4) = iotaCol := by
    rw [head1_v4, head0_v4]
  rw [after_append, after_append, head2_v60 _ h4, head1_v5, head1_arg1, head1_arg4, head0_arg1, head0_arg3, head0_arg4,
    head0_arg5, xhit]

/-- After the three stretches the key array is the key of the prediction indices and the class indices. -/
theorem head_v63 (W : Valuation τ sig (Elt Ideal)) :
    after (hostOps1 ++ hostOps1_1 ++ hostOps1_2 : List (HloOp τ sig (Elt Ideal))) W (Proc.devRef .tc main_v63)
      = key (W (Proc.devRef .tc main_arg4))
          (clsIdx (W (Proc.devRef .tc main_arg3)) (W (Proc.devRef .tc main_arg5))) := by
  rw [after_append, after_append, head2_v63, head1_v5, head1_arg4, head0_arg3, head0_arg4, head0_arg5]

end Cert.KernelIdeal.KV.TH

end
-- ==== Proof.KernelIdealValue.TailCorr.lean ====
/-
  The stretches of host operations from the argsort to the quotient, read over any contents of the buffers.

  Each stretch is read at the one buffer the next stretches use — the argsort's positions; the keys and the payload
  gathered through them; the marks of the first of each run (the two pieces of the concatenation read separately and
  joined); the selection; the sum and the quotient — together with the buffers it leaves unchanged, and the stretches
  are composed in program order.  The composed value is the correction (`corrChain`) applied to what the contents hold at
  the keys' and the payload's buffers.
-/
import proofs.«428731_j81046032875796_3_alg».proof.Proof.Gen.KernelIdeal.Launch
import proofs.«428731_j81046032875796_3_alg».proof.Proof.KernelIdealValue.Correction
import Idealize.ShloMosaic.Lib.StableHlo.Run

set_option maxRecDepth 16384

noncomputable section

namespace Cert.KernelIdeal.KV.TC

open Idealize.ShloMosaic Idealize.ShloMosaic.TcCoe
open Cert.KernelIdeal Cert.KernelIdeal.Gen Cert.KernelIdeal.KV

variable {F : FTy → Type} [FloatOps F]

/-- The builders' result lemmas applied outermost first, the fold already unfolded: each operation's result at its own
    buffer is its function's value, at any other reference what was there. -/
local macro "results" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- A concatenation of two pieces depends only on the pieces. -/
private theorem concat_pair_congr {α : Type} {t s₁ s₂ : Shape} (a : Fin t.rank) {x₁ x₁' : s₁.Idx → α}
    {x₂ x₂' : s₂.Idx → α} (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- The argsort's stretch. -/
theorem stage3 (W : Valuation τ sig (Elt F)) :
    StableHlo.after hostOps1_3 W (Proc.devRef .tc main_v64) = argsortOrder (W (Proc.devRef .tc main_v63)) := by
  after_results
  rfl

theorem stage3_v63 (W : Valuation τ sig (Elt F)) :
    StableHlo.after hostOps1_3 W (Proc.devRef .tc main_v63) = W (Proc.devRef .tc main_v63) := by
  after_results

theorem stage8 (W : Valuation τ sig (Elt F)) :
    StableHlo.after hostOps1_8 W (Proc.devRef .tc main_v75)
      = Host.divf (addf (W (Proc.devRef .tc main_v2))
          (Host.reduceAdd (W (Proc.devRef .tc main_v72)) (constant S_ .f32 0x00000000#32) reducesTo_S64x64_S_d0_1 h_S_))
          (constant S_ .f32 0x4BA00000#32) := by
  after_results

theorem stage7 (W : Valuation τ sig (Elt F)) :
    StableHlo.after hostOps1_7 W (Proc.devRef .tc main_v72)
      = select (W (Proc.devRef .tc main_v71)) (W (Proc.devRef .tc main_v66))
          (broadcastInDim S64x64 ![] bcast_S_S64x64 (id (W (Proc.devRef .tc main_cst_16)))) := by
  after_results
  rfl

theorem stage4 (W : Valuation τ sig (Elt F)) :
    StableHlo.after hostOps1_4 W (Proc.devRef .tc main_v65)
      = takeAlong (W (Proc.devRef .tc main_v63)) (W (Proc.devRef .tc main_v64))
          (broadcastInDim S64x64 ![] bcast_S_S64x64 (constantI S_ 32 2147483648#32)) := by
  after_results_simp
  rfl

theorem stage5 (W : Valuation τ sig (Elt F)) :
    StableHlo.after hostOps1_5 W (Proc.devRef .tc main_v66)
      = takeAlong (W (Proc.devRef .tc main_v60)) (W (Proc.devRef .tc main_v64))
          (broadcastInDim S64x64 ![] bcast_S_S64x64 (constant S_ .f32 0x7FC00000#32)) := by
  after_results_simp
  rfl

theorem stage6 (W : Valuation τ sig (Elt F)) :
    StableHlo.after hostOps1_6 W (Proc.devRef .tc main_v71) = isFirst (W (Proc.devRef .tc main_v65)) := by
  simp only [StableHlo.after_cons, StableHlo.after_nil]
  rw [StableHlo.nullary_result_ne (h := (by decide : main_v71 ≠ main_cst_16)), StableHlo.binary_result]
  unfold isFirst
  refine concat_pair_congr _ _ ?_ ?_
  · results
  · results

theorem stage6_cst16 (W : Valuation τ sig (Elt F)) :
    StableHlo.after hostOps1_6 W (Proc.devRef .tc main_cst_16) = constant S_ .f32 0x00000000#32 := by
  after_results

/-! ## What each stretch leaves unchanged -/

theorem stage3_v60 (W : Valuation τ sig (Elt F)) :
    StableHlo.after hostOps1_3 W (Proc.devRef .tc main_v60) = W (Proc.devRef .tc main_v60) := by
  after_results

theorem stage3_v2 (W : Valuation τ sig (Elt F)) :
    StableHlo.after hostOps1_3 W (Proc.devRef .tc main_v2) = W (Proc.devRef .tc main_v2) := by
  after_results

theorem stage4_v64 (W : Valuation τ sig (Elt F)) :
    StableHlo.after hostOps1_4 W (Proc.devRef .tc main_v64) = W (Proc.devRef .tc main_v64) := by
  after_results

theorem stage4_v60 (W : Valuation τ sig (Elt F)) :
    StableHlo.after hostOps1_4 W (Proc.devRef .tc main_v60) = W (Proc.devRef .tc main_v60) := by
  after_results

theorem stage4_v2 (W : Valuation τ sig (Elt F)) :
    StableHlo.after hostOps1_4 W (Proc.devRef .tc main_v2) = W (Proc.devRef .tc main_v2) := by
  after_results

theorem stage5_v65 (W : Valuation τ sig (Elt F)) :
    StableHlo.after hostOps1_5 W (Proc.devRef .tc main_v65) = W (Proc.devRef .tc main_v65) := by
  after_results

theorem stage5_v2 (W : Valuation τ sig (Elt F)) :
    StableHlo.after hostOps1_5 W (Proc.devRef .tc main_v2) = W (Proc.devRef .tc main_v2) := by
  after_results

theorem stage6_v66 (W : Valuation τ sig (Elt F)) :
    StableHlo.after hostOps1_6 W (Proc.devRef .tc main_v66) = W (Proc.devRef .tc main_v66) := by
  after_results

theorem stage6_v2 (W : Valuation τ sig (Elt F)) :
    StableHlo.after hostOps1_6 W (Proc.devRef .tc main_v2) = W (Proc.devRef .tc main_v2) := by
  after_results

theorem stage7_v2 (W : Valuation τ sig (Elt F)) :
    StableHlo.after hostOps1_7 W (Proc.devRef .tc main_v2) = W (Proc.devRef .tc main_v2) := by
  after_results

/-! ## The tail -/

/-- From any contents `V`: after the six stretches the buffer of `%75` holds the quotient, by the program's constant, of
    the sum of what `V` holds at `%2` and the correction of what `V` holds at `%63` (the keys) and `%60` (the payload). -/
theorem tail_corr (V : Valuation τ sig (Elt F)) :
    StableHlo.after (hostOps1_3 ++ hostOps1_4 ++ hostOps1_5 ++ hostOps1_6 ++ hostOps1_7 ++ hostOps1_8) V
        (Proc.devRef .tc main_v75)
      = Host.divf (addf (V (Proc.devRef .tc main_v2))
          (corrChain (V (Proc.devRef .tc main_v63)) (V (Proc.devRef .tc main_v60))))
          (constant S_ .f32 0x4BA00000#32) := by
  simp only [StableHlo.after_append]
  rw [stage8, stage7_v2, stage6_v2, stage5_v2, stage4_v2, stage3_v2,
    stage7, stage6, stage6_v66, stage6_cst16, stage5, stage5_v65, stage4, stage4_v60, stage4_v64,
    stage3, stage3_v63, stage3_v60]
  rfl

end Cert.KernelIdeal.KV.TC

end
-- ==== Proof.KernelCls.lean ====
/-
  The kernel program's classification loss as an explicit quotient of sums.

  The program's second result is (the sum of the region's 64 row sums + the host correction) / (64 · 4096 · 80).
  The region leaves in row r the sum of the target-0 focal term over the 327680 logits of row r.  The host
  correction sorts each row's 64 hit keys pred · 80 + class, keeps the first of each run of equal keys and sums
  term1 − term0 of the hit logit over the kept positions; since the payload at a hit is a function of the row and
  of the key alone, that is the sum over each row's DISTINCT hit keys.  With real logits and the index arrays in
  range the result is therefore
      ( Σ_r Σ_j term0 (x r j)  +  Σ_b Σ_{k ∈ keys b} (term1 − term0) (x b k) ) / (64 · 4096 · 80),
  every term a real number read as an extended real.
-/
import proofs.«428731_j81046032875796_3_alg».proof.Proof.KernelIdealValue.HostPieces
import proofs.«428731_j81046032875796_3_alg».proof.Proof.KernelIdealValue.Correction
import proofs.«428731_j81046032875796_3_alg».proof.Proof.KernelIdealValue.Region
import proofs.«428731_j81046032875796_3_alg».proof.Proof.KernelIdealValue.Tail
import proofs.«428731_j81046032875796_3_alg».proof.Proof.KernelIdealValue.TailHead
import proofs.«428731_j81046032875796_3_alg».proof.Proof.KernelIdealValue.TailCorr
import proofs.«428731_j81046032875796_3_alg».proof.Proof.SumBridge
import Idealize.ShloMosaic.PureOps.Ideal.Laws
import Idealize.ShloMosaic.Lib.ValueIdx
import Idealize.ShloMosaic.Lib.IdealHost

set_option maxRecDepth 16384

noncomputable section

namespace Cert.KernelIdeal.KV

open Idealize.ShloMosaic Idealize.ShloMosaic.TcCoe Idealize.ShloMosaic.ValueIdx
open Idealize.ShloMosaic.Pipeline (Dat Cfg Window BodyObligation cellOf)
open Cert.KernelIdeal Cert.KernelIdeal.Gen Cert.KernelIdeal.KF
open scoped BigOperators

/-! ## The logits as reals, and the hit positions as indices -/

/-- The real value of the logit at (b, q, c). -/
def xre (a1 : FVec Ideal S64x4096x80 .f32) (b : Fin 64) (q : Fin 4096) (c : Fin 80) : ℝ := (a1 (ix3 b q c)).toReal

/-- The prediction index of hit m of row b, as an index of the 4096 predictions. -/
def pIdx (a4 : IVec S64x64 32) (h4 : ∀ j, 0 ≤ (a4 j).toInt ∧ (a4 j).toInt < 4096) (b m : Fin 64) : Fin 4096 :=
  ⟨(a4 (ix2 b m)).toInt.toNat, by have := h4 (ix2 b m); omega⟩

/-- The class index of hit m of row b, as an index of the 80 classes. -/
def cIdx (a3 a5 : IVec S64x64 32) (h3 : ∀ j, 0 ≤ (a3 j).toInt ∧ (a3 j).toInt < 80)
    (h5 : ∀ j, 0 ≤ (a5 j).toInt ∧ (a5 j).toInt < 64) (b m : Fin 64) : Fin 80 :=
  ⟨(clsIdx a3 a5 (ix2 b m)).toInt.toNat, by have := clsIdx_range a3 a5 h3 h5 (ix2 b m); omega⟩

/-- The class index of hit m of row b is the label at (b, gt[b, m]). -/
theorem cIdx_val (a3 a5 : IVec S64x64 32) (h3 : ∀ j, 0 ≤ (a3 j).toInt ∧ (a3 j).toInt < 80)
    (h5 : ∀ j, 0 ≤ (a5 j).toInt ∧ (a5 j).toInt < 64) (b m : Fin 64) :
    (cIdx a3 a5 h3 h5 b m).val
      = (a3 (ix2 b ⟨(a5 (ix2 b m)).toInt.toNat, by have := h5 (ix2 b m); omega⟩)).toInt.toNat := by
  show (clsIdx a3 a5 (ix2 b m)).toInt.toNat = _
  rw [clsIdx_apply a3 a5 h5 b m]

/-! ## The correction's payload and keys -/

/-- The payload at hit m of row b is the correction term1 − term0 of the row's logit at the hit's key. -/
theorem delta_hit (a1 : FVec Ideal S64x4096x80 .f32) (a3 a4 a5 : IVec S64x64 32)
    (h1 : ∀ j, ∃ r : ℝ, a1 j = (r : EReal))
    (h3 : ∀ j, 0 ≤ (a3 j).toInt ∧ (a3 j).toInt < 80) (h4 : ∀ j, 0 ≤ (a4 j).toInt ∧ (a4 j).toInt < 4096)
    (h5 : ∀ j, 0 ≤ (a5 j).toInt ∧ (a5 j).toInt < 64) (b m : Fin 64) :
    delta (xhit a1 a3 a4 a5) (ix2 b m)
      = ((Cert.Focal.corr (xre a1) b (key a4 (clsIdx a3 a5) (ix2 b m)).toNat : ℝ) : EReal) := by
  have hx : xhit a1 a3 a4 a5 (ix2 b m) = ((xre a1 b (pIdx a4 h4 b m) (cIdx a3 a5 h3 h5 b m) : ℝ) : EReal) := by
    rw [xhit_apply a1 a3 a4 a5 h3 h4 h5 b m]
    show a1 (ix3 b (pIdx a4 h4 b m) (cIdx a3 a5 h3 h5 b m)) = _
    obtain ⟨r, hr⟩ := h1 (ix3 b (pIdx a4 h4 b m) (cIdx a3 a5 h3 h5 b m))
    unfold xre
    rw [hr, EReal.toReal_coe]
  rw [delta_apply _ _ _ hx, key_toNat a4 (clsIdx a3 a5) (ix2 b m) (h4 _) (clsIdx_range a3 a5 h3 h5 _)]
  unfold Cert.Focal.corr
  rw [show (a4 (ix2 b m)).toInt.toNat * 80 + (clsIdx a3 a5 (ix2 b m)).toInt.toNat
      = (pIdx a4 h4 b m).val * 80 + (cIdx a3 a5 h3 h5 b m).val from rfl, Cert.Focal.xf_key]

/-- The keys of row b, read as natural numbers, are the row's distinct hit keys pred · 80 + class. -/
theorem keys_image (a3 a4 a5 : IVec S64x64 32)
    (h3 : ∀ j, 0 ≤ (a3 j).toInt ∧ (a3 j).toInt < 80) (h4 : ∀ j, 0 ≤ (a4 j).toInt ∧ (a4 j).toInt < 4096)
    (h5 : ∀ j, 0 ≤ (a5 j).toInt ∧ (a5 j).toInt < 64) (b : Fin 64) :
    (Finset.univ.image (fun m : Fin 64 => key a4 (clsIdx a3 a5) (ix2 b m))).image BitVec.toNat
      = Cert.Focal.keys (pIdx a4 h4) (cIdx a3 a5 h3 h5) b := by
  rw [Finset.image_image]
  unfold Cert.Focal.keys
  exact Finset.image_congr fun m _ =>
    key_toNat a4 (clsIdx a3 a5) (ix2 b m) (h4 _) (clsIdx_range a3 a5 h3 h5 _)

/-- A sum over the row's keys as 32-bit words is the sum over them as natural numbers: a word is determined by
    its value. -/
theorem sum_keys (a3 a4 a5 : IVec S64x64 32)
    (h3 : ∀ j, 0 ≤ (a3 j).toInt ∧ (a3 j).toInt < 80) (h4 : ∀ j, 0 ≤ (a4 j).toInt ∧ (a4 j).toInt < 4096)
    (h5 : ∀ j, 0 ≤ (a5 j).toInt ∧ (a5 j).toInt < 64) (f : ℕ → EReal) (b : Fin 64) :
    ∑ k ∈ Finset.univ.image (fun m : Fin 64 => key a4 (clsIdx a3 a5) (ix2 b m)), f k.toNat
      = ∑ k ∈ Cert.Focal.keys (pIdx a4 h4) (cIdx a3 a5 h3 h5) b, f k := by
  rw [← keys_image a3 a4 a5 h3 h4 h5 b, Finset.sum_image fun x _ y _ h => BitVec.eq_of_toNat_eq h]

/-- THE CORRECTION: the sum, over the rows, of term1 − term0 at each distinct hit key of the row. -/
theorem corr_value (a1 : FVec Ideal S64x4096x80 .f32) (a3 a4 a5 : IVec S64x64 32)
    (h1 : ∀ j, ∃ r : ℝ, a1 j = (r : EReal))
    (h3 : ∀ j, 0 ≤ (a3 j).toInt ∧ (a3 j).toInt < 80) (h4 : ∀ j, 0 ≤ (a4 j).toInt ∧ (a4 j).toInt < 4096)
    (h5 : ∀ j, 0 ≤ (a5 j).toInt ∧ (a5 j).toInt < 64) (i : S_.Idx) :
    corrChain (key a4 (clsIdx a3 a5)) (delta (xhit a1 a3 a4 a5)) i
      = ∑ b : Fin 64, ∑ k ∈ Cert.Focal.keys (pIdx a4 h4) (cIdx a3 a5 h3 h5) b,
          ((Cert.Focal.corr (xre a1) b k : ℝ) : EReal) := by
  rw [corrChain_value (key a4 (clsIdx a3 a5)) (delta (xhit a1 a3 a4 a5))
    (fun b k => ((Cert.Focal.corr (xre a1) b k.toNat : ℝ) : EReal))
    (fun b m => delta_hit a1 a3 a4 a5 h1 h3 h4 h5 b m) i]
  exact Finset.sum_congr rfl fun b _ =>
    sum_keys a3 a4 a5 h3 h4 h5 (fun k => ((Cert.Focal.corr (xre a1) b k : ℝ) : EReal)) b

/-! ## The classification loss -/

/-- The classification loss as the program composes it from the region's output array R: the sum of R plus the
    correction, divided by the number of elements. -/
def clsTerm (R : FVec Ideal S64x1 .f32) (a1 : FVec Ideal S64x4096x80 .f32) (a3 a4 a5 : IVec S64x64 32) :
    FVec Ideal S_ .f32 :=
  Host.divf
    (addf (Host.reduceAdd R (constant S_ .f32 0x00000000#32) reducesTo_S64x1_S_d0_1 h_S_)
      (corrChain (key a4 (clsIdx a3 a5)) (delta (xhit a1 a3 a4 a5))))
    (constant S_ .f32 0x4BA00000#32)

/-- Its value when R holds the row sums of the target-0 term: the quotient of (all target-0 terms plus the
    corrections at the distinct hit keys) by the constant divisor. -/
theorem clsTerm_value (R : FVec Ideal S64x1 .f32) (a1 : FVec Ideal S64x4096x80 .f32) (a3 a4 a5 : IVec S64x64 32)
    (h1 : ∀ j, ∃ r : ℝ, a1 j = (r : EReal))
    (h3 : ∀ j, 0 ≤ (a3 j).toInt ∧ (a3 j).toInt < 80) (h4 : ∀ j, 0 ≤ (a4 j).toInt ∧ (a4 j).toInt < 4096)
    (h5 : ∀ j, 0 ≤ (a5 j).toInt ∧ (a5 j).toInt < 64)
    (hR : R = fun i : S64x1.Idx => ∑ j : Fin 327680, ((Cert.Focal.flat0 (xre a1) (i 0) j : ℝ) : EReal)) :
    clsTerm R a1 a3 a4 a5 = fun _ =>
      Ideal.div
        ((∑ r : S64x1.Idx, ∑ j : Fin 327680, ((Cert.Focal.flat0 (xre a1) (r 0) j : ℝ) : EReal))
          + ∑ b : Fin 64, ∑ k ∈ Cert.Focal.keys (pIdx a4 h4) (cIdx a3 a5 h3 h5) b,
              ((Cert.Focal.corr (xre a1) b k : ℝ) : EReal))
        (Ideal.ofBits .f32 0x4BA00000#32) := by
  funext i
  show Ideal.div (Ideal.hostReduceAdd reducesTo_S64x1_S_d0_1 R (Ideal.ofBits .f32 0x00000000#32) i
      + corrChain (key a4 (clsIdx a3 a5)) (delta (xhit a1 a3 a4 a5)) i) (Ideal.ofBits .f32 0x4BA00000#32) = _
  rw [Ideal.hostReduceAdd_total _ (fun b => b.elim0), Ideal.ofBits_zero_f32, zero_add,
    corr_value a1 a3 a4 a5 h1 h3 h4 h5 i, hR]

/-! ## The program's classification loss -/

variable (m : (ℓ : Loc nD τ sig) → Buf (Elt Ideal) ℓ)

/-- The logits, labels, prediction indices and ground-truth indices core `c` is launched with. -/
abbrev lgts (c : Dev nD) : FVec Ideal S64x4096x80 .f32 := m ((c.tc : Thread nD τ).loc main_arg1)
abbrev lbls (c : Dev nD) : IVec S64x64 32 := m ((c.tc : Thread nD τ).loc main_arg3)
abbrev prds (c : Dev nD) : IVec S64x64 32 := m ((c.tc : Thread nD τ).loc main_arg4)
abbrev gtis (c : Dev nD) : IVec S64x64 32 := m ((c.tc : Thread nD τ).loc main_arg5)

/-- The host operations that follow the region leave, at the classification loss, the composition above of the
    region's output array and the argument arrays: the first block of operations computes the sum of the row
    sums, the keys and the payload, the second the correction and the quotient. -/
theorem tail_cls (c : Dev nD) :
    Pipeline.afterTail₀ cfgs (dats m) 0 (V0 m) tailOpss c main_v75
      = clsTerm ((dats m 0 c).arrAt 1 cfg0.N) (lgts m c) (lbls m c) (prds m c) (gtis m c) :=
  T.tail_v75_of_stages (F := Ideal) m
    (g2 := fun R : FVec Ideal S64x1 .f32 =>
      (Host.reduceAdd R (constant S_ .f32 0x00000000#32) reducesTo_S64x1_S_d0_1 h_S_ : FVec Ideal S_ .f32))
    (g63 := fun a3 a4 a5 => key a4 (clsIdx a3 a5))
    (g60 := fun a1 a3 a4 a5 => delta (xhit a1 a3 a4 a5))
    (gB := fun (s : FVec Ideal S_ .f32) (k : IVec S64x64 32) (d : FVec Ideal S64x64 .f32) =>
      (Host.divf (addf s (corrChain k d)) (constant S_ .f32 0x4BA00000#32) : FVec Ideal S_ .f32))
    TH.head_v2 TH.head_v63 TH.head_v60 TC.tail_corr c

/-- THE KERNEL PROGRAM'S CLASSIFICATION LOSS: with real logits and the three index arrays in range, the sum of
    the target-0 term over every logit plus the correction term1 − term0 at each distinct hit key of each row,
    divided by the constant divisor. -/
theorem kernel_cls (c : Dev nD)
    (h1 : ∀ j, ∃ r : ℝ, lgts m c j = (r : EReal))
    (h3 : ∀ j, 0 ≤ (lbls m c j).toInt ∧ (lbls m c j).toInt < 80)
    (h4 : ∀ j, 0 ≤ (prds m c j).toInt ∧ (prds m c j).toInt < 4096)
    (h5 : ∀ j, 0 ≤ (gtis m c j).toInt ∧ (gtis m c j).toInt < 64) :
    Pipeline.afterTail₀ cfgs (dats m) 0 (V0 m) tailOpss c main_v75 = fun _ =>
      Ideal.div
        ((∑ r : S64x1.Idx, ∑ j : Fin 327680, ((Cert.Focal.flat0 (xre (lgts m c)) (r 0) j : ℝ) : EReal))
          + ∑ b : Fin 64, ∑ k ∈ Cert.Focal.keys (pIdx (prds m c) h4) (cIdx (lbls m c) (gtis m c) h3 h5) b,
              ((Cert.Focal.corr (xre (lgts m c)) b k : ℝ) : EReal))
        (Ideal.ofBits .f32 0x4BA00000#32) :=
  (tail_cls m c).trans
    (clsTerm_value _ (lgts m c) (lbls m c) (prds m c) (gtis m c) h1 h3 h4 h5 (final_apply m c h1))

end Cert.KernelIdeal.KV

end
-- ==== Proof.ScatterOnes.lean ====
/-
  A scatter that writes one constant, read at an index.

  `Host.scatter d (fun _ b => b) x idx (fun _ => v)` folds over the update indices in row-major order; each
  update whose result index is inside the operand replaces the element there by `v`.  Since every update
  writes the same value, the order does not matter: the result at `i` is `v` as soon as SOME update index
  lands on `i`, and `x i` otherwise.

  For the dimension numbers of this program (operand 64×4096×80, scatter indices 64×64×3 with the index
  vector on the last axis, every operand axis an inserted window axis, updates 64×64) the update index
  `(b, m)` lands on the operand index whose three coordinates are the three words `idx[b, m, ·]`, read
  signed, when each of them is inside its axis.
-/
import proofs.«428731_j81046032875796_3_alg».proof.ReferenceIdeal
import Idealize.ShloMosaic.Lib.ValueIdx

noncomputable section

namespace Cert.ReferenceIdeal.Scat

open Idealize.ShloMosaic Idealize.ShloMosaic.ValueIdx
open Cert.ReferenceIdeal

/-! ## Any dimension numbers: a constant update -/

open Classical in
/-- The scatter's fold over ANY list `l` of update positions, started from `r`: at `i` it is `v` when some
    position of `l` has result index `i`, and `r i` otherwise.  By induction on `l`: the first step writes
    `v` at its own result index and leaves the other elements, and a later step that lands on `i` writes `v`
    there whatever the element was. -/
private theorem foldl_const_apply {α : Type} {s si u : Shape} {w : Nat} (d : ScatterDims s si u)
    (idx : IVec si w) (v : α) (i : s.Idx) (l : List (Fin u.numel)) (r : s.Idx → α) :
    (l.foldl (fun r n =>
        match d.resultIdx? (u.rowMajor.symm n) idx with
        | some i₀ => fun i' => if i' = i₀ then v else r i'
        | none => r) r) i =
      if ∃ n ∈ l, d.resultIdx? (u.rowMajor.symm n) idx = some i then v else r i := by
  induction l generalizing r with
  | nil => simp
  | cons n l ih =>
    rw [List.foldl_cons, ih]
    by_cases hl : ∃ m ∈ l, d.resultIdx? (u.rowMajor.symm m) idx = some i
    · obtain ⟨m, hm, h⟩ := hl
      rw [if_pos ⟨m, hm, h⟩, if_pos ⟨m, List.mem_cons_of_mem _ hm, h⟩]
    · rw [if_neg hl]
      by_cases hn : d.resultIdx? (u.rowMajor.symm n) idx = some i
      · rw [if_pos ⟨n, List.mem_cons_self, hn⟩, hn]
        exact if_pos rfl
      · have hno : ¬ ∃ m ∈ n :: l, d.resultIdx? (u.rowMajor.symm m) idx = some i := by
          rintro ⟨m, hm, h⟩
          rcases List.mem_cons.1 hm with rfl | hm
          · exact hn h
          · exact hl ⟨m, hm, h⟩
        rw [if_neg hno]
        cases hr : d.resultIdx? (u.rowMajor.symm n) idx with
        | none => rfl
        | some i₀ =>
          have hi : i ≠ i₀ := fun e => hn (by rw [hr, e])
          exact if_neg hi

/-- A scatter whose body returns the update and whose updates are all `v`: at `i` the result is `v` when
    some update index has result index `i`, and the operand's element otherwise. -/
theorem scatter_const_apply {α : Type} {s si u : Shape} {w : Nat} (d : ScatterDims s si u) (x : s.Idx → α)
    (idx : IVec si w) (v : α) (i : s.Idx) [Decidable (∃ j : u.Idx, d.resultIdx? j idx = some i)] :
    Host.scatter d (fun _ b => b) x idx (fun _ => v) i =
      if ∃ j : u.Idx, d.resultIdx? j idx = some i then v else x i := by
  -- every update index is the row-major image of one position of the list folded over
  have hiff : (∃ n ∈ List.finRange u.numel, d.resultIdx? (u.rowMajor.symm n) idx = some i) ↔
      ∃ j : u.Idx, d.resultIdx? j idx = some i := by
    constructor
    · rintro ⟨n, _, h⟩; exact ⟨_, h⟩
    · rintro ⟨j, h⟩
      exact ⟨u.rowMajor j, List.mem_finRange _, by rw [Equiv.symm_apply_apply]; exact h⟩
  refine Eq.trans (foldl_const_apply d idx v i (List.finRange u.numel) x) ?_
  by_cases hj : ∃ j : u.Idx, d.resultIdx? j idx = some i
  · rw [if_pos hj, if_pos (hiff.2 hj)]
  · rw [if_neg hj, if_neg (mt hiff.1 hj)]

/-! ## This program's dimension numbers -/

variable [Facts]

/-- This program's scatter dimension numbers, under a short name. -/
private abbrev D : ScatterDims S64x4096x80 S64x64x3 S64x64 := scatter_S64x4096x80_S64x64x3_S64x64_n_012_012_2

/-- Every operand axis is an inserted window axis, so none is kept for a window. -/
private theorem not_mem_sKept (a : Fin 3) : a ∉ D.sKept := by
  intro h
  have h2 : a ∉ D.insertedWindowDims := by simpa using (List.mem_filter.1 h).2
  exact h2 (show a ∈ ([0, 1, 2] : List (Fin 3)) by fin_cases a <;> simp)

/-- With no window axes the window coordinate is zero on every operand axis. -/
private theorem window_eq (u : S64x64.Idx) (a : Fin 3) : D.window u a = 0 := by
  unfold ScatterDims.window
  rw [dif_neg (not_mem_sKept a)]

/-- Every operand axis is named by the map from index-vector components to operand axes. -/
private theorem mem_sdto (a : Fin 3) : a ∈ D.scatterDimsToOperandDims := by
  show a ∈ ([0, 1, 2] : List (Fin 3))
  fin_cases a <;> simp

/-- The map is the identity, so the component for operand axis `a` is read at `[b, m, a]`: the update index's
    two coordinates on the scatter-index axes 0 and 1, and `a` on the index vector's axis 2. -/
private theorem siIdx_eq (u : S64x64.Idx) (a : Fin 3) (ha : a ∈ D.scatterDimsToOperandDims) :
    D.siIdx u ⟨D.scatterDimsToOperandDims.idxOf a, List.idxOf_lt_length_iff.2 ha⟩ = ix3 (u 0) (u 1) a := by
  funext b; refine Fin.ext ?_
  match b, a with
  | ⟨0, _⟩, _ => rfl
  | ⟨1, _⟩, _ => rfl
  | ⟨2, _⟩, ⟨0, _⟩ => rfl
  | ⟨2, _⟩, ⟨1, _⟩ => rfl
  | ⟨2, _⟩, ⟨2, _⟩ => rfl

/-- The window's start on operand axis `a` is the word `idx[b, m, a]`, read signed. -/
private theorem start_eq (idx : IVec S64x64x3 32) (u : S64x64.Idx) (a : Fin 3) :
    D.start u idx a = (idx (ix3 (u 0) (u 1) a)).toInt := by
  unfold ScatterDims.start
  rw [dif_pos (mem_sdto a), siIdx_eq u a (mem_sdto a)]
  rfl

/-- The result index of update index `u = (b, m)` when the three index words `idx[b, m, ·]` are each inside
    their axis (extents 64, 4096, 80): it is `i` exactly when `i`'s coordinates are those words. -/
theorem resultIdx?_eq_some_iff (idx : IVec S64x64x3 32) (u : S64x64.Idx) (i : S64x4096x80.Idx)
    (h : ∀ a : Fin 3, 0 ≤ (idx (ix3 (u 0) (u 1) a)).toInt ∧
      (idx (ix3 (u 0) (u 1) a)).toInt < ((S64x4096x80.size a : ℕ) : ℤ)) :
    scatter_S64x4096x80_S64x64x3_S64x64_n_012_012_2.resultIdx? u idx = some i ↔
      ∀ a : Fin 3, ((i a).val : ℕ) = (idx (ix3 (u 0) (u 1) a)).toInt.toNat := by
  -- start plus window coordinate is the index word itself, which is in range by hypothesis
  have hall : ∀ a : Fin 3, 0 ≤ D.start u idx a + D.window u a ∧
      D.start u idx a + D.window u a < S64x4096x80.size a := by
    intro a
    rw [start_eq, window_eq, Nat.cast_zero, add_zero]
    exact h a
  unfold ScatterDims.resultIdx?
  rw [dif_pos hall]
  constructor
  · intro e a
    have := congrFun (Option.some.inj e) a
    rw [← this]
    show (D.start u idx a + D.window u a).toNat = _
    rw [start_eq, window_eq, Nat.cast_zero, add_zero]
  · intro e
    congr 1
    funext a
    refine Fin.ext ?_
    show (D.start u idx a + D.window u a).toNat = _
    rw [start_eq, window_eq, Nat.cast_zero, add_zero, e a]

/-- The one-hot target read at an index: scattering the constant `v` into `x` at the index triples
    `idx[b, m, ·]`, all in range, gives `v` at `i` when some `(b, m)` has `idx[b, m, ·] = i`, and `x i`
    otherwise. -/
theorem scatter_target_apply {α : Type} (x : S64x4096x80.Idx → α) (idx : IVec S64x64x3 32) (v : α)
    (h : ∀ (u : S64x64.Idx) (a : Fin 3), 0 ≤ (idx (ix3 (u 0) (u 1) a)).toInt ∧
      (idx (ix3 (u 0) (u 1) a)).toInt < ((S64x4096x80.size a : ℕ) : ℤ))
    (i : S64x4096x80.Idx)
    [Decidable (∃ u : S64x64.Idx, ∀ a : Fin 3, ((i a).val : ℕ) = (idx (ix3 (u 0) (u 1) a)).toInt.toNat)] :
    Host.scatter scatter_S64x4096x80_S64x64x3_S64x64_n_012_012_2 (fun _ b => b) x idx (fun _ => v) i =
      if ∃ u : S64x64.Idx, ∀ a : Fin 3, ((i a).val : ℕ) = (idx (ix3 (u 0) (u 1) a)).toInt.toNat then v
      else x i := by
  classical
  have hiff : (∃ j : S64x64.Idx, D.resultIdx? j idx = some i) ↔
      ∃ u : S64x64.Idx, ∀ a : Fin 3, ((i a).val : ℕ) = (idx (ix3 (u 0) (u 1) a)).toInt.toNat := by
    constructor
    · rintro ⟨j, hj⟩; exact ⟨j, (resultIdx?_eq_some_iff idx j i (h j)).1 hj⟩
    · rintro ⟨j, hj⟩; exact ⟨j, (resultIdx?_eq_some_iff idx j i (h j)).2 hj⟩
  refine (scatter_const_apply D x idx v i).trans ?_
  by_cases hu : ∃ u : S64x64.Idx, ∀ a : Fin 3, ((i a).val : ℕ) = (idx (ix3 (u 0) (u 1) a)).toInt.toNat
  · rw [if_pos hu, if_pos (hiff.2 hu)]
  · rw [if_neg hu, if_neg (mt hiff.1 hu)]

/-- The same with the update index given by its two coordinates and the three conditions written out. -/
theorem scatter_target_apply' {α : Type} (x : S64x4096x80.Idx → α) (idx : IVec S64x64x3 32) (v : α)
    (h0 : ∀ b m : Fin 64, 0 ≤ (idx (ix3 b m 0)).toInt ∧ (idx (ix3 b m 0)).toInt < 64)
    (h1 : ∀ b m : Fin 64, 0 ≤ (idx (ix3 b m 1)).toInt ∧ (idx (ix3 b m 1)).toInt < 4096)
    (h2 : ∀ b m : Fin 64, 0 ≤ (idx (ix3 b m 2)).toInt ∧ (idx (ix3 b m 2)).toInt < 80)
    (i : S64x4096x80.Idx)
    [Decidable (∃ b m : Fin 64, ((i 0).val : ℕ) = (idx (ix3 b m 0)).toInt.toNat ∧
      ((i 1).val : ℕ) = (idx (ix3 b m 1)).toInt.toNat ∧ ((i 2).val : ℕ) = (idx (ix3 b m 2)).toInt.toNat)] :
    Host.scatter scatter_S64x4096x80_S64x64x3_S64x64_n_012_012_2 (fun _ b => b) x idx (fun _ => v) i =
      if ∃ b m : Fin 64, ((i 0).val : ℕ) = (idx (ix3 b m 0)).toInt.toNat ∧
        ((i 1).val : ℕ) = (idx (ix3 b m 1)).toInt.toNat ∧ ((i 2).val : ℕ) = (idx (ix3 b m 2)).toInt.toNat then v
      else x i := by
  classical
  have h : ∀ (u : S64x64.Idx) (a : Fin 3), 0 ≤ (idx (ix3 (u 0) (u 1) a)).toInt ∧
      (idx (ix3 (u 0) (u 1) a)).toInt < ((S64x4096x80.size a : ℕ) : ℤ) := by
    intro u a
    match a with
    | ⟨0, _⟩ => exact h0 (u 0) (u 1)
    | ⟨1, _⟩ => exact h1 (u 0) (u 1)
    | ⟨2, _⟩ => exact h2 (u 0) (u 1)
  have hiff : (∃ u : S64x64.Idx, ∀ a : Fin 3, ((i a).val : ℕ) = (idx (ix3 (u 0) (u 1) a)).toInt.toNat) ↔
      ∃ b m : Fin 64, ((i 0).val : ℕ) = (idx (ix3 b m 0)).toInt.toNat ∧
        ((i 1).val : ℕ) = (idx (ix3 b m 1)).toInt.toNat ∧ ((i 2).val : ℕ) = (idx (ix3 b m 2)).toInt.toNat := by
    constructor
    · rintro ⟨u, hu⟩; exact ⟨u 0, u 1, hu 0, hu 1, hu 2⟩
    · rintro ⟨b, m, e0, e1, e2⟩
      refine ⟨ix2 b m, fun a => ?_⟩
      match a with
      | ⟨0, _⟩ => exact e0
      | ⟨1, _⟩ => exact e1
      | ⟨2, _⟩ => exact e2
  refine (scatter_target_apply x idx v h i).trans ?_
  by_cases hbm : ∃ b m : Fin 64, ((i 0).val : ℕ) = (idx (ix3 b m 0)).toInt.toNat ∧
      ((i 1).val : ℕ) = (idx (ix3 b m 1)).toInt.toNat ∧ ((i 2).val : ℕ) = (idx (ix3 b m 2)).toInt.toNat
  · rw [if_pos hbm, if_pos (hiff.2 hbm)]
  · rw [if_neg hbm, if_neg (mt hiff.1 hbm)]

end Cert.ReferenceIdeal.Scat

end
-- ==== Proof.RefCls.lean ====
/-
  The reference's classification loss as one sum.

  The reference builds a one-hot target: zeros of shape 64×4096×80 with the word 1 written at
  `(b, pred[b, m], label[b, gt[b, m]])` for every match `m` of every row `b`.  The three index columns are the row
  number, the prediction index and the class index, each passed through "add the extent if negative", which keeps a
  word that is not negative; the class index is `take_along_axis` of the labels along the matched ground-truth
  boxes, whose in-range mask is all ones and whose gather reads row `b` at the (clamped) box index.  So the target
  at `i` is 1 exactly when some match of row `i₀` has prediction index `i₁` and class `i₂` (`Hit`), and 0 otherwise.

  The elementwise focal term of a real logit `r` and a target `t ∈ {0, 1}` stays in the reals at every operation,
  and is `term1 r` at `t = 1` and `term0 r` at `t = 0`.  The loss is the sum of that term over all elements,
  divided by the word of the element count.
-/
import proofs.«428731_j81046032875796_3_alg».proof.Proof.RefReadP
import proofs.«428731_j81046032875796_3_alg».proof.Proof.ScatterOnes
import proofs.«428731_j81046032875796_3_alg».proof.Proof.FocalReal
import Idealize.ShloMosaic.Lib.ValueIdx
import Idealize.ShloMosaic.Lib.ReduceAll
import Idealize.ShloMosaic.Lib.StableHlo.Predicate
import Idealize.ShloMosaic.Lib.Pipeline.Value
import Idealize.ShloMosaic.PureOps.Ideal.Laws

noncomputable section

namespace Cert.ReferenceIdeal.RefCls

open Idealize.ShloMosaic Idealize.ShloMosaic.ValueIdx
open Cert.ReferenceIdeal Cert.ReferenceIdeal.Gen

/-! ## The elementwise term on one extended real

The words of the constants, the operations of the extended-real instance at real arguments, and the printed
expression of one element as a function of the logit `x` and the target `T`. -/

/-- The word `0x3F800000` is the real `1`. -/
theorem word_one : Ideal.ofBits .f32 0x3F800000#32 = ((1 : ℝ) : EReal) := by
  simp [Ideal.ofBits, Ideal.ieee, -EReal.coe_mul]
  norm_num

/-- The word `0x00000000` is the real `0`. -/
theorem word_zero : Ideal.ofBits .f32 0x00000000#32 = ((0 : ℝ) : EReal) := by
  rw [Ideal.ofBits_zero_f32, EReal.coe_zero]

/-- The word `0x3E800000` is the real `1/4`. -/
theorem word_quarter : Ideal.ofBits .f32 0x3E800000#32 = ((1 / 4 : ℝ) : EReal) := by
  simp [Ideal.ofBits, Ideal.ieee, -EReal.coe_mul]
  norm_num

/-- The word `0x3F400000` is the real `3/4`. -/
theorem word_three_quarters : Ideal.ofBits .f32 0x3F400000#32 = ((3 / 4 : ℝ) : EReal) := by
  simp [Ideal.ofBits, Ideal.ieee, -EReal.coe_mul]
  norm_num

/-- The word `0x40000000` is the real `2`. -/
theorem word_two : Ideal.ofBits .f32 0x40000000#32 = ((2 : ℝ) : EReal) := by
  simp [Ideal.ofBits, Ideal.ieee, -EReal.coe_mul]
  norm_num

/-- The maximum of two reals is the real maximum. -/
theorem max_coe (a b : ℝ) : max (a : EReal) (b : EReal) = ((max a b : ℝ) : EReal) :=
  (EReal.coe_strictMono.monotone.map_max).symm

/-- The quotient of two reals with a nonzero denominator is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- `log1p` of a real above `-1` is the real logarithm of `1 + r`. -/
theorem log1p_coe {r : ℝ} (h : -1 < r) : Ideal.log1p (r : EReal) = ((Real.log (1 + r) : ℝ) : EReal) := by
  have h1 : (1 : EReal) + (r : EReal) = ((1 + r : ℝ) : EReal) := by
    rw [← EReal.coe_one, ← EReal.coe_add]
  have hpos : ¬ (1 + r ≤ 0) := by linarith
  rw [Ideal.log1p, h1, Ideal.log_coe, if_neg hpos]

/-- The printed expression of one element, as a function of the logit `x` and the target `T`:
    `(¼·T + ¾·(1 − T)) · (1 − (p·T + (1 − p)·(1 − T)))² · (max x 0 − x·T + log1p (exp (−|x|)))`, `p = 1 / (1 + exp (−x))`. -/
def refElem (x T : EReal) : EReal :=
  ((Ideal.ofBits .f32 0x3E800000#32 * T
        + Ideal.ofBits .f32 0x3F400000#32 * (Ideal.ofBits .f32 0x3F800000#32 - T))
      * Ideal.pow
          (Ideal.ofBits .f32 0x3F800000#32
            - (Ideal.div (Ideal.ofBits .f32 0x3F800000#32) (Ideal.ofBits .f32 0x3F800000#32 + Ideal.exp (-x)) * T
              + (Ideal.ofBits .f32 0x3F800000#32
                  - Ideal.div (Ideal.ofBits .f32 0x3F800000#32) (Ideal.ofBits .f32 0x3F800000#32 + Ideal.exp (-x)))
                * (Ideal.ofBits .f32 0x3F800000#32 - T)))
          (Ideal.ofBits .f32 0x40000000#32))
    * (max x (Ideal.ofBits .f32 0x00000000#32) - x * T + Ideal.log1p (Ideal.exp (-(max x (-x)))))

/-- The same expression over the reals. -/
def realElem (r t : ℝ) : ℝ :=
  ((1 / 4 * t + 3 / 4 * (1 - t))
      * (1 - (1 / (1 + Real.exp (-r)) * t + (1 - 1 / (1 + Real.exp (-r))) * (1 - t))) ^ (2 : ℝ))
    * (max r 0 - r * t + Real.log (1 + Real.exp (-|r|)))

/-- At a real logit and a real target every operation stays in the reals. -/
theorem refElem_coe (r t : ℝ) : refElem (r : EReal) (t : EReal) = ((realElem r t : ℝ) : EReal) := by
  have hden : (1 + Real.exp (-r) : ℝ) ≠ 0 := by have := Real.exp_pos (-r); linarith
  have hlog : (-1 : ℝ) < Real.exp (-|r|) := by have := Real.exp_pos (-|r|); linarith
  have hexp : ∀ s : ℝ, Ideal.exp ((s : ℝ) : EReal) = ((Real.exp s : ℝ) : EReal) := fun _ => rfl
  have hpow : ∀ a b : ℝ, Ideal.pow (a : EReal) (b : EReal) = ((a ^ b : ℝ) : EReal) := fun _ _ => rfl
  unfold refElem realElem
  rw [word_one, word_zero, word_quarter, word_three_quarters, word_two]
  rw [← EReal.coe_neg, hexp, ← EReal.coe_add, div_coe_coe 1 hden, max_coe r (-r), ← abs_eq_max_neg,
    ← EReal.coe_neg, hexp, log1p_coe hlog, max_coe]
  simp only [← EReal.coe_mul, ← EReal.coe_sub, ← EReal.coe_add, hpow]

/-- At target `0` the element is the real focal term `term0`. -/
theorem realElem_zero (r : ℝ) : realElem r 0 = Cert.Focal.term0 r := by
  unfold realElem Cert.Focal.term0 Cert.Focal.sgm Cert.Focal.lse
  rw [Real.rpow_two]
  ring

/-- At target `1` the element is the real focal term `term1`. -/
theorem realElem_one (r : ℝ) : realElem r 1 = Cert.Focal.term1 r := by
  unfold realElem Cert.Focal.term1 Cert.Focal.sgm Cert.Focal.lse
  rw [Real.rpow_two]
  ring

/-! ## Which elements of the target are set -/

/-- The ground-truth box matched to prediction slot `(b, m)`, clamped into `[0, 63]` as the gather clamps it. -/
def gtIdx (a5 : IVec S64x64 32) (b m : Fin 64) : Fin 64 := ⟨min (a5 (ix2 b m)).toInt.toNat 63, by omega⟩

/-- The class word of match `(b, m)`: the label of its ground-truth box. -/
def clsWord (a3 a5 : IVec S64x64 32) (b m : Fin 64) : BitVec 32 := a3 (ix2 b (gtIdx a5 b m))

/-- Element `(b, p, k)` of the target is set when some match `m` of row `b` has prediction index `p` and class `k`. -/
def Hit (a3 a4 a5 : IVec S64x64 32) (i : S64x4096x80.Idx) : Prop :=
  ∃ b m : Fin 64, (i 0).val = b.val ∧ (i 1).val = (a4 (ix2 b m)).toInt.toNat ∧
    (i 2).val = (clsWord a3 a5 b m).toInt.toNat

/-- In range, the clamp does nothing. -/
theorem gtIdx_val (a5 : IVec S64x64 32) (b m : Fin 64)
    (h : 0 ≤ (a5 (ix2 b m)).toInt ∧ (a5 (ix2 b m)).toInt < 64) :
    (gtIdx a5 b m).val = (a5 (ix2 b m)).toInt.toNat := by
  show min (a5 (ix2 b m)).toInt.toNat 63 = (a5 (ix2 b m)).toInt.toNat
  omega

/-- The row of a set element is its own first coordinate: only the match `m` is existential. -/
theorem hit_iff_row (a3 a4 a5 : IVec S64x64 32) (i : S64x4096x80.Idx) :
    Hit a3 a4 a5 i ↔ ∃ m : Fin 64, (i 1).val = (a4 (ix2 ⟨(i 0).val, (i 0).isLt⟩ m)).toInt.toNat ∧
      (i 2).val = (clsWord a3 a5 ⟨(i 0).val, (i 0).isLt⟩ m).toInt.toNat := by
  constructor
  · rintro ⟨b, m, e0, e1, e2⟩
    have hb : b = ⟨(i 0).val, (i 0).isLt⟩ := Fin.ext e0.symm
    subst hb
    exact ⟨m, e1, e2⟩
  · rintro ⟨m, e1, e2⟩
    exact ⟨⟨(i 0).val, (i 0).isLt⟩, m, rfl, e1, e2⟩

/-! ## Words: a signed test against zero, and the select it guards -/

/-- A word that is not negative fails the signed test `w < 0`. -/
theorem slt_zero_of_nonneg (w : BitVec 32) (h : 0 ≤ w.toInt) : IntOp.cmpi .slt w 0#32 = 0#1 := by
  apply eq_zero_of_ne_one
  rw [IntOp.cmpi_slt]
  have : (0#32 : BitVec 32).toInt = 0 := by decide
  omega

/-- "Add the extent if negative" keeps a word that is not negative. -/
theorem select_slt_zero (w y : BitVec 32) (h : 0 ≤ w.toInt) :
    Scalar.select (IntOp.cmpi .slt w 0#32) y w = w := by
  rw [slt_zero_of_nonneg w h, select_zero]

/-- A coordinate below 64 written as a 32-bit word reads back, signed, as itself. -/
theorem toInt_ofNat_fin64 (b : Fin 64) : (BitVec.ofNat 32 b.val).toInt = (b.val : ℤ) :=
  StableHlo.Predicate.toInt_ofNat_small b.val (by have := b.isLt; omega)

/-! ## The class index: `take_along_axis` of the labels along the matched ground-truth boxes -/

/-- A left fold by `and` from `1` over words that are all `1` is `1`. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, hl => by
    rw [List.foldl_cons]
    refine foldl_andi_ones f l _ ?_ (fun n hn => hl n (List.mem_cons_of_mem _ hn))
    exact IntOp.andi_eq_one.2 ⟨hi, hl a List.mem_cons_self⟩

/-- An `and`-reduction from `1` of a mask that is `1` everywhere is `1` everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_ones x _ _ (hi _) (fun n _ => hx n)

/-- The gather of `take_along_axis` at `(b, m)`: row `b` of the operand (the batching axis) at the column the start
    index `idxv[b, m, 0]` names, read signed and clamped into `[0, 63]`. -/
theorem take_apply (x3 : IVec S64x64 32) (idxv : IVec S64x64x1 32) (b m : Fin 64) :
    Host.gather gather_S64x64_S64x64x1_S64x64_n_1_0_0_1_2_11 x3 idxv (ix2 b m) =
      x3 (ix2 b ⟨min (idxv (ix3 b m 0)).toInt.toNat 63, by omega⟩) := by
  unfold Host.gather
  congr 1
  funext a
  refine Fin.ext ?_
  match a with
  | ⟨0, _⟩ =>
    show gather_S64x64_S64x64x1_S64x64_n_1_0_0_1_2_11.start (ix2 b m) idxv 0
      + gather_S64x64_S64x64x1_S64x64_n_1_0_0_1_2_11.batchCoord (ix2 b m) 0
      + gather_S64x64_S64x64x1_S64x64_n_1_0_0_1_2_11.offCoord (ix2 b m) 0 = b.val
    have hb : (0 : Fin 2) ∈ gather_S64x64_S64x64x1_S64x64_n_1_0_0_1_2_11.operandBatchingDims :=
      List.mem_singleton.mpr rfl
    rw [GatherDims.start_batching _ _ _ _ hb,
      GatherDims.offCoord_eq_zero _ _ _ (fun h => ((GatherDims.mem_sKept _ _).1 h).2 hb), Nat.zero_add, Nat.add_zero]
    unfold GatherDims.batchCoord
    rw [dif_pos hb]
    rfl
  | ⟨1, _⟩ =>
    show gather_S64x64_S64x64x1_S64x64_n_1_0_0_1_2_11.start (ix2 b m) idxv 1
      + gather_S64x64_S64x64x1_S64x64_n_1_0_0_1_2_11.batchCoord (ix2 b m) 1
      + gather_S64x64_S64x64x1_S64x64_n_1_0_0_1_2_11.offCoord (ix2 b m) 1 = min (idxv (ix3 b m 0)).toInt.toNat 63
    have hnb : (1 : Fin 2) ∉ gather_S64x64_S64x64x1_S64x64_n_1_0_0_1_2_11.operandBatchingDims := by decide
    have hc : (1 : Fin 2) ∈ gather_S64x64_S64x64x1_S64x64_n_1_0_0_1_2_11.collapsedSliceDims :=
      List.mem_singleton.mpr rfl
    have hs : (1 : Fin 2) ∈ gather_S64x64_S64x64x1_S64x64_n_1_0_0_1_2_11.startIndexMap :=
      List.mem_singleton.mpr rfl
    rw [GatherDims.batchCoord_eq_zero _ _ _ hnb,
      GatherDims.offCoord_eq_zero _ _ _ (fun h => ((GatherDims.mem_sKept _ _).1 h).1 hc)]
    simp only [Nat.add_zero]
    unfold GatherDims.start
    rw [dif_pos hs]
    have hsi : gather_S64x64_S64x64x1_S64x64_n_1_0_0_1_2_11.siIdx (ix2 b m)
        ⟨List.idxOf (1 : Fin 2) gather_S64x64_S64x64x1_S64x64_n_1_0_0_1_2_11.startIndexMap,
          List.idxOf_lt_length_iff.2 hs⟩ = ix3 b m 0 := by
      funext c; refine Fin.ext ?_
      match c with
      | ⟨0, _⟩ => rfl
      | ⟨1, _⟩ => rfl
      | ⟨2, _⟩ => rfl
    rw [hsi]
    rfl

/-- The start indices of the gather at `[b, m, 0]`: the matched box index itself, which is not negative. -/
theorem call0_v5_at (a5 : IVec S64x64 32) (b m : Fin 64) (h : 0 ≤ (a5 (ix2 b m)).toInt) :
    ReadP.val_main_call0_v5 (F := Ideal) a5 (ix3 b m (0 : Fin 1)) = a5 (ix2 b m) := by
  rw [ReadP.val_main_call0_v5_apply, ReadP.val_main_call0_v4_apply, ReadP.val_main_call0_v1_apply,
    ReadP.val_main_call0_v0_apply, ReadP.val_main_call0_c_apply]
  have e : ReadP.idx_main_call0_v5 (ix3 b m (0 : Fin 1)) = ix2 b m := by
    funext a; refine Fin.ext ?_
    match a with
    | ⟨0, _⟩ => show ((b.val * 64 + m.val) * 1 + 0) / 64 = b.val; have := m.isLt; omega
    | ⟨1, _⟩ => show ((b.val * 64 + m.val) * 1 + 0) % 64 = m.val; have := m.isLt; omega
  rw [e]
  exact select_slt_zero _ _ h

/-- The in-range mask of `take_along_axis` is `1` at every index: every matched box index lies in `[0, 63]`. -/
theorem call0_v11_one (a5 : IVec S64x64 32) (h5 : ∀ j, 0 ≤ (a5 j).toInt ∧ (a5 j).toInt < 64) (j : S64x64x1.Idx) :
    ReadP.val_main_call0_v11 (F := Ideal) a5 j = 1#1 := by
  rw [ReadP.val_main_call0_v11_apply, ReadP.val_main_call0_v7_apply, ReadP.val_main_call0_v10_apply,
    ReadP.val_main_call0_v6_apply, ReadP.val_main_call0_c_2_apply, ReadP.val_main_call0_v9_apply,
    ReadP.val_main_call0_v8_apply, ReadP.val_main_call0_c_1_apply, ReadP.val_main_call0_v5_apply,
    ReadP.val_main_call0_v4_apply, ReadP.val_main_call0_v1_apply, ReadP.val_main_call0_v0_apply,
    ReadP.val_main_call0_c_apply]
  have hj := h5 (ReadP.idx_main_call0_v5 j)
  rw [select_slt_zero _ _ hj.1]
  have z : (0#32 : BitVec 32).toInt = 0 := by decide
  have s : (63#32 : BitVec 32).toInt = 63 := by decide
  exact IntOp.andi_eq_one.2 ⟨IntOp.cmpi_sge.2 (by omega), IntOp.cmpi_sle.2 (by omega)⟩

/-- THE CLASS INDEX of match `(b, m)`: the label of its ground-truth box. -/
theorem cls_apply (a3 a5 : IVec S64x64 32) (h5 : ∀ j, 0 ≤ (a5 j).toInt ∧ (a5 j).toInt < 64) (b m : Fin 64) :
    ReadP.val_main_v2 (F := Ideal) a3 a5 (ix2 b m) = clsWord a3 a5 b m := by
  rw [ReadP.val_main_v2_apply]
  have hmask : ReadP.val_main_call0_v12 (F := Ideal) a5 (ix2 b m) = 1#1 := by
    unfold ReadP.val_main_call0_v12
    exact reduce_andi_ones _ _ _ _ (call0_v11_one a5 h5) (fun _ => rfl) _
  rw [hmask, select_one]
  unfold ReadP.val_main_call0_v13
  rw [take_apply]
  unfold clsWord gtIdx
  simp only [call0_v5_at a5 b m (h5 _).1]

/-! ## The three columns of the scatter indices -/

/-- Column 0 at `(b, m)`: the row number `b` (the iota, not negative, so "add 64 if negative" keeps it). -/
theorem col0_apply (b m : Fin 64) :
    ReadP.val_main_v20 (F := Ideal) (ix3 b m (0 : Fin 1)) = BitVec.ofNat 32 b.val := by
  rw [ReadP.val_main_v20_apply, ReadP.val_main_v19_apply, ReadP.val_main_v8_apply, ReadP.val_main_v5_apply,
    ReadP.val_main_v4_apply, ReadP.val_main_c_apply, ReadP.val_main_v1_apply, ReadP.val_main_v0_apply]
  show Scalar.select (IntOp.cmpi .slt (BitVec.ofNat 32 b.val) 0#32) _ (BitVec.ofNat 32 b.val) = BitVec.ofNat 32 b.val
  exact select_slt_zero _ _ (by rw [toInt_ofNat_fin64]; omega)

/-- Column 1 at `(b, m)`: the prediction index (not negative, so "add 4096 if negative" keeps it). -/
theorem col1_apply (a4 : IVec S64x64 32) (b m : Fin 64) (h : 0 ≤ (a4 (ix2 b m)).toInt) :
    ReadP.val_main_v21 (F := Ideal) a4 (ix3 b m (0 : Fin 1)) = a4 (ix2 b m) := by
  rw [ReadP.val_main_v21_apply, ReadP.val_main_v13_apply, ReadP.val_main_v10_apply, ReadP.val_main_v9_apply,
    ReadP.val_main_c_1_apply]
  have e : ReadP.idx_main_v21 (ix3 b m (0 : Fin 1)) = ix2 b m := by
    funext a; refine Fin.ext ?_
    match a with
    | ⟨0, _⟩ => rfl
    | ⟨1, _⟩ => rfl
  rw [e]
  exact select_slt_zero _ _ h

/-- Column 2 at `(b, m)`: the class index (not negative, so "add 80 if negative" keeps it). -/
theorem col2_apply (a3 a5 : IVec S64x64 32) (h3 : ∀ j, 0 ≤ (a3 j).toInt ∧ (a3 j).toInt < 80)
    (h5 : ∀ j, 0 ≤ (a5 j).toInt ∧ (a5 j).toInt < 64) (b m : Fin 64) :
    ReadP.val_main_v22 (F := Ideal) a3 a5 (ix3 b m (0 : Fin 1)) = clsWord a3 a5 b m := by
  rw [ReadP.val_main_v22_apply, ReadP.val_main_v18_apply, ReadP.val_main_v15_apply, ReadP.val_main_v14_apply,
    ReadP.val_main_c_3_apply]
  have e : ReadP.idx_main_v22 (ix3 b m (0 : Fin 1)) = ix2 b m := by
    funext a; refine Fin.ext ?_
    match a with
    | ⟨0, _⟩ => rfl
    | ⟨1, _⟩ => rfl
  rw [e, cls_apply a3 a5 h5 b m]
  exact select_slt_zero _ _ (h3 _).1

/-- The joined index array at `[b, m, 0]` is column 0. -/
theorem v23_at0 (a3 a4 a5 : IVec S64x64 32) (b m : Fin 64) :
    ReadP.val_main_v23 (F := Ideal) a3 a4 a5 (ix3 b m (0 : Fin 3)) = ReadP.val_main_v20 (F := Ideal) (ix3 b m (0 : Fin 1)) := by
  unfold ReadP.val_main_v23
  exact concatenate_apply_piece _ _ _ (ix3 b m (0 : Fin 3)) 0 (by show 0 < 3; omega) S64x64x1 _ rfl rfl 0 rfl (ix3 b m (0 : Fin 1))
    (fun c hc => by
      match c with
      | ⟨0, _⟩ => rfl
      | ⟨1, _⟩ => rfl
      | ⟨2, _⟩ => exact absurd rfl hc) rfl

/-- The joined index array at `[b, m, 1]` is column 1. -/
theorem v23_at1 (a3 a4 a5 : IVec S64x64 32) (b m : Fin 64) :
    ReadP.val_main_v23 (F := Ideal) a3 a4 a5 (ix3 b m (1 : Fin 3)) = ReadP.val_main_v21 (F := Ideal) a4 (ix3 b m (0 : Fin 1)) := by
  unfold ReadP.val_main_v23
  exact concatenate_apply_piece _ _ _ (ix3 b m (1 : Fin 3)) 1 (by show 1 < 3; omega) S64x64x1 _ rfl rfl 1 rfl (ix3 b m (0 : Fin 1))
    (fun c hc => by
      match c with
      | ⟨0, _⟩ => rfl
      | ⟨1, _⟩ => rfl
      | ⟨2, _⟩ => exact absurd rfl hc) rfl

/-- The joined index array at `[b, m, 2]` is column 2. -/
theorem v23_at2 (a3 a4 a5 : IVec S64x64 32) (b m : Fin 64) :
    ReadP.val_main_v23 (F := Ideal) a3 a4 a5 (ix3 b m (2 : Fin 3)) = ReadP.val_main_v22 (F := Ideal) a3 a5 (ix3 b m (0 : Fin 1)) := by
  unfold ReadP.val_main_v23
  exact concatenate_apply_piece _ _ _ (ix3 b m (2 : Fin 3)) 2 (by show 2 < 3; omega) S64x64x1 _ rfl rfl 2 rfl (ix3 b m (0 : Fin 1))
    (fun c hc => by
      match c with
      | ⟨0, _⟩ => rfl
      | ⟨1, _⟩ => rfl
      | ⟨2, _⟩ => exact absurd rfl hc) rfl

/-! ## The target, the elementwise term, and the sum -/

/-- THE TARGET AT AN INDEX: the word `1` where some match lands, the word `0` elsewhere. -/
theorem target_apply (a3 a4 a5 : IVec S64x64 32)
    (h3 : ∀ j, 0 ≤ (a3 j).toInt ∧ (a3 j).toInt < 80)
    (h4 : ∀ j, 0 ≤ (a4 j).toInt ∧ (a4 j).toInt < 4096)
    (h5 : ∀ j, 0 ≤ (a5 j).toInt ∧ (a5 j).toInt < 64)
    (i : S64x4096x80.Idx) [Decidable (Hit a3 a4 a5 i)] :
    ReadP.val_main_v25 (F := Ideal) a3 a4 a5 i = if Hit a3 a4 a5 i then ((1 : ℝ) : EReal) else ((0 : ℝ) : EReal) := by
  classical
  -- the three index words of match (b, m)
  have c0 : ∀ b m : Fin 64, ReadP.val_main_v23 (F := Ideal) a3 a4 a5 (ix3 b m (0 : Fin 3)) = BitVec.ofNat 32 b.val :=
    fun b m => (v23_at0 a3 a4 a5 b m).trans (col0_apply b m)
  have c1 : ∀ b m : Fin 64, ReadP.val_main_v23 (F := Ideal) a3 a4 a5 (ix3 b m (1 : Fin 3)) = a4 (ix2 b m) :=
    fun b m => (v23_at1 a3 a4 a5 b m).trans (col1_apply a4 b m (h4 _).1)
  have c2 : ∀ b m : Fin 64, ReadP.val_main_v23 (F := Ideal) a3 a4 a5 (ix3 b m (2 : Fin 3)) = clsWord a3 a5 b m :=
    fun b m => (v23_at2 a3 a4 a5 b m).trans (col2_apply a3 a5 h3 h5 b m)
  -- each inside its axis
  have r0 : ∀ b m : Fin 64, 0 ≤ (ReadP.val_main_v23 (F := Ideal) a3 a4 a5 (ix3 b m (0 : Fin 3))).toInt ∧
      (ReadP.val_main_v23 (F := Ideal) a3 a4 a5 (ix3 b m (0 : Fin 3))).toInt < 64 := fun b m => by
    rw [c0, toInt_ofNat_fin64]; have := b.isLt; omega
  have r1 : ∀ b m : Fin 64, 0 ≤ (ReadP.val_main_v23 (F := Ideal) a3 a4 a5 (ix3 b m (1 : Fin 3))).toInt ∧
      (ReadP.val_main_v23 (F := Ideal) a3 a4 a5 (ix3 b m (1 : Fin 3))).toInt < 4096 := fun b m => by
    rw [c1]; exact h4 _
  have r2 : ∀ b m : Fin 64, 0 ≤ (ReadP.val_main_v23 (F := Ideal) a3 a4 a5 (ix3 b m (2 : Fin 3))).toInt ∧
      (ReadP.val_main_v23 (F := Ideal) a3 a4 a5 (ix3 b m (2 : Fin 3))).toInt < 80 := fun b m => by
    rw [c2]; exact h3 _
  -- the updates are the constant word 1
  have hupd : ReadP.val_main_v24 (F := Ideal) = fun _ => Ideal.ofBits .f32 0x3F800000#32 := by
    funext j; rw [ReadP.val_main_v24_apply, ReadP.val_main_cst_5_apply]; rfl
  unfold ReadP.val_main_v25
  rw [hupd]
  refine (Scat.scatter_target_apply' _ _ _ r0 r1 r2 i).trans ?_
  have hiff : (∃ b m : Fin 64,
      ((i 0).val : ℕ) = (ReadP.val_main_v23 (F := Ideal) a3 a4 a5 (ix3 b m (0 : Fin 3))).toInt.toNat ∧
      ((i 1).val : ℕ) = (ReadP.val_main_v23 (F := Ideal) a3 a4 a5 (ix3 b m (1 : Fin 3))).toInt.toNat ∧
      ((i 2).val : ℕ) = (ReadP.val_main_v23 (F := Ideal) a3 a4 a5 (ix3 b m (2 : Fin 3))).toInt.toNat) ↔
      Hit a3 a4 a5 i := by
    unfold Hit
    constructor
    · rintro ⟨b, m, e0, e1, e2⟩
      refine ⟨b, m, ?_, ?_, ?_⟩
      · rw [e0, c0, toInt_ofNat_fin64, Int.toNat_natCast]
      · rw [e1, c1]
      · rw [e2, c2]
    · rintro ⟨b, m, e0, e1, e2⟩
      refine ⟨b, m, ?_, ?_, ?_⟩
      · rw [e0, c0, toInt_ofNat_fin64, Int.toNat_natCast]
      · rw [e1, c1]
      · rw [e2, c2]
  by_cases hH : Hit a3 a4 a5 i
  · rw [if_pos hH, if_pos (hiff.2 hH)]
    exact word_one
  · rw [if_neg hH, if_neg (mt hiff.1 hH), ReadP.val_main_v3_apply, ReadP.val_main_cst_apply]
    exact word_zero

/-- The elementwise term at an index is the printed expression of the logit and the target there. -/
theorem v60_eq_refElem (a1 : FVec Ideal S64x4096x80 .f32) (a3 a4 a5 : IVec S64x64 32) (i : S64x4096x80.Idx) :
    ReadP.val_main_v60 (F := Ideal) a1 a3 a4 a5 i = refElem (a1 i) (ReadP.val_main_v25 (F := Ideal) a3 a4 a5 i) := by
  rw [ReadP.val_main_v60_apply, ReadP.val_main_v59_apply, ReadP.val_main_v54_apply, ReadP.val_main_v49_apply,
    ReadP.val_main_v48_apply, ReadP.val_main_cst_11_apply, ReadP.val_main_v53_apply, ReadP.val_main_v52_apply,
    ReadP.val_main_cst_13_apply, ReadP.val_main_v51_apply, ReadP.val_main_v50_apply, ReadP.val_main_cst_12_apply,
    ReadP.val_main_v58_apply, ReadP.val_main_v57_apply, ReadP.val_main_cst_15_apply, ReadP.val_main_v56_apply,
    ReadP.val_main_v55_apply, ReadP.val_main_cst_14_apply, ReadP.val_main_v47_apply, ReadP.val_main_v41_apply,
    ReadP.val_main_v46_apply, ReadP.val_main_v43_apply, ReadP.val_main_v42_apply, ReadP.val_main_cst_9_apply,
    ReadP.val_main_v40_apply, ReadP.val_main_v39_apply, ReadP.val_main_cst_8_apply, ReadP.val_main_v38_apply,
    ReadP.val_main_v37_apply, ReadP.val_main_cst_7_apply, ReadP.val_main_v36_apply, ReadP.val_main_v35_apply,
    ReadP.val_main_v45_apply, ReadP.val_main_v44_apply, ReadP.val_main_cst_10_apply, ReadP.val_main_v34_apply,
    ReadP.val_main_v29_apply, ReadP.val_main_v27_apply, ReadP.val_main_v26_apply, ReadP.val_main_cst_6_apply,
    ReadP.val_main_v28_apply, ReadP.val_main_v33_apply, ReadP.val_main_v32_apply, ReadP.val_main_v31_apply,
    ReadP.val_main_v30_apply]
  rfl

/-- THE ELEMENTWISE TERM AT AN INDEX: the real focal term of the logit, at target 1 where a match lands and at
    target 0 elsewhere. -/
theorem term_apply (a1 : FVec Ideal S64x4096x80 .f32) (a3 a4 a5 : IVec S64x64 32)
    (h1 : ∀ j, ∃ r : ℝ, a1 j = (r : EReal))
    (h3 : ∀ j, 0 ≤ (a3 j).toInt ∧ (a3 j).toInt < 80)
    (h4 : ∀ j, 0 ≤ (a4 j).toInt ∧ (a4 j).toInt < 4096)
    (h5 : ∀ j, 0 ≤ (a5 j).toInt ∧ (a5 j).toInt < 64)
    (i : S64x4096x80.Idx) [Decidable (Hit a3 a4 a5 i)] :
    ReadP.val_main_v60 (F := Ideal) a1 a3 a4 a5 i =
      (((if Hit a3 a4 a5 i then Cert.Focal.term1 (a1 i).toReal else Cert.Focal.term0 (a1 i).toReal : ℝ)) : EReal) := by
  obtain ⟨r, hr⟩ := h1 i
  rw [v60_eq_refElem, target_apply a3 a4 a5 h3 h4 h5 i, hr, EReal.toReal_coe]
  by_cases hH : Hit a3 a4 a5 i
  · rw [if_pos hH, if_pos hH, refElem_coe, realElem_one]
  · rw [if_neg hH, if_neg hH, refElem_coe, realElem_zero]

/-- THE CLASSIFICATION LOSS AS ONE SUM: the sum over all elements of the real focal term, divided by the element
    count's word. -/
theorem val_main_v62_eq_sum (a1 : FVec Ideal S64x4096x80 .f32) (a3 a4 a5 : IVec S64x64 32)
    (h1 : ∀ j, ∃ r : ℝ, a1 j = (r : EReal))
    (h3 : ∀ j, 0 ≤ (a3 j).toInt ∧ (a3 j).toInt < 80)
    (h4 : ∀ j, 0 ≤ (a4 j).toInt ∧ (a4 j).toInt < 4096)
    (h5 : ∀ j, 0 ≤ (a5 j).toInt ∧ (a5 j).toInt < 64)
    [DecidablePred (Hit a3 a4 a5)] (i : S_.Idx) :
    ReadP.val_main_v62 (F := Ideal) a1 a3 a4 a5 i =
      Ideal.div (∑ j : S64x4096x80.Idx,
          (((if Hit a3 a4 a5 j then Cert.Focal.term1 (a1 j).toReal else Cert.Focal.term0 (a1 j).toReal : ℝ)) : EReal))
        (Ideal.ofBits .f32 0x4BA00000#32) := by
  rw [ReadP.val_main_v62_apply, ReadP.val_main_v61_apply, ReadP.val_main_cst_16_apply, ReadP.val_main_cst_17_apply,
    Ideal.hostDivf_def]
  simp only [Ideal.ofBits_def]
  rw [Ideal.ofBits_zero_f32, zero_add]
  exact congrArg (fun s => Ideal.div s (Ideal.ofBits .f32 0x4BA00000#32))
    (Finset.sum_congr rfl (fun j _ => term_apply a1 a3 a4 a5 h1 h3 h4 h5 j))

open Idealize.ShloMosaic.TcCoe Idealize.SL.Sem in
/-- The same over the run's memory: the four argument arrays read off the memory `m` at core `c`. -/
theorem val_main_v62_at_mem (m : (ℓ : Loc nD τ sig) → Buf (Elt Ideal) ℓ) (c : Dev nD)
    (h1 : ∀ j, ∃ r : ℝ, m ((c.tc : Thread nD τ).loc main_arg1) j = (r : EReal))
    (h3 : ∀ j, 0 ≤ (m ((c.tc : Thread nD τ).loc main_arg3) j).toInt ∧ (m ((c.tc : Thread nD τ).loc main_arg3) j).toInt < 80)
    (h4 : ∀ j, 0 ≤ (m ((c.tc : Thread nD τ).loc main_arg4) j).toInt ∧ (m ((c.tc : Thread nD τ).loc main_arg4) j).toInt < 4096)
    (h5 : ∀ j, 0 ≤ (m ((c.tc : Thread nD τ).loc main_arg5) j).toInt ∧ (m ((c.tc : Thread nD τ).loc main_arg5) j).toInt < 64)
    [DecidablePred (Hit (m ((c.tc : Thread nD τ).loc main_arg3)) (m ((c.tc : Thread nD τ).loc main_arg4))
      (m ((c.tc : Thread nD τ).loc main_arg5)))] (i : S_.Idx) :
    ReadP.val_main_v62 (F := Ideal) (m ((c.tc : Thread nD τ).loc main_arg1)) (m ((c.tc : Thread nD τ).loc main_arg3))
        (m ((c.tc : Thread nD τ).loc main_arg4)) (m ((c.tc : Thread nD τ).loc main_arg5)) i =
      Ideal.div (∑ j : S64x4096x80.Idx,
          (((if Hit (m ((c.tc : Thread nD τ).loc main_arg3)) (m ((c.tc : Thread nD τ).loc main_arg4))
                (m ((c.tc : Thread nD τ).loc main_arg5)) j
              then Cert.Focal.term1 (m ((c.tc : Thread nD τ).loc main_arg1) j).toReal
              else Cert.Focal.term0 (m ((c.tc : Thread nD τ).loc main_arg1) j).toReal : ℝ)) : EReal))
        (Ideal.ofBits .f32 0x4BA00000#32) :=
  val_main_v62_eq_sum _ _ _ _ h1 h3 h4 h5 i

end Cert.ReferenceIdeal.RefCls

end
-- ==== Proof.ClsBridge.lean ====
/-
  The two classification losses agree.

  Both programs end their classification loss with one quotient by the same constant.  The reference's numerator
  is the sum, over every entry (b, q, c) of the logits, of the focal term against the scattered one-hot target: term1
  where (q, c) is one of row b's hit positions (pred[b, m], label[b, gt[b, m]]), term0 elsewhere.  The kernel's
  numerator is the sum of term0 over every entry plus, for each row, the correction term1 − term0 at each distinct
  hit key pred · 80 + label.  The hit predicate of the reference (stated with the ground-truth index clamped to 63)
  and the kernel's (stated with the gathered class word) are the same under the index ranges, so the numerators are
  the two sides of the sum identity of the hit positions.
-/
import proofs.«428731_j81046032875796_3_alg».proof.Defs
import proofs.«428731_j81046032875796_3_alg».proof.Proof.Gen.KernelIdeal
import proofs.«428731_j81046032875796_3_alg».proof.Proof.Gen.ReferenceIdeal
import proofs.«428731_j81046032875796_3_alg».proof.Proof.Gen.Pre_finite_inputs
import proofs.«428731_j81046032875796_3_alg».proof.Proof.SumBridge
import proofs.«428731_j81046032875796_3_alg».proof.Proof.PreDecode
import proofs.«428731_j81046032875796_3_alg».proof.Proof.KernelCls
import proofs.«428731_j81046032875796_3_alg».proof.Proof.RefReadP
import proofs.«428731_j81046032875796_3_alg».proof.Proof.RefCls
import Idealize.ShloMosaic.Lib.ValueIdx
import Idealize.ShloMosaic.PureOps.Ideal

noncomputable section

open scoped BigOperators

namespace Cert.ClsBridge

open Idealize.ShloMosaic Idealize.ShloMosaic.ValueIdx Idealize.ShloMosaic.TcCoe Idealize.SL.Sem
open Cert.Focal

/-- The index sets of the logits [64, 4096, 80], of the index arrays [64, 64], and of a column [64, 1]. -/
abbrev I3 : Type := (⟨3, ![64, 4096, 80]⟩ : Shape).Idx
abbrev I2 : Type := (⟨2, ![64, 64]⟩ : Shape).Idx
abbrev IC : Type := (⟨2, ![64, 1]⟩ : Shape).Idx

/-- The reference's hit predicate and the kernel's agree: entry i is a hit of the reference (some (b, m) with
    i = (b, pred[b, m], label[b, gt[b, m]]), gt clamped to 63) exactly when (i 1, i 2) is one of row (i 0)'s
    (prediction index, class index) pairs. -/
theorem hit_iff (a3 a4 a5 cw : I2 → BitVec 32)
    (h5 : ∀ j, 0 ≤ (a5 j).toInt ∧ (a5 j).toInt < 64)
    (hcw : ∀ b m g : Fin 64, g.val = (a5 (ix2 b m)).toInt.toNat → cw (ix2 b m) = a3 (ix2 b g))
    (pi : Fin 64 → Fin 64 → Fin 4096) (hpi : ∀ b m, (pi b m).val = (a4 (ix2 b m)).toInt.toNat)
    (ci : Fin 64 → Fin 64 → Fin 80) (hci : ∀ b m, (ci b m).val = (cw (ix2 b m)).toInt.toNat)
    (gt : Fin 64 → Fin 64 → Fin 64) (hgt : ∀ b m, (gt b m).val = min (a5 (ix2 b m)).toInt.toNat 63)
    (b : Fin 64) (q : Fin 4096) (c : Fin 80) :
    (∃ b' m : Fin 64, b.val = b'.val ∧ q.val = (a4 (ix2 b' m)).toInt.toNat
        ∧ c.val = (a3 (ix2 b' (gt b' m))).toInt.toNat)
      ↔ ∃ m, pi b m = q ∧ ci b m = c := by
  -- in range the clamp to 63 does nothing
  have hg : ∀ b m : Fin 64, (gt b m).val = (a5 (ix2 b m)).toInt.toNat := by
    intro b m
    have := h5 (ix2 b m)
    rw [hgt]
    omega
  constructor
  · rintro ⟨b', m, hb, hq, hc⟩
    have hbb : b = b' := Fin.ext hb
    subst hbb
    refine ⟨m, Fin.ext ?_, Fin.ext ?_⟩
    · rw [hpi, hq]
    · rw [hci, hcw b m (gt b m) (hg b m), hc]
  · rintro ⟨m, rfl, rfl⟩
    exact ⟨b, m, rfl, hpi b m, by rw [hci, hcw b m (gt b m) (hg b m)]⟩

/-- THE NUMERATORS AGREE. -/
theorem num_eq (a1 : I3 → EReal) (a3 a4 a5 cw : I2 → BitVec 32)
    (h5 : ∀ j, 0 ≤ (a5 j).toInt ∧ (a5 j).toInt < 64)
    (hcw : ∀ b m g : Fin 64, g.val = (a5 (ix2 b m)).toInt.toNat → cw (ix2 b m) = a3 (ix2 b g))
    (x : Fin 64 → Fin 4096 → Fin 80 → ℝ) (hx : ∀ b q c, x b q c = (a1 (ix3 b q c)).toReal)
    (pi : Fin 64 → Fin 64 → Fin 4096) (hpi : ∀ b m, (pi b m).val = (a4 (ix2 b m)).toInt.toNat)
    (ci : Fin 64 → Fin 64 → Fin 80) (hci : ∀ b m, (ci b m).val = (cw (ix2 b m)).toInt.toNat)
    (gt : Fin 64 → Fin 64 → Fin 64) (hgt : ∀ b m, (gt b m).val = min (a5 (ix2 b m)).toInt.toNat 63)
    (Hit : I3 → Prop) [DecidablePred Hit]
    (hHit : ∀ i : I3, Hit i ↔ ∃ b m : Fin 64, (i 0).val = b.val ∧ (i 1).val = (a4 (ix2 b m)).toInt.toNat
        ∧ (i 2).val = (a3 (ix2 b (gt b m))).toInt.toNat) :
    ∑ j : I3, ((if Hit j then term1 (a1 j).toReal else term0 (a1 j).toReal : ℝ) : EReal)
      = (∑ r : IC, ∑ j : Fin 327680, ((flat0 x (r 0) j : ℝ) : EReal))
        + ∑ b : Fin 64, ∑ k ∈ keys pi ci b, ((corr x b k : ℝ) : EReal) := by
  classical
  have hsum := sum_bridge_idx x pi ci (fun b q c => ∃ m, pi b m = q ∧ ci b m = c) (fun _ _ _ => Iff.rfl)
  rw [sum_idxCol_coord (fun b => ∑ k ∈ keys pi ci b, ((corr x b k : ℝ) : EReal))] at hsum
  rw [← hsum]
  refine Finset.sum_congr rfl fun j _ => ?_
  refine congrArg (fun r : ℝ => (r : EReal)) ?_
  -- the entry's logit, and its hit test, in coordinates
  have hj : (a1 j).toReal = x (j 0) (j 1) (j 2) :=
    (congrArg (fun i => (a1 i).toReal) (eq_ix3 j)).trans (hx (j 0) (j 1) (j 2)).symm
  have hH : Hit j ↔ ∃ m, pi (j 0) m = j 1 ∧ ci (j 0) m = j 2 :=
    (hHit j).trans (hit_iff a3 a4 a5 cw h5 hcw pi hpi ci hci gt hgt (j 0) (j 1) (j 2))
  unfold mix
  rw [hj]
  by_cases h : Hit j
  · rw [if_pos h, if_pos (hH.1 h)]
  · rw [if_neg h, if_neg (mt hH.2 h)]

/-- THE JOIN, over abstract arrays: the kernel's result K over the arrays a1 a3 a4 a5 and the reference's result R
    over equal arrays a1' a3' a4' a5', each the quotient of its numerator by the same divisor, are equal. -/
theorem cls_eq_of (a1 a1' : I3 → EReal) (a3 a4 a5 a3' a4' a5' cw : I2 → BitVec 32)
    (e1 : a1' = a1) (e3 : a3' = a3) (e4 : a4' = a4) (e5 : a5' = a5)
    (h5 : ∀ j, 0 ≤ (a5 j).toInt ∧ (a5 j).toInt < 64)
    (hcw : ∀ b m g : Fin 64, g.val = (a5 (ix2 b m)).toInt.toNat → cw (ix2 b m) = a3 (ix2 b g))
    (x : Fin 64 → Fin 4096 → Fin 80 → ℝ) (hx : ∀ b q c, x b q c = (a1 (ix3 b q c)).toReal)
    (pi : Fin 64 → Fin 64 → Fin 4096) (hpi : ∀ b m, (pi b m).val = (a4 (ix2 b m)).toInt.toNat)
    (ci : Fin 64 → Fin 64 → Fin 80) (hci : ∀ b m, (ci b m).val = (cw (ix2 b m)).toInt.toNat)
    (gt : Fin 64 → Fin 64 → Fin 64) (hgt : ∀ b m, (gt b m).val = min (a5' (ix2 b m)).toInt.toNat 63)
    (Hit : I3 → Prop) [DecidablePred Hit]
    (hHit : ∀ i : I3, Hit i ↔ ∃ b m : Fin 64, (i 0).val = b.val ∧ (i 1).val = (a4' (ix2 b m)).toInt.toNat
        ∧ (i 2).val = (a3' (ix2 b (gt b m))).toInt.toNat)
    (D : EReal) (K R : (⟨0, ![]⟩ : Shape).Idx → EReal)
    (hK : K = fun _ => Ideal.div ((∑ r : IC, ∑ j : Fin 327680, ((flat0 x (r 0) j : ℝ) : EReal))
        + ∑ b : Fin 64, ∑ k ∈ keys pi ci b, ((corr x b k : ℝ) : EReal)) D)
    (hR : ∀ i, R i = Ideal.div
        (∑ j : I3, ((if Hit j then term1 (a1' j).toReal else term0 (a1' j).toReal : ℝ) : EReal)) D) :
    K = R := by
  subst e1 e3 e4 e5
  rw [hK]
  funext i
  rw [hR i, num_eq a1' a3' a4' a5' cw h5 hcw x hx pi hpi ci hci gt hgt Hit hHit]

/-! ## The two programs -/

/-- THE CLASSIFICATION LOSSES AGREE: from memories that agree on the arguments, under the precondition, the kernel
    program's second result is the reference's (its classification-loss stage at the reference's argument arrays). -/
theorem cls_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    Pipeline.afterTail₀ Cert.KernelIdeal.cfgs (Cert.KernelIdeal.KF.dats m) 0 (Cert.KernelIdeal.KF.V0 m)
        Cert.KernelIdeal.KF.tailOpss c Cert.KernelIdeal.main_v75
      = Cert.ReferenceIdeal.ReadP.val_main_v62 (F := Ideal)
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  classical
  -- the precondition, decoded at core c
  obtain ⟨-, h1, -, h3, h4, h5⟩ := Cert.Pre_finite_inputs.Decode.pre_decode _ _ _ _ _ _ (hpre c)
  obtain ⟨-, e1, -, e3, e4, e5⟩ := hagree c
  -- the same facts about the reference's arrays
  have h1' : ∀ j, ∃ r : ℝ, m' ((c.tc : Thread Cert.ReferenceIdeal.nD Cert.ReferenceIdeal.τ).loc Cert.ReferenceIdeal.main_arg1) j = (r : EReal) := by
    rw [e1]; exact h1
  have h3' : ∀ j, 0 ≤ (m' ((c.tc : Thread Cert.ReferenceIdeal.nD Cert.ReferenceIdeal.τ).loc Cert.ReferenceIdeal.main_arg3) j).toInt
      ∧ (m' ((c.tc : Thread Cert.ReferenceIdeal.nD Cert.ReferenceIdeal.τ).loc Cert.ReferenceIdeal.main_arg3) j).toInt < 80 := by
    rw [e3]; exact h3
  have h4' : ∀ j, 0 ≤ (m' ((c.tc : Thread Cert.ReferenceIdeal.nD Cert.ReferenceIdeal.τ).loc Cert.ReferenceIdeal.main_arg4) j).toInt
      ∧ (m' ((c.tc : Thread Cert.ReferenceIdeal.nD Cert.ReferenceIdeal.τ).loc Cert.ReferenceIdeal.main_arg4) j).toInt < 4096 := by
    rw [e4]; exact h4
  have h5' : ∀ j, 0 ≤ (m' ((c.tc : Thread Cert.ReferenceIdeal.nD Cert.ReferenceIdeal.τ).loc Cert.ReferenceIdeal.main_arg5) j).toInt
      ∧ (m' ((c.tc : Thread Cert.ReferenceIdeal.nD Cert.ReferenceIdeal.τ).loc Cert.ReferenceIdeal.main_arg5) j).toInt < 64 := by
    rw [e5]; exact h5
  exact cls_eq_of
    (m ((c.tc : Thread Cert.KernelIdeal.nD Cert.KernelIdeal.τ).loc Cert.KernelIdeal.main_arg1))
    (m' ((c.tc : Thread Cert.ReferenceIdeal.nD Cert.ReferenceIdeal.τ).loc Cert.ReferenceIdeal.main_arg1))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (Cert.KernelIdeal.KV.clsIdx
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)))
    e1 e3 e4 e5 h5
    (fun b k g hg => (Cert.KernelIdeal.KV.clsIdx_apply _ _ h5 b k).trans
      (congrArg (fun g' => m ((c.tc : Thread Cert.KernelIdeal.nD Cert.KernelIdeal.τ).loc Cert.KernelIdeal.main_arg3) (ix2 b g'))
        (Fin.ext hg.symm)))
    (Cert.KernelIdeal.KV.xre _) (fun _ _ _ => rfl)
    (Cert.KernelIdeal.KV.pIdx _ h4) (fun _ _ => rfl)
    (Cert.KernelIdeal.KV.cIdx _ _ h3 h5) (fun _ _ => rfl)
    (Cert.ReferenceIdeal.RefCls.gtIdx _) (fun _ _ => rfl)
    (Cert.ReferenceIdeal.RefCls.Hit _ _ _) (fun _ => Iff.rfl)
    (Ideal.ofBits .f32 0x4BA00000#32) _ _
    (Cert.KernelIdeal.KV.kernel_cls m c h1 h3 h4 h5)
    (fun i => Cert.ReferenceIdeal.RefCls.val_main_v62_at_mem m' c h1' h3' h4' h5' i)

end Cert.ClsBridge

end
-- ==== Proof.Claims.lean ====
/-
  The five claims.

  Frames: the two kernel programs run to the end without a fault and leave their six argument arrays unchanged — the
  hand-written frame, at words and at extended reals —; the reference's frame is its run with the results dropped.
  The idealization rewrote nothing, so `preserves` has no conjunct.
  Values: from memories that agree on the arguments both idealized programs end with the same four numbers.  The box L1
  loss, the GIoU loss and the total are computed by the same host operations on both sides.  The classification loss of
  the reference is the mean over all 64·4096·80 logits of the focal term against the scattered one-hot target; the
  kernel's is (the target-0 term summed over all logits by the grid region, plus the sum over each row's DISTINCT hit
  positions of the difference of the two terms) divided by the same count: the same real number.
-/
import proofs.«428731_j81046032875796_3_alg».proof.Defs
import proofs.«428731_j81046032875796_3_alg».proof.Proof.Gen.Kernel
import proofs.«428731_j81046032875796_3_alg».proof.Proof.Gen.KernelIdeal
import proofs.«428731_j81046032875796_3_alg».proof.Proof.Gen.ReferenceIdeal
import proofs.«428731_j81046032875796_3_alg».proof.Proof.Gen.Pre_finite_inputs
import proofs.«428731_j81046032875796_3_alg».proof.Proof.RefRunP
import proofs.«428731_j81046032875796_3_alg».proof.Proof.KernelFrame.Frame
import proofs.«428731_j81046032875796_3_alg».proof.Proof.KernelIdealFrame.Frame
import proofs.«428731_j81046032875796_3_alg».proof.Proof.SharedResults
import proofs.«428731_j81046032875796_3_alg».proof.Proof.ClsBridge

noncomputable section

open Idealize.ShloMosaic Idealize.ShloMosaic.TcCoe Idealize.SL.Sem

namespace Cert.Proof.Claims

theorem frame_k : Cert.frame_Kernel := fun m ρ _ => Cert.Kernel.KF.frame m ρ

theorem frame_ki : Cert.frame_KernelIdeal := fun m ρ _ => Cert.KernelIdeal.KF.frame m ρ

theorem frame_ri : Cert.frame_ReferenceIdeal := fun m ρ _ =>
  (θ_run Cert.ReferenceIdeal.defs _ _).mono (fun _ h c => (h c).2.2.2.2) (Cert.ReferenceIdeal.ValueP.run (F := Ideal) m ρ)

theorem preserves : Cert.preserves_Kernel_KernelIdeal := trivial

open Cert.KernelIdeal Cert.KernelIdeal.KF Cert.KernelIdeal.Gen in
/-- Both runs, side by side, at the reference's four result terms. -/
theorem algebraic : Cert.algebraic_KernelIdeal_ReferenceIdeal := by
  intro m ρ m' ρ' hpre hagree
  refine ⟨fun c => Cert.ReferenceIdeal.ReadP.val_main_v157 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)),
    fun c => Cert.ReferenceIdeal.ReadP.val_main_v62 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)),
    fun c => Cert.ReferenceIdeal.ReadP.val_main_v73 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)),
    fun c => Cert.ReferenceIdeal.ReadP.val_main_v152 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)), ?_, ?_⟩
  · refine (θ_run Cert.KernelIdeal.defs _ _).mono (fun r h c => ?_) (Cert.KernelIdeal.KF.run_main (F := Ideal) m ρ)
    have hcls := Cert.ClsBridge.cls_eq m m' hpre hagree c
    exact ⟨((h c).2 main_v170 (Pipeline.mem_restRefs_of main_v170 (by decide) (by decide))).trans (Cert.Shared.total_eq m m' hagree c hcls),
      ((h c).2 main_v75 (Pipeline.mem_restRefs_of main_v75 (by decide) (by decide))).trans hcls,
      ((h c).2 main_v86 (Pipeline.mem_restRefs_of main_v86 (by decide) (by decide))).trans (Cert.Shared.boxL1_eq m m' hagree c),
      ((h c).2 main_v165 (Pipeline.mem_restRefs_of main_v165 (by decide) (by decide))).trans (Cert.Shared.giou_eq m m' hagree c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩
  · exact Cert.ReferenceIdeal.ValueP.run (F := Ideal) m' ρ'

end Cert.Proof.Claims

end
-- ==== Proof.lean ====
/-
  The certificate's claim.

  The kernel computes a detection loss: a focal classification loss over 64·4096·80 logits against a one-hot
  target set at (row, matched prediction, matched class), an L1 and a GIoU loss over the matched boxes, and
  their weighted total.  The reference scatters the target and averages the elementwise focal term.  The kernel
  sums the target-0 term over every logit in a 4 × 4 grid of 16 × 81920 blocks (each row's sum accumulated across
  the four column blocks), and corrects on the host at each row's distinct matched positions by the difference
  of the target-1 and target-0 terms, duplicates removed by sorting the keys 80·prediction + class.  Over finite
  logits and index inputs in range both are the same real number; the box losses are the same host operations.
  The modules: Proof/Claims.lean states the five conjuncts; KernelIdealFrame/ and KernelFrame/ hold the two kernel
  programs' frames, KernelIdealValue/ the kernel's values, RefCls.lean the reference's classification loss,
  SharedResults.lean the results both programs compute alike, ClsBridge.lean and SumBridge.lean the sum identity.
-/
import proofs.«428731_j81046032875796_3_alg».proof.Defs
import proofs.«428731_j81046032875796_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
